-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768 : Shape := ⟨1, ![32768]⟩
abbrev S1000x512 : Shape := ⟨2, ![1000, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S32768x512 .f32) (main_arg1 : IVec S32768 32) (main_arg2 : FVec F S1000x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S32768x512 : Shape := ⟨2, ![32768, 512]⟩
abbrev S32768 : Shape := ⟨1, ![32768]⟩
abbrev S1000x512 : Shape := ⟨2, ![1000, 512]⟩
abbrev S1x32768 : Shape := ⟨2, ![1, 32768]⟩
abbrev S2x1024x512 : Shape := ⟨3, ![2, 1024, 512]⟩
abbrev S2048x512 : Shape := ⟨2, ![2048, 512]⟩
abbrev S1x2048 : Shape := ⟨2, ![1, 2048]⟩
abbrev S1x1024x512 : Shape := ⟨3, ![1, 1024, 512]⟩
abbrev S1024x512 : Shape := ⟨2, ![1024, 512]⟩
abbrev S1024x2048 : Shape := ⟨2, ![1024, 2048]⟩
abbrev S_ : Shape := ⟨0, ![]⟩
abbrev S1000 : Shape := ⟨1, ![1000]⟩
abbrev S32768x1 : Shape := ⟨2, ![32768, 1]⟩
abbrev S1024 : Shape := ⟨1, ![1024]⟩
abbrev S1x1024 : Shape := ⟨2, ![1, 1024]⟩
abbrev S1x1 : Shape := ⟨2, ![1, 1]⟩
abbrev S1024x1 : Shape := ⟨2, ![1024, 1]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1 : Shape := ⟨1, ![1]⟩

abbrev nBuf : Space → Nat
  | .hbm => 22
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S1000x512, .f32⟩
  | .hbm, ⟨3, _⟩ => ⟨S1x32768, .i32⟩
  | .hbm, ⟨4, _⟩ => ⟨S2x1024x512, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S1000, .f32⟩
  | .hbm, ⟨9, _⟩ => ⟨S32768x1, .i32⟩
  | .hbm, ⟨10, _⟩ => ⟨S1000, .f32⟩
  | .hbm, ⟨11, _⟩ => ⟨S_, .i32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S1024x512, .f32⟩
  | .hbm, ⟨18, _⟩ => ⟨S1x1, .f32⟩
  | .hbm, ⟨19, _⟩ => ⟨S1024x512, .f32⟩
  | .hbm, ⟨20, _⟩ => ⟨S_, .f32⟩
  | .hbm, ⟨21, _⟩ => ⟨S1000x512, .f32⟩
  | .local _ .vmem, ⟨0, _⟩ => ⟨S2048x512, .f32⟩
  | .local _ .vmem, ⟨1, _⟩ => ⟨S2048x512, .f32⟩
  | .local _ .vmem, ⟨2, _⟩ => ⟨S1x2048, .i32⟩
  | .local _ .vmem, ⟨3, _⟩ => ⟨S1x2048, .i32⟩
  | .local _ .vmem, ⟨4, _⟩ => ⟨S1x1024x512, .f32⟩
  | .local _ .vmem, ⟨5, _⟩ => ⟨S1x1024x512, .f32⟩
  | .local _ .vmem, ⟨6, _⟩ => ⟨S2x1024x512, .f32⟩
  | .local _ .vmem, ⟨7, _⟩ => ⟨S1x1024, .f32⟩
  | .local _ .vmem, ⟨8, _⟩ => ⟨S1024x512, .f32⟩
  | .local _ .vmem, ⟨9, _⟩ => ⟨S1x1, .f32⟩
  | .local _ .vmem, ⟨10, _⟩ => ⟨S1024x512, .f32⟩
  | .local _ .vmem, ⟨11, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![4], ![false]⟩

def k1_mult1 (i : grid1.Coords) : BitVec 32 :=
  let arg0 : BitVec 32 := BitVec.ofNat 32 (i 0).val
  let c256_i32 : BitVec 32 := 256#32
  let v3 : BitVec 32 := Scalar.muli arg0 c256_i32
  v3
def k1_off1 (i : grid1.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v6 : Index := Scalar.indexCast v4
  let c0_2 : Index := 0#32
  ![v6.toNat, 0]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S32768_S1x32768 : S32768.ShapeCasts S1x32768
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x2048_d0_w32 : S1024x2048.Iotas .tc 32 [0]
  broadcasts_S1x2048_S1024x2048 : S1x2048.Broadcasts S1024x2048
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  bcast_S_S32768 : S_.BroadcastsInDim S32768 (![] : Fin 0 → Fin S32768.rank)
  bcast_S_S1000 : S_.BroadcastsInDim S1000 (![] : Fin 0 → Fin S1000.rank)
  bcast_S32768_S32768x1_0 : S32768.BroadcastsInDim S32768x1 (![0] : Fin 1 → Fin S32768x1.rank)
  pads_S1000_S1024_0240 : S1000.Pads (![0] : Fin 1 → Nat) ![24] ![0] S1024
  h_S_ : 0 < S_.numel
  shapeCasts_S1024_S1x1024 : S1024.ShapeCasts S1x1024
  pads_S1000x512_S1024x512_0240_000 : S1000x512.Pads (![0, 0] : Fin 2 → Nat) ![24, 0] ![0, 0] S1024x512
  inb_S2x1024x512_S1x1024x512_0_0_0 : ∀ a, (![0, 0, 0] : Fin 3 → Nat) a + S1x1024x512.size a ≤ S2x1024x512.size a
  inb_S2x1024x512_S1x1024x512_1_0_0 : ∀ a, (![1, 0, 0] : Fin 3 → Nat) a + S1x1024x512.size a ≤ S2x1024x512.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1024x1 : S1x1024.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1_S1x1_0_0 : ∀ a, (![0, 0] : Fin 2 → Nat) a + S1x1.size a ≤ S1x1.size a
  h_S1x1 : 0 < S1x1.numel
  h_S256x512 : 0 < S256x512.numel
  reduces_S1024x512_S1024 : S1024x512.Reduces [1] S1024
  shapeCasts_S1024_S1024x1 : S1024.ShapeCasts S1024x1
  shapeCasts_S1024x1_S1x1024 : S1024x1.ShapeCasts S1x1024
  reduces_S256x512_S256 : S256x512.Reduces [1] S256
  shapeCasts_S256_S256x1 : S256.ShapeCasts S256x1
  broadcasts_S256x1_S256x1024 : S256x1.Broadcasts S256x1024
  broadcasts_S1x1024_S256x1024 : S1x1024.Broadcasts S256x1024
  iota_S256x1024_d0_w32 : S256x1024.Iotas .tc 32 [0]
  iota_S256x1024_d1_w32 : S256x1024.Iotas .tc 32 [1]
  reduces_S256x1024_S256 : S256x1024.Reduces [1] S256
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  slices_S1024x512_S1000x512_0_0 : S1024x512.Slices ![0, 0] S1000x512
  dot_S1024x2048_S2048x512_S1024x512_1_0_0_1_n_n_wf : DotDims.WF S1024x2048 S2048x512 S1024x512 [1] [0] [0] [1] [] []
  scatter_S1000_S32768x1_S32768_n_0_0_1_wf : ScatterDims.WF S1000 S32768x1 S32768 [] [0] [0] 1
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x32768.size a
  hwx0_1 : ∀ i : grid0.Coords, EltTy.bits .i32 = 32 ∨ (Rect.block (s := S1x32768) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S2x1024x512.size a
  hwx0_2 : ∀ i : grid0.Coords, EltTy.bits .f32 = 32 ∨ (Rect.block (s := S2x1024x512) S1x1024x512.size (cc0_transform_2 i) (hinb0_2 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x512.size a ≤ S1024x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x1024x512.size a ≤ S2x1024x512.size a
  hwx1_0 : ∀ i : grid1.Coords, EltTy.bits .f32 = 32 ∨ (Rect.block (s := S2x1024x512) S2x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x512.size a
  hwx1_2 : ∀ i : grid1.Coords, EltTy.bits .f32 = 32 ∨ (Rect.block (s := S1024x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S1024x512.size a
  hwx1_4 : ∀ i : grid1.Coords, EltTy.bits .f32 = 32 ∨ (Rect.block (s := S1024x512) S1024x512.size (cc1_transform_4 i) (hinb1_4 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2x1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9_1) S1024x512.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond1 i == 1#1) | ⟨_ + 5, h⟩ => absurd h (Nat.not_lt.2 (Nat.le_add_left _ _))

class Facts : Prop extends Facts₀ where

variable [Facts]
-- ==== ReferenceIdeal.lean ====
abbrev S32768x512 : Shape := ⟨2, ![32768, 512]⟩
abbrev S32768 : Shape := ⟨1, ![32768]⟩
abbrev S1000x512 : Shape := ⟨2, ![1000, 512]⟩
abbrev S_ : Shape := ⟨0, ![]⟩
abbrev S1000 : Shape := ⟨1, ![1000]⟩
abbrev S32768x1 : Shape := ⟨2, ![32768, 1]⟩
abbrev S1000x1 : Shape := ⟨2, ![1000, 1]⟩
abbrev S1x1000 : Shape := ⟨2, ![1, 1000]⟩
abbrev S1000x1000 : Shape := ⟨2, ![1000, 1000]⟩
abbrev S512x1000 : Shape := ⟨2, ![512, 1000]⟩

abbrev nBuf : Space → Nat
  | .hbm => 52
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S1000x512, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S1000, .f32⟩
  | .hbm, ⟨7, _⟩ => ⟨S32768x1, .i32⟩
  | .hbm, ⟨8, _⟩ => ⟨S1000, .f32⟩
  | .hbm, ⟨9, _⟩ => ⟨S_, .f32⟩
  | .hbm, ⟨10, _⟩ => ⟨S1000x512, .f32⟩
  | .hbm, ⟨11, _⟩ => ⟨S32768x1, .i32⟩
  | .hbm, ⟨12, _⟩ => ⟨S1000x512, .f32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S1000x1, .f32⟩
  | .hbm, ⟨17, _⟩ => ⟨S1000x512, .f32⟩
  | .hbm, ⟨18, _⟩ => ⟨S1000x512, .f32⟩
  | .hbm, ⟨19, _⟩ => ⟨S1000x512, .f32⟩
  | .hbm, ⟨20, _⟩ => ⟨S1000x512, .f32⟩
  | .hbm, ⟨21, _⟩ => ⟨S_, .f32⟩
  | .hbm, ⟨22, _⟩ => ⟨S1000, .f32⟩
  | .hbm, ⟨23, _⟩ => ⟨S1000x1, .f32⟩
  | .hbm, ⟨24, _⟩ => ⟨S1x1000, .f32⟩
  | .hbm, ⟨25, _⟩ => ⟨S1000x1000, .f32⟩
  | .hbm, ⟨26, _⟩ => ⟨S1000x1000, .f32⟩
  | .hbm, ⟨27, _⟩ => ⟨S1000x1000, .f32⟩
  | .hbm, ⟨28, _⟩ => ⟨S512x1000, .f32⟩
  | .hbm, ⟨29, _⟩ => ⟨S1000x1000, .f32⟩
  | .hbm, ⟨30, _⟩ => ⟨S_, .f32⟩
  | .hbm, ⟨31, _⟩ => ⟨S1000x1000, .f32⟩
  | .hbm, ⟨32, _⟩ => ⟨S1000x1000, .f32⟩
  | .hbm, ⟨33, _⟩ => ⟨S1000x1000, .f32⟩
  | .hbm, ⟨34, _⟩ => ⟨S_, .f32⟩
  | .hbm, ⟨35, _⟩ => ⟨S1000x1000, .f32⟩
  | .hbm, ⟨36, _⟩ => ⟨S1000x1000, .f32⟩
  | .hbm, ⟨37, _⟩ => ⟨S1000x1000, .f32⟩
  | .hbm, ⟨38, _⟩ => ⟨S_, .f32⟩
  | .hbm, ⟨39, _⟩ => ⟨S1000x1000, .f32⟩
  | .hbm, ⟨40, _⟩ => ⟨S1000x1000, .i1⟩
  | .hbm, ⟨41, _⟩ => ⟨S_, .f32⟩
  | .hbm, ⟨42, _⟩ => ⟨S1000x1000, .f32⟩
  | .hbm, ⟨43, _⟩ => ⟨S1000x1000, .f32⟩
  | .hbm, ⟨44, _⟩ => ⟨S_, .f32⟩
  | .hbm, ⟨45, _⟩ => ⟨S_, .f32⟩
  | .hbm, ⟨46, _⟩ => ⟨S1000x1000, .f32⟩
  | .hbm, ⟨47, _⟩ => ⟨S1000x1000, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S_S1000 : S_.BroadcastsInDim S1000 (![] : Fin 0 → Fin S1000.rank)
  bcast_S32768_S32768x1_0 : S32768.BroadcastsInDim S32768x1 (![0] : Fin 1 → Fin S32768x1.rank)
  bcast_S_S1000x512 : S_.BroadcastsInDim S1000x512 (![] : Fin 0 → Fin S1000x512.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  reducesTo_S1000x512_S1000_d1 : S1000x512.ReducesTo [1] S1000
  h_S_ : 0 < S_.numel
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  transposes_S1000x512_S512x1000_1_0 : S1000x512.Transposes [1, 0] S512x1000
  bcast_S_S1000x1000 : S_.BroadcastsInDim S1000x1000 (![] : Fin 0 → Fin S1000x1000.rank)
  reducesTo_S1000x1000_S_d0_1 : S1000x1000.ReducesTo [0, 1] S_
  scatter_S1000_S32768x1_S32768_n_0_0_1_wf : ScatterDims.WF S1000 S32768x1 S32768 [] [0] [0] 1
  scatter_S1000x512_S32768x1_S32768x512_1_0_0_1_wf : ScatterDims.WF S1000x512 S32768x1 S32768x512 [1] [0] [0] 1
  dot_S1000x512_S512x1000_S1000x1000_1_0_0_1_n_n_wf : DotDims.WF S1000x512 S512x1000 S1000x1000 [1] [0] [0] [1] [] []

variable [Facts₀]

def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf
def scatter_S1000x512_S32768x1_S32768x512_1_0_0_1 : ScatterDims S1000x512 S32768x1 S32768x512 where
  updateWindowDims := [1]
  insertedWindowDims := [0]
  scatterDimsToOperandDims := [0]
  indexVectorDim := 1
  wf := scatter_S1000x512_S32768x1_S32768x512_1_0_0_1_wf
def dot_S1000x512_S512x1000_S1000x1000_1_0_0_1_n_n : DotDims S1000x512 S512x1000 S1000x1000 where
  lhsContracting := [1]
  rhsContracting := [0]
  lhsNonContracting := [0]
  rhsNonContracting := [1]
  lhsBatch := []
  rhsBatch := []
  wf := dot_S1000x512_S512x1000_S1000x1000_1_0_0_1_n_n_wf

class Facts : Prop extends Facts₀ where

variable [Facts]
-- ==== Proof.KDefs.lean ====
/-
  What the two kernels leave behind, point by point, as terms over the kernels' own arithmetic.

  First kernel (grid 2 × 8, sixteen points in row-major order): at point t the feature window holds rows
  2048 t … 2048 t + 2047 of the features and the label window the same stretch of labels; the output window's
  block is the slab of the half t / 8 and is carried over the eight points of that half: at the half's first
  point it is reset to zero and the point's product added, at the others the product is added to what the point
  before left.

  Second kernel (grid 4): its three inputs are whole arrays with constant index maps. At the first point it forms
  the new centres from them, keeps them in its scratch buffer, copies them to the second output and zeroes the
  first; at every point it adds the point's share of the loss (256 rows of the distance matrix) to the first output.
-/
import proofs.«421983_j29111288332477_3_alg».proof.Proof.Gen.Kernel.Launch
import proofs.«421983_j29111288332477_3_alg».proof.Proof.Gen.Kernel.Skeleton
import proofs.«421983_j29111288332477_3_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when a region is entered
variable (V : (c : Dev nD) → (b : Ref sig .tc) → Buf (Elt F) ((c : Thread nD τ).loc b))

/-! ## The first kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output window's buffer holds after point `n`: the point's one-hot product added to zero at the
    first point of a half, to what the point before left elsewhere. -/
def acc0 (c : Dev nD) : (n : ℕ) → n < cfg0.N → Vec F S1x1024x512 .f32
  | 0, hn => k0_pay2 (iblk0 V c 1 ⟨0, hn⟩) (iblk0 V c 0 ⟨0, hn⟩) k0_pay1
  | n + 1, hn => k0_pay2 (iblk0 V c 1 ⟨n + 1, hn⟩) (iblk0 V c 0 ⟨n + 1, hn⟩)
      (if (n + 1) % 8 = 0 then k0_pay1 else acc0 c n (Nat.lt_of_succ_lt hn))

theorem acc0_zero (c : Dev nD) (hn : 0 < cfg0.N) :
    acc0 V c 0 hn = k0_pay2 (iblk0 V c 1 ⟨0, hn⟩) (iblk0 V c 0 ⟨0, hn⟩) k0_pay1 := rfl

theorem acc0_succ (c : Dev nD) (n : ℕ) (hn : n + 1 < cfg0.N) :
    acc0 V c (n + 1) hn = k0_pay2 (iblk0 V c 1 ⟨n + 1, hn⟩) (iblk0 V c 0 ⟨n + 1, hn⟩)
      (if (n + 1) % 8 = 0 then k0_pay1 else acc0 V c n (Nat.lt_of_succ_lt hn)) := rfl

/-- The first kernel's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The second kernel -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two slabs of the partial sums, as rectangles of the first window's block. -/
abbrev slabA : Rect S2x1024x512 := Rect.unit (s := S2x1024x512) ![0, 0, 0] S1x1024x512.size inb_S2x1024x512_S1x1024x512_0_0_0
abbrev slabB : Rect S2x1024x512 := Rect.unit (s := S2x1024x512) ![1, 0, 0] S1x1024x512.size inb_S2x1024x512_S1x1024x512_1_0_0

/-- The new centres (padded to 1024 rows), as the first point computes them from the three input blocks. -/
def nc1 (c : Dev nD) : Vec F S1024x512 .f32 :=
  k1_pay2 (View.ld (iblk1 V c 0 t1_0) slabA) (View.ld (iblk1 V c 0 t1_0) slabB) (iblk1 V c 1 t1_0) (iblk1 V c 2 t1_0)

/-- The 256 rows of the new centres that point `i` pairs with all of them. -/
abbrev rowsRect (i : grid1.Coords) : Rect S1024x512 := Rect.unit (s := S1024x512) (k1_off1 i) S256x512.size (k1_off1_inb i)

/-- The hinge terms of point `t`'s 256 × 1024 block of pairs. -/
def hinge1 (c : Dev nD) (t : Fin cfg1.N) : FVec F S256x1024 .f32 :=
  k1_pay5 (grid1.coords t) (nc1 V c) (View.ld (nc1 V c) (rowsRect (grid1.coords t)))

/-- The column numbers of a 256 × 1024 block. -/
abbrev colIota : IVec S256x1024 32 := iota .tc S256x1024 32 [1] iota_S256x1024_d1_w32

/-- What the loss window's buffer holds after point `n`: the point's share added to zero at the first point, to
    what the point before left afterwards. -/
def loss1 (c : Dev nD) : (n : ℕ) → n < cfg1.N → Vec F S1x1 .f32
  | 0, hn => k1_pay1 colIota (hinge1 V c ⟨0, hn⟩) (k1_pay6 (grid1.coords ⟨0, hn⟩)) k1_pay7 k1_pay3
  | n + 1, hn => k1_pay1 colIota (hinge1 V c ⟨n + 1, hn⟩) (k1_pay6 (grid1.coords ⟨n + 1, hn⟩)) k1_pay7
      (loss1 c n (Nat.lt_of_succ_lt hn))

theorem loss1_zero (c : Dev nD) (hn : 0 < cfg1.N) :
    loss1 V c 0 hn = k1_pay1 colIota (hinge1 V c ⟨0, hn⟩) (k1_pay6 (grid1.coords ⟨0, hn⟩)) k1_pay7 k1_pay3 := rfl
theorem loss1_succ (c : Dev nD) (n : ℕ) (hn : n + 1 < cfg1.N) :
    loss1 V c (n + 1) hn = k1_pay1 colIota (hinge1 V c ⟨n + 1, hn⟩) (k1_pay6 (grid1.coords ⟨n + 1, hn⟩)) k1_pay7
      (loss1 V c n (Nat.lt_of_succ_lt hn)) := rfl

/-- The scratch buffer as a memref. -/
abbrev scr : Memref sig .tc .vmem S1024x512 .f32 := Memref.whole cc1_scratch0

/-- The scoped buffers that are no staging buffer of the second kernel and not its scratch: the first kernel's six
    staging buffers, each at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The second kernel's invariant before position `n`: before the first point every scoped buffer it does not stage
    is at some contents; afterwards the scratch holds the new centres. The generator register rides along. -/
def Phi1 (c : Dev nD) : ℕ → sProp 𝕄
  | 0 => Pipeline.ΦA spec1 c
  | _ + 1 => iprop(otherScoped (F := F) c ∗ owns (c : Thread nD τ) scr fullShare (nc1 V c) ∗ ∃ r, prngReg c r)

/-- The second kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => loss1 V c t.val t.isLt
    | ⟨4, _⟩ => nc1 V c
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = loss1 V c t.val t.isLt := by dsimp only [dat1]
theorem after1_4 (c : Dev nD) (t : Fin cfg1.N) : (dat1 V c).after 4 t = nc1 V c := by dsimp only [dat1]

end Cert.Kernel.Hand

end
-- ==== Proof.KRunDefs.lean ====
/-
  The buffer contents along the program: what each kernel finds when it is entered and what it leaves.
-/
import proofs.«421983_j29111288332477_3_alg».proof.Proof.KDefs
import proofs.«421983_j29111288332477_3_alg».proof.Proof.Gen.Kernel.Regions
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- What the first kernel finds: the launch contents after the first host stretch. -/
abbrev Vin0 (c : Dev nD) (b : Ref sig .tc) : Buf (Elt F) ((c : Thread nD τ).loc b) := Gen.V1 m c b

/-- After the first kernel: its arrays at what its write-backs leave, every other buffer as entered. -/
def W2 (c : Dev nD) : Valuation τ sig (Elt F) :=
  Pipeline.withArrays spec0 c (Gen.V1 m c) fun w => (dat0 (Vin0 m) c).arrAt w cfg0.N

/-- The first kernel's part of what the regions leave. -/
def outsA : Gen.Outs (F := F) := fun _ r c => W2 m c r

/-- What the second kernel finds: the contents after the host stretches between the two kernels. -/
abbrev Vin1 (c : Dev nD) (b : Ref sig .tc) : Buf (Elt F) ((c : Thread nD τ).loc b) := Gen.V6 m (outsA m) c b

/-- After the second kernel: its arrays at what its write-backs leave, every other buffer as entered. -/
def W7 (c : Dev nD) : Valuation τ sig (Elt F) :=
  Pipeline.withArrays spec1 c (Gen.V6 m (outsA m) c) fun w => (dat1 (Vin1 m) c).arrAt w cfg1.N

/-- What the two kernels leave in the buffers they may change. -/
def outsK : Gen.Outs (F := F) := fun J r c => if J = 2 then W2 m c r else W7 m c r

theorem outsK_two (r : Ref sig .tc) (c : Dev nD) : outsK m 2 r c = W2 m c r := by
  unfold outsK; rw [if_pos rfl]

theorem outsK_seven (r : Ref sig .tc) (c : Dev nD) : outsK m 7 r c = W7 m c r := by
  unfold outsK; rw [if_neg (by decide)]

/-- The first kernel's output array after it. -/
theorem W2_out (c : Dev nD) : W2 m c main_v1 = (dat0 (Vin0 m) c).arrAt 2 cfg0.N := by
  unfold W2; exact Pipeline.withArrays_arr spec0 launch0.win.arr_inj c _ _ 2

/-- The second kernel's two output arrays after it. -/
theorem W7_loss (c : Dev nD) : W7 m c main_v9_0 = (dat1 (Vin1 m) c).arrAt 3 cfg1.N := by
  unfold W7; exact Pipeline.withArrays_arr spec1 launch1.win.arr_inj c _ _ 3
theorem W7_newc (c : Dev nD) : W7 m c main_v9_1 = (dat1 (Vin1 m) c).arrAt 4 cfg1.N := by
  unfold W7; exact Pipeline.withArrays_arr spec1 launch1.win.arr_inj c _ _ 4

/-- The contents between the kernels depend on what the first one left only. -/
theorem V6_outsK (c : Dev nD) : Gen.V6 m (outsK m) c = Gen.V6 m (outsA m) c := by
  show StableHlo.after hostOps1_3 (StableHlo.after hostOps1_2 (StableHlo.after hostOps1_1 (StableHlo.after hostOps1
      (Function.update (Gen.V1 m c) main_v1 (outsK m 2 main_v1 c))))) = _
  rw [outsK_two]
  rfl

end Cert.Kernel.Hand

end
-- ==== Proof.KBody0.lean ====
/-
  The first kernel's body obligation: at every grid point the body, run on the point's staging buffers, leaves
  the two input blocks as it found them and the output block at the running sum of the one-hot products.
-/
import proofs.«421983_j29111288332477_3_alg».proof.Proof.KDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first kernel's body -/

/-- The body's one branch: the step coordinate is zero. -/
abbrev cond0 (i : grid0.Coords) : Prop :=
  (Scalar.cmpi .ne (Scalar.extui (Scalar.cmpi .eq (BitVec.ofNat 32 (i 1).val) 0#32)) 0#32) = 1#1

/-- It holds at the first point of each half. -/
theorem hcond0 : ∀ t : Fin cfg0.N, cond0 (grid0.coords t) ↔ t.val % 8 = 0 :=
  (by decide +kernel : ∀ t : Fin grid0.N, cond0 (grid0.coords t) ↔ t.val % 8 = 0)

set_option maxHeartbeats 1000000 in
/-- The body at a half's first point, on whole staging memrefs: the inputs keep their contents, the output's buffer,
    whatever it held, ends with the pieces the two stores wrote. -/
noncomputable def kernelRun0_A (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : cond0 i) (x0 : Vec F S2048x512 .f32) (x1 : Vec F S1x2048 .i32) :
    { L : List (View.Piece (Elt F) S1x1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__segment_reduce_kernel i arg2 harg2 arg3 harg3 arg4 harg4) K } := by
  refine ⟨?_, fun E K => ?run⟩
  case run =>
    simp only [cc0__segment_reduce_kernel_eq_skeleton]; unfold cc0__segment_reduce_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at any other point: the output's buffer is read before it is overwritten. -/
noncomputable def kernelRun0_B (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : ¬cond0 i) (x0 : Vec F S2048x512 .f32) (x1 : Vec F S1x2048 .i32) (xo : Vec F S1x1024x512 .f32) :
    { L : List (View.Piece (Elt F) S1x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__segment_reduce_kernel i arg2 harg2 arg3 harg3 arg4 harg4) K } := by
  refine ⟨?_, fun E K => ?run⟩
  case run =>
    simp only [cc0__segment_reduce_kernel_eq_skeleton]; unfold cc0__segment_reduce_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

variable (V : (c : Dev nD) → (b : Ref sig .tc) → Buf (Elt F) ((c : Thread nD τ).loc b))

theorem hz3 : (![0, 0, 0] : Fin 3 → ℕ) = fun _ => 0 := by
  funext a; fin_cases a <;> rfl
theorem hz2 : (![0, 0] : Fin 2 → ℕ) = fun _ => 0 := by
  funext a; fin_cases a <;> rfl

/-- The stores of a half's first point cover the output block. -/
theorem cover0_A (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : cond0 i) (x0 : Vec F S2048x512 .f32) (x1 : Vec F S1x2048 .i32) (y : S1x1024x512.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x1024x512.size (by sl_kernel_rfl) y

theorem cover0_B (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : ¬cond0 i) (x0 : Vec F S2048x512 .f32) (x1 : Vec F S1x2048 .i32) (xo : Vec F S1x1024x512 .f32) (y : S1x1024x512.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x1024x512.size (by sl_kernel_rfl) y

/-- At a half's first point the output's buffer ends at the point's product added to zero. -/
theorem left0_A (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : cond0 i) (x0 : Vec F S2048x512 .f32) (x1 : Vec F S1x2048 .i32) (f : arg4.view.ty.Contents (Elt F)) :
    arg4.view.read (Elt F) (arg4.view.writes (Elt F) f (kernelRun0_A c i arg2 harg2 arg3 harg3 arg4 harg4 hc0 x0 x1).1)
      = k0_pay2 x1 x0 k0_pay1 := by
  rw [View.read_writes_eq_canon _ _ _ (cover0_A c i arg2 harg2 arg3 harg3 arg4 harg4 hc0 x0 x1)]
  unfold kernelRun0_A; dsimp only
  sl_unfold_words
  rw [View.canon_cons_unit_zero (S := S1x1024x512) hz3]
  simp only [View.readAt_eq_ld, harg2.read_unread, harg3.read_unread, View.ld_unit_zero (S := S2048x512) hz2,
    View.ld_unit_zero (S := S1x2048) hz2, View.readCov_unit_zero (S := S1x1024x512) _ hz3]

/-- At any other point it ends at the point's product added to what it held. -/
theorem left0_B (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : ¬cond0 i) (x0 : Vec F S2048x512 .f32) (x1 : Vec F S1x2048 .i32) (xo : Vec F S1x1024x512 .f32) (f : arg4.view.ty.Contents (Elt F)) :
    arg4.view.read (Elt F) (arg4.view.writes (Elt F) f (kernelRun0_B c i arg2 harg2 arg3 harg3 arg4 harg4 hc0 x0 x1 xo).1)
      = k0_pay2 x1 x0 xo := by
  rw [View.read_writes_eq_canon _ _ _ (cover0_B c i arg2 harg2 arg3 harg3 arg4 harg4 hc0 x0 x1 xo)]
  unfold kernelRun0_B; dsimp only
  sl_unfold_words
  rw [View.canon_unit_zero (S := S1x1024x512) hz3]
  simp only [View.readAt_eq_ld, harg2.read_unread, harg3.read_unread, harg4.read_unread, View.ld_unit_zero (S := S2048x512) hz2,
    View.ld_unit_zero (S := S1x2048) hz2, View.ld_unit_zero (S := S1x1024x512) hz3]

/-! ## What each window's buffer holds when the body runs -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a half's first point the output's buffer is fresh: the run's first point, or the point after a write-back. -/
theorem before0_2_A (c : Dev nD) (t : Fin cfg0.N) (h0 : t.val % 8 = 0) (d) : (dat0 V c).before 2 t d = d :=
  Dat.before_out_reset _ 2 rfl t (by
    by_cases hz : t.val = 0
    · exact .inl hz
    · exact .inr ⟨hz, (flush0_2 _).mpr (by dsimp only; omega)⟩) d

/-- At any other point it holds what the point before left. -/
theorem before0_2_B (c : Dev nD) (t : Fin cfg0.N) (h0 : ¬t.val % 8 = 0) (d) :
    (dat0 V c).before 2 t d = acc0 V c (t.val - 1) (Nat.lt_of_le_of_lt (Nat.sub_le _ _) t.isLt) := by
  rw [Dat.before_out_kept _ 2 rfl t (by omega) (Bool.eq_false_iff.mpr fun h => by have := (flush0_2 _).mp h; dsimp only at this; omega)
    (fun _ => rfl) (fun _ _ => rfl)]
  dsimp only [dat0]

theorem acc0_A (c : Dev nD) (t : Fin cfg0.N) (h0 : t.val % 8 = 0) :
    acc0 V c t.val t.isLt = k0_pay2 (iblk0 V c 1 t) (iblk0 V c 0 t) k0_pay1 := by
  obtain ⟨n, hn⟩ := t
  cases n with
  | zero => rfl
  | succ n => rw [acc0_succ, if_pos h0]

theorem acc0_B (c : Dev nD) (t : Fin cfg0.N) (h0 : ¬t.val % 8 = 0) :
    acc0 V c t.val t.isLt = k0_pay2 (iblk0 V c 1 t) (iblk0 V c 0 t) (acc0 V c (t.val - 1) (Nat.lt_of_le_of_lt (Nat.sub_le _ _) t.isLt)) := by
  obtain ⟨n, hn⟩ := t
  cases n with
  | zero => exact absurd (Nat.zero_mod _) h0
  | succ n => rw [acc0_succ, if_neg h0]; rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks; the point's position in its half says which case
    runs and what the output's buffer held; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · simp only [before0_2_A V c t h0]
    rw [acc0_A V c t h0]
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%f2, H2⟩⟩
    isplitl [HΦ]; · iexact HΦ
    isplitl [Ho]; · iexact Ho
    isplitl [H0]; · iexact H0
    isplitl [H1]; · iexact H1
    unfold owns; iexists _; isplitr
    swap; · iexact H2
    ipureintro
    first
      | exact (left0_A c (grid0.coords t) _ _ _ _ _ _ ((hcond0 t).mpr h0) (iblk0 V c 0 t) (iblk0 V c 1 t) _).symm
      | exact (left0_A c (grid0.coords t) _ _ _ _ _ _ ((hcond0 t).mpr h0) (iblk0 V c 0 t) (iblk0 V c 1 t) _)
  · simp only [before0_2_B V c t h0]
    rw [acc0_B V c t h0]
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t)
      (acc0 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%f2, H2⟩⟩
    isplitl [HΦ]; · iexact HΦ
    isplitl [Ho]; · iexact Ho
    isplitl [H0]; · iexact H0
    isplitl [H1]; · iexact H1
    unfold owns; iexists _; isplitr
    swap; · iexact H2
    ipureintro
    first
      | exact (left0_B c (grid0.coords t) _ _ _ _ _ _ (fun h => h0 ((hcond0 t).mp h)) (iblk0 V c 0 t) (iblk0 V c 1 t) _ _).symm
      | exact (left0_B c (grid0.coords t) _ _ _ _ _ _ (fun h => h0 ((hcond0 t).mp h)) (iblk0 V c 0 t) (iblk0 V c 1 t) _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second kernel's body obligation: the first point forms the new centres in the scratch buffer, copies them to
  the second output and starts the loss at the point's share; every later point reads the scratch and adds its share.
-/
import proofs.«421983_j29111288332477_3_alg».proof.Proof.KDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The second kernel's body -/

/-- The body's one branch: the grid coordinate is zero. -/
abbrev cond1 (i : grid1.Coords) : Prop := k1_cond1 i = 1#1

/-- It holds at the first point only. -/
theorem hcond1 : ∀ t : Fin cfg1.N, cond1 (grid1.coords t) ↔ t.val % 4 = 0 :=
  (by decide +kernel : ∀ t : Fin grid1.N, cond1 (grid1.coords t) ↔ t.val % 4 = 0)

set_option maxHeartbeats 2000000 in
/-- The body at the first point, on whole staging memrefs and the whole scratch: the three inputs keep their contents;
    the loss buffer, the centres' buffer and the scratch, whatever they held, end with the pieces the stores wrote. -/
noncomputable def kernelRun1_A (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) :
    Σ' (L4 : List (View.Piece (Elt F) S1x1 .f32)) (L5 : List (View.Piece (Elt F) S1024x512 .f32)), { L6 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__postprocess_cdist_kernel i arg1 harg1 arg2 harg2 arg3 harg3 arg4 harg4 arg5 harg5 arg6 harg6) K } := by
  refine ⟨?_, ?_, ?_, fun E K => ?run⟩
  case run =>
    simp only [cc1__postprocess_cdist_kernel_eq_skeleton]; unfold cc1__postprocess_cdist_kernel_skel
    simp only [k1_part1_eq_skeleton]
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    iexists _; iexact H6

set_option maxHeartbeats 2000000 in
/-- The body at a later point: it reads the scratch and the loss buffer, and overwrites the loss buffer. -/
noncomputable def kernelRun1_B (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1 i) (xo : Vec F S1x1 .f32) (xs : Vec F S1024x512 .f32) :
    { L4 : List (View.Piece (Elt F) S1x1 .f32) //
      ∀ (E : Set ℕ) (K : PUnit → sProp 𝕄),
        iprop(owns (c : Thread nD τ) arg4 fullShare xo ∗ owns (c : Thread nD τ) arg6 fullShare xs
            ∗ (iprop((∃ f, arg4.view.loc (c : Thread nD τ) ↦[arg4.view.set]{fullShare} arg4.view.writes (Elt F) f L4)
                ∗ owns (c : Thread nD τ) arg6 fullShare xs) -∗ K ⟨⟩))
          ⊢ wp frame (wpE (defs₀ (F := F)) Variants.none c none) E (cc1__postprocess_cdist_kernel i arg1 harg1 arg2 harg2 arg3 harg3 arg4 harg4 arg5 harg5 arg6 harg6) K } := by
  refine ⟨?_, fun E K => ?run⟩
  case run =>
    simp only [cc1__postprocess_cdist_kernel_eq_skeleton]; unfold cc1__postprocess_cdist_kernel_skel
    simp only [k1_part1_eq_skeleton]
    unfold owns
    iintro ⟨⟨%f4, %hf4, H4⟩, ⟨%f6, %hf6, H6⟩, Hk⟩
    obtain rfl := harg4.eq_unread hf4; obtain rfl := harg6.eq_unread hf6
    sl_exec (disch := first | exact hc0)
    sl_step
    iapply Hk
    isplitl [H4]; · iexists _; iexact H4
    iexists _; isplitr; · ipureintro; exact harg6.read_unread _
    iexact H6

/-- The new centres from the three input blocks. -/
theorem hz2' : (![0, 0] : Fin 2 → ℕ) = fun _ => 0 := by
  funext a; fin_cases a <;> rfl

/-- Reading an array through the rectangle that is all of it gives the array back. -/
theorem whole_a (X : Vec F S1024x512 .f32) :
    (fun j => X ((Rect.unit (s := S1024x512) ![0, 0] S1024x512.size inb_S1024x512_S1024x512_0_0).idx j)) = X :=
  View.ld_unit_zero (S := S1024x512) hz2' _ X
theorem whole_b (X : Vec F S1x1 .f32) :
    (fun j => X ((Rect.unit (s := S1x1) ![0, 0] S1x1.size inb_S1x1_S1x1_0_0).idx j)) = X :=
  View.ld_unit_zero (S := S1x1) hz2' _ X

abbrev ncOf (x0 : Vec F S2x1024x512 .f32) (x1 : Vec F S1x1024 .f32) (x2 : Vec F S1024x512 .f32) : Vec F S1024x512 .f32 :=
  k1_pay2 (View.ld x0 slabA) (View.ld x0 slabB) x1 x2

/-- A point's share added to what the loss buffer held, from the centres in the scratch. -/
abbrev lossOf (i : grid1.Coords) (xs : Vec F S1024x512 .f32) (xo : Vec F S1x1 .f32) : Vec F S1x1 .f32 :=
  k1_pay1 colIota (k1_pay5 i xs (View.ld xs (rowsRect i))) (k1_pay6 i) k1_pay7 xo

theorem cover1_A_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (y : S1x1.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S1x1.size (by sl_kernel_rfl) y

theorem cover1_A_5 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (y : S1024x512.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1024x512.size (by sl_kernel_rfl) y

theorem cover1_A_6 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (y : S1024x512.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1024x512.size (by sl_kernel_rfl) y

theorem cover1_B_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1 i) (xo : Vec F S1x1 .f32) (xs : Vec F S1024x512 .f32) (y : S1x1.Idx) :
    ∃ pc ∈ (kernelRun1_B c i arg1 harg1 arg2 harg2 arg3 harg3 arg4 harg4 arg5 harg5 arg6 harg6 hc0 xo xs).1, y ∈ pc.1.set :=
  View.cover_of_tiledL (kernelRun1_B c i arg1 harg1 arg2 harg2 arg3 harg3 arg4 harg4 arg5 harg5 arg6 harg6 hc0 xo xs).1 S1x1.size (by sl_kernel_rfl) y

/-- At the first point the scratch ends at the new centres, -/
theorem left1_A_6 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (f : arg6.view.ty.Contents (Elt F)) :
    arg6.view.read (Elt F) (arg6.view.writes (Elt F) f (kernelRun1_A c i arg1 harg1 arg2 harg2 arg3 harg3 arg4 harg4 arg5 harg5 arg6 harg6 hc0 x0 x1 x2).2.2.1) = ncOf x0 x1 x2 := by
  rw [View.read_writes_eq_canon _ _ _ (cover1_A_6 c i arg1 harg1 arg2 harg2 arg3 harg3 arg4 harg4 arg5 harg5 arg6 harg6 hc0 x0 x1 x2)]
  unfold kernelRun1_A; dsimp only
  sl_unfold_run_names
  simp only [View.canon_unit_zero (S := S1024x512) hz2', View.readAt_eq_ld, harg1.read_unread, harg2.read_unread, harg3.read_unread,
    View.ld_unit_zero (S := S1x1024) hz2', View.ld_unit_zero (S := S1024x512) hz2']

/-- the centres' output buffer too, -/
theorem left1_A_5 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (f : arg5.view.ty.Contents (Elt F)) :
    arg5.view.read (Elt F) (arg5.view.writes (Elt F) f (kernelRun1_A c i arg1 harg1 arg2 harg2 arg3 harg3 arg4 harg4 arg5 harg5 arg6 harg6 hc0 x0 x1 x2).2.1) = ncOf x0 x1 x2 := by
  rw [View.read_writes_eq_canon _ _ _ (cover1_A_5 c i arg1 harg1 arg2 harg2 arg3 harg3 arg4 harg4 arg5 harg5 arg6 harg6 hc0 x0 x1 x2)]
  unfold kernelRun1_A; dsimp only
  sl_unfold_run_names
  simp only [View.canon_unit_zero (S := S1024x512) hz2', View.readCov_eq_canon', View.readAt_eq_ld, harg1.read_unread, harg2.read_unread, harg3.read_unread,
    View.ld_unit_zero (S := S1x1024) hz2', View.ld_unit_zero (S := S1024x512) hz2', whole_a, whole_b, View.read_writes_junk_eq_canon]

/-- and the loss buffer at the first point's share added to zero. -/
theorem left1_A_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (f : arg4.view.ty.Contents (Elt F)) :
    arg4.view.read (Elt F) (arg4.view.writes (Elt F) f (kernelRun1_A c i arg1 harg1 arg2 harg2 arg3 harg3 arg4 harg4 arg5 harg5 arg6 harg6 hc0 x0 x1 x2).1) = lossOf i (ncOf x0 x1 x2) k1_pay3 := by
  rw [View.read_writes_eq_canon _ _ _ (cover1_A_4 c i arg1 harg1 arg2 harg2 arg3 harg3 arg4 harg4 arg5 harg5 arg6 harg6 hc0 x0 x1 x2)]
  unfold kernelRun1_A; dsimp only
  sl_unfold_run_names
  simp only [View.canon_cons_unit_zero (S := S1x1) hz2', View.canon_unit_zero (S := S1024x512) hz2', View.readCov_eq_canon', View.readAt_eq_ld, harg1.read_unread, harg2.read_unread, harg3.read_unread,
    View.ld_unit_zero (S := S1x1024) hz2', View.ld_unit_zero (S := S1024x512) hz2', View.ld_unit_zero (S := S1x1) hz2', View.canon_unit_zero (S := S1x1) hz2', whole_a, whole_b, View.read_writes_junk_eq_canon]

/-- At a later point the loss buffer ends at the point's share added to what it held. -/
theorem left1_B_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1 i) (xo : Vec F S1x1 .f32) (xs : Vec F S1024x512 .f32) (f : arg4.view.ty.Contents (Elt F)) :
    arg4.view.read (Elt F) (arg4.view.writes (Elt F) f (kernelRun1_B c i arg1 harg1 arg2 harg2 arg3 harg3 arg4 harg4 arg5 harg5 arg6 harg6 hc0 xo xs).1) = lossOf i xs xo := by
  rw [View.read_writes_eq_canon _ _ _ (cover1_B_4 c i arg1 harg1 arg2 harg2 arg3 harg3 arg4 harg4 arg5 harg5 arg6 harg6 hc0 xo xs)]
  unfold kernelRun1_B; dsimp only
  sl_unfold_run_names
  simp only [View.canon_unit_zero (S := S1x1) hz2', View.readAt_eq_ld, harg4.read_unread, harg6.read_unread,
    View.ld_unit_zero (S := S1024x512) hz2', View.ld_unit_zero (S := S1x1) hz2']

variable (V : (c : Dev nD) → (b : Ref sig .tc) → Buf (Elt F) ((c : Thread nD τ).loc b))

/-! ## What each window's buffer holds when the body runs -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The centres' output window is idle exactly at the points after the first. -/
theorem idle1_4 : ∀ t : Fin cfg1.N, cfg1.idle 4 (grid1.coords t) = !decide (t.val % 4 = 0) :=
  (by decide +kernel : ∀ t : Fin grid1.N, idle1 4 (grid1.coords t) = !decide (t.val % 4 = 0))

theorem val_lt4 (t : Fin cfg1.N) : t.val < 4 := lt_of_lt_of_eq t.isLt (show cfg1.N = 4 from N_1)

/-- At the first point the two outputs' buffers are fresh. -/
theorem before1_3_A (c : Dev nD) (t : Fin cfg1.N) (h0 : t.val % 4 = 0) (d) : (dat1 V c).before 3 t d = d :=
  Dat.before_out_reset _ 3 rfl t (.inl (by have := val_lt4 t; omega)) d

theorem before1_4_A (c : Dev nD) (t : Fin cfg1.N) (h0 : t.val % 4 = 0) (d) : (dat1 V c).before 4 t d = d :=
  Dat.before_out_reset _ 4 rfl t (.inl (by have := val_lt4 t; omega)) d

/-- At a later point the loss buffer holds what the point before left. -/
theorem before1_3_B (c : Dev nD) (t : Fin cfg1.N) (h0 : ¬t.val % 4 = 0) (d) :
    (dat1 V c).before 3 t d = loss1 V c (t.val - 1) (Nat.lt_of_le_of_lt (Nat.sub_le _ _) t.isLt) := by
  have := val_lt4 t
  rw [Dat.before_out_kept _ 3 rfl t (by omega) (Bool.eq_false_iff.mpr fun h => by have := (flush1_3 _).mp h; dsimp only at this; omega)
    (fun _ => rfl) (fun _ _ => rfl)]
  dsimp only [dat1]

/-- At a later point the centres' buffer still holds the new centres: it was filled at the first point, has not been
    written back, and the points between left it alone. -/
theorem before1_4_B (c : Dev nD) : ∀ (n : ℕ) (hn : n + 1 < cfg1.N) (d), (dat1 V c).before 4 ⟨n + 1, hn⟩ d = nc1 V c := by
  intro n
  induction n with
  | zero =>
    intro hn d
    rw [Dat.before_of_pos _ 4 ⟨0 + 1, hn⟩ (Nat.succ_ne_zero 0) ((cfg1.win 4).fetch_out rfl _) d]
    rw [if_neg (fun h => by have h' := (flush1_4 _).mp h; dsimp only at h'; omega)]
    unfold Dat.left
    have hi : cfg1.idle 4 (cfg1.grid.coords ⟨0 + 1 - 1, Nat.lt_of_le_of_lt (Nat.sub_le _ _) hn⟩) = false := by
      rw [show cfg1.grid.coords = grid1.coords from rfl, idle1_4]; rfl
    rw [hi]
    dsimp only
    unfold Dat.kept
    rw [Pipeline.fill_of_clip_none 4 _ (fun _ => rfl) d ((dat1 V c).after 4 _), Window.fill_cut, after1_4]
  | succ n ih =>
    intro hn d
    rw [Dat.before_of_pos _ 4 ⟨n + 1 + 1, hn⟩ (Nat.succ_ne_zero _) ((cfg1.win 4).fetch_out rfl _) d]
    rw [if_neg (fun h => by have h' := (flush1_4 _).mp h; have hN := lt_of_lt_of_eq hn (show cfg1.N = 4 from N_1); dsimp only at h'; omega)]
    unfold Dat.left
    have hi : cfg1.idle 4 (cfg1.grid.coords ⟨n + 1 + 1 - 1, Nat.lt_of_le_of_lt (Nat.sub_le _ _) hn⟩) = true := by
      rw [show cfg1.grid.coords = grid1.coords from rfl, idle1_4]
      have := lt_of_lt_of_eq hn (show cfg1.N = 4 from N_1)
      show (!decide ((n + 1 + 1 - 1) % 4 = 0)) = true
      rw [Bool.not_eq_true', decide_eq_false_iff_not]; omega
    rw [hi]
    dsimp only
    exact ih (Nat.lt_of_succ_lt hn) d

theorem before1_4_pos (c : Dev nD) (t : Fin cfg1.N) (ht : t.val ≠ 0) (d) : (dat1 V c).before 4 t d = nc1 V c := by
  obtain ⟨n, hn⟩ := t
  cases n with
  | zero => exact absurd rfl ht
  | succ n => exact before1_4_B V c n hn d

/-! ## The invariant's two faces -/

/-- Before the first point: the scratch among the scoped buffers at some contents. -/
theorem PhiA1_split (c : Dev nD) :
    (Pipeline.ΦA spec1 c : sProp 𝕄) ⊢ iprop(otherScoped (F := F) c ∗ (∃ d, owns (c : Thread nD τ) scr fullShare d) ∗ ∃ r, prngReg c r) := by
  unfold Pipeline.ΦA otherScoped; rw [scopedRest1_eq]
  iintro ⟨⟨Ha, Hb, Hc, Hd, He, Hg, ⟨%f, HS⟩⟩, Hr⟩
  isplitl [Ha Hb Hc Hd He Hg]
  · isplitl [Ha]; · iexact Ha
    isplitl [Hb]; · iexact Hb
    isplitl [Hc]; · iexact Hc
    isplitl [Hd]; · iexact Hd
    isplitl [He]; · iexact He
    iexact Hg
  isplitl [HS]
  · iexists f; rw [owns_whole]; iexact HS
  iexact Hr

/-- After any point the scratch's contents may be forgotten again. -/
theorem PhiA1_join (c : Dev nD) (x : Vec F S1024x512 .f32) :
    iprop(otherScoped (F := F) c ∗ owns (c : Thread nD τ) scr fullShare x ∗ ∃ r, prngReg c r) ⊢ (Pipeline.ΦA spec1 c : sProp 𝕄) := by
  unfold Pipeline.ΦA otherScoped; rw [scopedRest1_eq]
  iintro ⟨⟨Ha, Hb, Hc, Hd, He, Hg⟩, HS, Hr⟩
  isplitr [Hr]
  · isplitl [Ha]; · iexact Ha
    isplitl [Hb]; · iexact Hb
    isplitl [Hc]; · iexact Hc
    isplitl [Hd]; · iexact Hd
    isplitl [He]; · iexact He
    isplitl [Hg]; · iexact Hg
    iexists x; rw [← owns_whole]; iexact HS
  iexact Hr

theorem Phi1_zero (c : Dev nD) (t : Fin cfg1.N) (hz : t.val = 0) : (dat1 V c).Φ t.castSucc = Pipeline.ΦA spec1 c := by
  dsimp only [dat1]; simp only [Fin.coe_castSucc, hz]; rfl

theorem Phi1_pos (c : Dev nD) (t : Fin (cfg1.N + 1)) (hz : t.val ≠ 0) :
    (dat1 V c).Φ t = iprop(otherScoped (F := F) c ∗ owns (c : Thread nD τ) scr fullShare (nc1 V c) ∗ ∃ r, prngReg c r) := by
  dsimp only [dat1]
  obtain ⟨n, hn⟩ := t
  cases n with
  | zero => exact absurd rfl hz
  | succ n => rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem live1_0 (c : Dev nD) (t : Fin cfg1.N) : (dat1 V c).leavesExact 0 t = owns (c : Thread nD τ) (st1_0 t) fullShare ((dat1 V c).after 0 t) := rfl
theorem live1_1 (c : Dev nD) (t : Fin cfg1.N) : (dat1 V c).leavesExact 1 t = owns (c : Thread nD τ) (st1_1 t) fullShare ((dat1 V c).after 1 t) := rfl
theorem live1_2 (c : Dev nD) (t : Fin cfg1.N) : (dat1 V c).leavesExact 2 t = owns (c : Thread nD τ) (st1_2 t) fullShare ((dat1 V c).after 2 t) := rfl
theorem live1_3 (c : Dev nD) (t : Fin cfg1.N) : (dat1 V c).leavesExact 3 t = owns (c : Thread nD τ) (st1_3 t) fullShare ((dat1 V c).after 3 t) := rfl

/-- Where the centres' window is live or written back it must hold the new centres; -/
theorem leaves1_4_live (c : Dev nD) (t : Fin cfg1.N) (h : t.val % 4 = 0 ∨ t.val % 4 = 3) :
    (dat1 V c).leavesExact 4 t = owns (c : Thread nD τ) (st1_4 t) fullShare (nc1 V c) := by
  unfold Dat.leavesExact
  rw [show cfg1.grid.coords = grid1.coords from rfl, idle1_4]
  rcases h with h | h
  · rw [show (!decide (t.val % 4 = 0)) = false from by rw [Bool.not_eq_false', decide_eq_true_eq]; exact h]
    dsimp only; rw [after1_4]
  · have hf : (cfg1.win 4).flush t = true := (flush1_4 t).mpr h
    cases hb : (!decide (t.val % 4 = 0))
    · dsimp only; rw [after1_4]
    · dsimp only; rw [hf]; dsimp only; rw [after1_4]

/-- elsewhere it is handed back as found. -/
theorem leaves1_4_idle (c : Dev nD) (t : Fin cfg1.N) (h0 : ¬t.val % 4 = 0) (h3 : ¬t.val % 4 = 3) :
    (dat1 V c).leavesExact 4 t = iprop(∃ d, owns (c : Thread nD τ) (st1_4 t) fullShare ((dat1 V c).before 4 t d)) :=
  Dat.leavesExact_idle _ 4 t (by rw [show cfg1.grid.coords = grid1.coords from rfl, idle1_4, Bool.not_eq_true', decide_eq_false_iff_not]; exact h0)
    (Bool.eq_false_iff.mpr fun h => h3 ((flush1_4 t).mp h))

theorem loss1_A (c : Dev nD) (t : Fin cfg1.N) (hz : t.val = 0) :
    loss1 V c t.val t.isLt = lossOf (grid1.coords t) (nc1 V c) k1_pay3 := by
  obtain ⟨n, hn⟩ := t
  cases n with
  | zero => rfl
  | succ n => exact absurd hz (by simp)

theorem loss1_B (c : Dev nD) (t : Fin cfg1.N) (hz : t.val ≠ 0) :
    loss1 V c t.val t.isLt = lossOf (grid1.coords t) (nc1 V c) (loss1 V c (t.val - 1) (Nat.lt_of_le_of_lt (Nat.sub_le _ _) t.isLt)) := by
  obtain ⟨n, hn⟩ := t
  cases n with
  | zero => exact absurd rfl hz
  | succ n => rfl

theorem nc1_eq (c : Dev nD) (t : Fin cfg1.N) (hz : t.val = 0) :
    nc1 V c = ncOf (iblk1 V c 0 t) (iblk1 V c 1 t) (iblk1 V c 2 t) := by
  obtain rfl : t = t1_0 := Fin.ext hz
  rfl

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    live1_0, live1_1, live1_2, live1_3, after1_0, after1_1, after1_2, after1_3]
  rw [Phi1_pos V c t.succ (by simp)]
  by_cases h0 : t.val % 4 = 0
  · have hz : t.val = 0 := by have := val_lt4 t; omega
    simp only [before1_3_A V c t h0, before1_4_A V c t h0]
    rw [leaves1_4_live V c t (.inl h0), Phi1_zero V c t hz, loss1_A V c t hz, nc1_eq V c t hz]
    iintro ⟨HΦ, Ho, ⟨%d0, H0⟩, ⟨%d1, H1⟩, ⟨%d2, H2⟩, ⟨%d3, H3⟩, ⟨%d4, H4⟩⟩
    ihave HΦ' := (PhiA1_split (F := F) c) $$ HΦ
    icases HΦ' with ⟨Hoth, ⟨%ds, HS⟩, Hr⟩
    iapply ((kernelRun1_A c (grid1.coords t) _ _ _ _ _ _ _ _ _ _ scr (Memref.isWhole_whole _) ((hcond1 t).mpr h0)
      (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS]; · iexists _; iexact HS
    iintro ⟨H0, H1, H2, ⟨%f4, H4⟩, ⟨%f5, H5⟩, ⟨%f6, H6⟩⟩
    isplitl [Hoth H6 Hr]
    · isplitl [Hoth]; · iexact Hoth
      isplitl [H6]
      · unfold owns; iexists _; isplitr
        swap; · iexact H6
        ipureintro
        exact left1_A_6 c (grid1.coords t) _ _ _ _ _ _ _ _ _ _ scr (Memref.isWhole_whole _) ((hcond1 t).mpr h0) _ _ _ _
      iexact Hr
    isplitl [Ho]; · iexact Ho
    isplitl [H0]; · iexact H0
    isplitl [H1]; · iexact H1
    isplitl [H2]; · iexact H2
    isplitl [H4]
    · unfold owns; iexists _; isplitr
      swap; · iexact H4
      ipureintro
      exact left1_A_4 c (grid1.coords t) _ _ _ _ _ _ _ _ _ _ scr (Memref.isWhole_whole _) ((hcond1 t).mpr h0) _ _ _ _
    unfold owns; iexists _; isplitr
    swap; · iexact H5
    ipureintro
    exact left1_A_5 c (grid1.coords t) _ _ _ _ _ _ _ _ _ _ scr (Memref.isWhole_whole _) ((hcond1 t).mpr h0) _ _ _ _
  · have hz : t.val ≠ 0 := fun h => h0 (by rw [h])
    simp only [before1_3_B V c t h0, before1_4_pos V c t hz]
    rw [Phi1_pos V c t.castSucc (by simpa using hz), loss1_B V c t hz]
    iintro ⟨⟨Hoth, HS, Hr⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ scr (Memref.isWhole_whole _) (fun h => h0 ((hcond1 t).mp h))
      (loss1 V c (t.val - 1) (Nat.lt_of_le_of_lt (Nat.sub_le _ _) t.isLt)) (nc1 V c)).2 Set.univ _)
    isplitl [H3]; · iexact H3
    isplitl [HS]; · iexact HS
    iintro ⟨⟨%f4, H4'⟩, HS⟩
    isplitl [Hoth HS Hr]
    · isplitl [Hoth]; · iexact Hoth
      isplitl [HS]; · iexact HS
      iexact Hr
    isplitl [Ho]; · iexact Ho
    isplitl [H0]; · iexact H0
    isplitl [H1]; · iexact H1
    isplitl [H2]; · iexact H2
    isplitl [H4']
    · unfold owns; iexists _; isplitr
      swap; · iexact H4'
      ipureintro
      exact left1_B_4 c (grid1.coords t) _ _ _ _ _ _ _ _ _ _ scr (Memref.isWhole_whole _) (fun h => h0 ((hcond1 t).mp h)) _ _ _
    by_cases h3 : t.val % 4 = 3
    · rw [leaves1_4_live V c t (.inr h3)]; iexact H4
    · rw [leaves1_4_idle V c t h0 h3]
      simp only [before1_4_pos V c t hz]
      iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The program's run: the two kernels' records around the buffer contents they are entered from and leave, and the
  launch over them. Every weakly fair execution terminates, and the final memory holds every unscoped buffer at the
  contents the host operations and the kernels' write-backs give it in turn; in particular the arguments are unchanged.
-/
import proofs.«421983_j29111288332477_3_alg».proof.Proof.KRunDefs
import proofs.«421983_j29111288332477_3_alg».proof.Proof.KRunCond
import proofs.«421983_j29111288332477_3_alg».proof.Proof.KBody0
import proofs.«421983_j29111288332477_3_alg».proof.Proof.KBody1
import Idealize.ShloMosaic.Lib.Pipeline.RegionsLoop
import Idealize.ShloMosaic.Lib.Pipeline.FrameSuffix
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides along -/

/-- Both kernels' proof data, each at the contents its kernel is entered from. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The contents at the kernels' exits -/

theorem V2_arr (c : Dev nD) (w : Fin cfg0.W) :
    (dat0 (Vin0 m) c).arrAt w cfg0.N = Gen.V2 m (outsK m) c (Pipeline.arrRef spec0 w) := by
  match w with
  | ⟨0, _⟩ =>
    rw [Gen.V2_of m (outsK m) c (Pipeline.arrRef spec0 0) (by decide)]
    exact ((dat0 (Vin0 m) c).arrAt_in 0 rfl _).trans (A_eq0 (Vin0 m) c 0)
  | ⟨1, _⟩ =>
    rw [Gen.V2_of m (outsK m) c (Pipeline.arrRef spec0 1) (by decide)]
    exact ((dat0 (Vin0 m) c).arrAt_in 1 rfl _).trans (A_eq0 (Vin0 m) c 1)
  | ⟨2, _⟩ =>
    show _ = Function.update (Gen.V1 m c) main_v1 (outsK m 2 main_v1 c) main_v1
    rw [Function.update_self, outsK_two]
    exact (W2_out m c).symm

theorem V2_rest (c : Dev nD) : ∀ b, b ∉ Finset.univ.image (Pipeline.arrRef spec0) → Gen.V2 m (outsK m) c b = Gen.V1 m c b :=
  fun b hb => Gen.V2_of m (outsK m) c b (by
    intro hmem
    rw [List.mem_singleton] at hmem
    exact hb (Finset.mem_image.mpr ⟨2, Finset.mem_univ _, hmem.symm⟩))

theorem V7_arr (c : Dev nD) (w : Fin cfg1.W) :
    (dat1 (Vin1 m) c).arrAt w cfg1.N = Gen.V7 m (outsK m) c (Pipeline.arrRef spec1 w) := by
  match w with
  | ⟨0, _⟩ =>
    rw [Gen.V7_of m (outsK m) c (Pipeline.arrRef spec1 0) (by decide), V6_outsK]
    exact ((dat1 (Vin1 m) c).arrAt_in 0 rfl _).trans (A_eq1 (Vin1 m) c 0)
  | ⟨1, _⟩ =>
    rw [Gen.V7_of m (outsK m) c (Pipeline.arrRef spec1 1) (by decide), V6_outsK]
    exact ((dat1 (Vin1 m) c).arrAt_in 1 rfl _).trans (A_eq1 (Vin1 m) c 1)
  | ⟨2, _⟩ =>
    rw [Gen.V7_of m (outsK m) c (Pipeline.arrRef spec1 2) (by decide), V6_outsK]
    exact ((dat1 (Vin1 m) c).arrAt_in 2 rfl _).trans (A_eq1 (Vin1 m) c 2)
  | ⟨3, _⟩ =>
    show _ = Function.update (Function.update (Gen.V6 m (outsK m) c) main_v9_0 (outsK m 7 main_v9_0 c)) main_v9_1 (outsK m 7 main_v9_1 c) main_v9_0
    rw [Function.update_of_ne (StableHlo.devRef_ne_of_ne (by decide) : (Proc.devRef .tc main_v9_0 : DevRef τ sig) ≠ Proc.devRef .tc main_v9_1),
      Function.update_self, outsK_seven]
    exact (W7_loss m c).symm
  | ⟨4, _⟩ =>
    show _ = Function.update (Function.update (Gen.V6 m (outsK m) c) main_v9_0 (outsK m 7 main_v9_0 c)) main_v9_1 (outsK m 7 main_v9_1 c) main_v9_1
    rw [Function.update_self, outsK_seven]
    exact (W7_newc m c).symm

theorem V7_rest (c : Dev nD) : ∀ b, b ∉ Finset.univ.image (Pipeline.arrRef spec1) → Gen.V7 m (outsK m) c b = Gen.V6 m (outsK m) c b :=
  fun b hb => Gen.V7_of m (outsK m) c b (by
    intro hmem
    rcases List.mem_cons.mp hmem with h | h
    · exact hb (Finset.mem_image.mpr ⟨3, Finset.mem_univ _, h.symm⟩)
    · rw [List.mem_singleton] at h
      exact hb (Finset.mem_image.mpr ⟨4, Finset.mem_univ _, h.symm⟩))

theorem A1_outsK (c : Dev nD) (w : Fin cfg1.W) : (dat1 (Vin1 m) c).A w = Gen.V6 m (outsK m) c (Pipeline.arrRef spec1 w) := by
  rw [V6_outsK]; exact A_eq1 (Vin1 m) c w

/-! ## The kernels as segments -/

set_option backward.isDefEq.respectTransparency.types false in
/-- The first kernel: entered from every unscoped buffer at `V1`, left at `V2`. Its arrays are split out of the
    unscoped buffers and put back at the exit contents; the generator register goes into the invariant and comes out;
    nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => Gen.V2 m (outsK m) c b) ((pdats m 0 c).arrAt · cfg0.N) (V2_arr m c) (V2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from every unscoped buffer at `V6`, left at `V7`. Before its first point its scratch
    buffer is one of the scoped buffers at some contents; after its last the scratch's contents are forgotten again. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V6 m (outsK m) c) ∗ R c)
  post c := iprop(StableHlo.held (c : Thread nD τ) (Pipeline.ucRefs τ sig) (Gen.V7 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V6 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Gen.V6 m (outsK m) c b) (A1_outsK m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (Vin1 m) c).Φ (Fin.last cfg1.N) from rfl,
      Phi1_pos (Vin1 m) c (Fin.last cfg1.N) (by rw [Fin.val_last]; have : cfg1.N = 4 := N_1; omega)]
    refine (PhiA1_join (F := F) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V6 m (outsK m) c b) (fun b => Gen.V7 m (outsK m) c b) ((pdats m 1 c).arrAt · cfg1.N) (V7_arr m c) (V7_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates, and the final memory holds every unscoped
    buffer at the last contents. -/
theorem run_main : θ_run defs (onTc (τ := τ) (main (F := F))) ⟨m, fun _ => 0, ρ⟩
    (fun r => ∀ c : Dev nD, ∀ b ∈ Pipeline.ucRefs τ sig, r.2.mem ((c : Thread nD τ).1, b) = Gen.V8 m (outsK m) c b) :=
  run_cond m emb₁ () 𝒱₀ L lv (fun _ _ => rfl) ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- An unscoped reference of the TensorCore is among those the last contents are read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V8_main_arg0 m (outsK m) c),
     (h c _ (mem_uc main_arg1 (by decide))).trans (Gen.V8_main_arg1 m (outsK m) c),
     (h c _ (mem_uc main_arg2 (by decide))).trans (Gen.V8_main_arg2 m (outsK m) c)⟩) (run_main m ρ)

end Cert.Kernel.Hand

end
-- ==== Proof.KIDefs.lean ====
/-
  What the two kernels leave behind, point by point, as terms over the kernels' own arithmetic.

  First kernel (grid 2 × 8, sixteen points in row-major order): at point t the feature window holds rows
  2048 t … 2048 t + 2047 of the features and the label window the same stretch of labels; the output window's
  block is the slab of the half t / 8 and is carried over the eight points of that half: at the half's first
  point it is reset to zero and the point's product added, at the others the product is added to what the point
  before left.

  Second kernel (grid 4): its three inputs are whole arrays with constant index maps. At the first point it forms
  the new centres from them, keeps them in its scratch buffer, copies them to the second output and zeroes the
  first; at every point it adds the point's share of the loss (256 rows of the distance matrix) to the first output.
-/
import proofs.«421983_j29111288332477_3_alg».proof.Proof.Gen.KernelIdeal.Launch
import proofs.«421983_j29111288332477_3_alg».proof.Proof.Gen.KernelIdeal.Skeleton
import proofs.«421983_j29111288332477_3_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when a region is entered
variable (V : (c : Dev nD) → (b : Ref sig .tc) → Buf (Elt F) ((c : Thread nD τ).loc b))

/-! ## The first kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output window's buffer holds after point `n`: the point's one-hot product added to zero at the
    first point of a half, to what the point before left elsewhere. -/
def acc0 (c : Dev nD) : (n : ℕ) → n < cfg0.N → Vec F S1x1024x512 .f32
  | 0, hn => k0_pay2 (iblk0 V c 1 ⟨0, hn⟩) (iblk0 V c 0 ⟨0, hn⟩) k0_pay1
  | n + 1, hn => k0_pay2 (iblk0 V c 1 ⟨n + 1, hn⟩) (iblk0 V c 0 ⟨n + 1, hn⟩)
      (if (n + 1) % 8 = 0 then k0_pay1 else acc0 c n (Nat.lt_of_succ_lt hn))

theorem acc0_zero (c : Dev nD) (hn : 0 < cfg0.N) :
    acc0 V c 0 hn = k0_pay2 (iblk0 V c 1 ⟨0, hn⟩) (iblk0 V c 0 ⟨0, hn⟩) k0_pay1 := rfl

theorem acc0_succ (c : Dev nD) (n : ℕ) (hn : n + 1 < cfg0.N) :
    acc0 V c (n + 1) hn = k0_pay2 (iblk0 V c 1 ⟨n + 1, hn⟩) (iblk0 V c 0 ⟨n + 1, hn⟩)
      (if (n + 1) % 8 = 0 then k0_pay1 else acc0 V c n (Nat.lt_of_succ_lt hn)) := rfl

/-- The first kernel's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The second kernel -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two slabs of the partial sums, as rectangles of the first window's block. -/
abbrev slabA : Rect S2x1024x512 := Rect.unit (s := S2x1024x512) ![0, 0, 0] S1x1024x512.size inb_S2x1024x512_S1x1024x512_0_0_0
abbrev slabB : Rect S2x1024x512 := Rect.unit (s := S2x1024x512) ![1, 0, 0] S1x1024x512.size inb_S2x1024x512_S1x1024x512_1_0_0

/-- The new centres (padded to 1024 rows), as the first point computes them from the three input blocks. -/
def nc1 (c : Dev nD) : Vec F S1024x512 .f32 :=
  k1_pay2 (View.ld (iblk1 V c 0 t1_0) slabA) (View.ld (iblk1 V c 0 t1_0) slabB) (iblk1 V c 1 t1_0) (iblk1 V c 2 t1_0)

/-- The 256 rows of the new centres that point `i` pairs with all of them. -/
abbrev rowsRect (i : grid1.Coords) : Rect S1024x512 := Rect.unit (s := S1024x512) (k1_off1 i) S256x512.size (k1_off1_inb i)

/-- The hinge terms of point `t`'s 256 × 1024 block of pairs. -/
def hinge1 (c : Dev nD) (t : Fin cfg1.N) : FVec F S256x1024 .f32 :=
  k1_pay5 (grid1.coords t) (nc1 V c) (View.ld (nc1 V c) (rowsRect (grid1.coords t)))

/-- The column numbers of a 256 × 1024 block. -/
abbrev colIota : IVec S256x1024 32 := iota .tc S256x1024 32 [1] iota_S256x1024_d1_w32

/-- What the loss window's buffer holds after point `n`: the point's share added to zero at the first point, to
    what the point before left afterwards. -/
def loss1 (c : Dev nD) : (n : ℕ) → n < cfg1.N → Vec F S1x1 .f32
  | 0, hn => k1_pay1 colIota (hinge1 V c ⟨0, hn⟩) (k1_pay6 (grid1.coords ⟨0, hn⟩)) k1_pay7 k1_pay3
  | n + 1, hn => k1_pay1 colIota (hinge1 V c ⟨n + 1, hn⟩) (k1_pay6 (grid1.coords ⟨n + 1, hn⟩)) k1_pay7
      (loss1 c n (Nat.lt_of_succ_lt hn))

theorem loss1_zero (c : Dev nD) (hn : 0 < cfg1.N) :
    loss1 V c 0 hn = k1_pay1 colIota (hinge1 V c ⟨0, hn⟩) (k1_pay6 (grid1.coords ⟨0, hn⟩)) k1_pay7 k1_pay3 := rfl
theorem loss1_succ (c : Dev nD) (n : ℕ) (hn : n + 1 < cfg1.N) :
    loss1 V c (n + 1) hn = k1_pay1 colIota (hinge1 V c ⟨n + 1, hn⟩) (k1_pay6 (grid1.coords ⟨n + 1, hn⟩)) k1_pay7
      (loss1 V c n (Nat.lt_of_succ_lt hn)) := rfl

/-- The scratch buffer as a memref. -/
abbrev scr : Memref sig .tc .vmem S1024x512 .f32 := Memref.whole cc1_scratch0

/-- The scoped buffers that are no staging buffer of the second kernel and not its scratch: the first kernel's six
    staging buffers, each at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The second kernel's invariant before position `n`: before the first point every scoped buffer it does not stage
    is at some contents; afterwards the scratch holds the new centres. The generator register rides along. -/
def Phi1 (c : Dev nD) : ℕ → sProp 𝕄
  | 0 => Pipeline.ΦA spec1 c
  | _ + 1 => iprop(otherScoped (F := F) c ∗ owns (c : Thread nD τ) scr fullShare (nc1 V c) ∗ ∃ r, prngReg c r)

/-- The second kernel's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => loss1 V c t.val t.isLt
    | ⟨4, _⟩ => nc1 V c
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = loss1 V c t.val t.isLt := by dsimp only [dat1]
theorem after1_4 (c : Dev nD) (t : Fin cfg1.N) : (dat1 V c).after 4 t = nc1 V c := by dsimp only [dat1]

end Cert.KernelIdeal.Hand

end
-- ==== Proof.KIRunDefs.lean ====
/-
  The buffer contents along the program: what each kernel finds when it is entered and what it leaves.
-/
import proofs.«421983_j29111288332477_3_alg».proof.Proof.KIDefs
import proofs.«421983_j29111288332477_3_alg».proof.Proof.Gen.KernelIdeal.Regions
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- What the first kernel finds: the launch contents after the first host stretch. -/
abbrev Vin0 (c : Dev nD) (b : Ref sig .tc) : Buf (Elt F) ((c : Thread nD τ).loc b) := Gen.V1 m c b

/-- After the first kernel: its arrays at what its write-backs leave, every other buffer as entered. -/
def W2 (c : Dev nD) : Valuation τ sig (Elt F) :=
  Pipeline.withArrays spec0 c (Gen.V1 m c) fun w => (dat0 (Vin0 m) c).arrAt w cfg0.N

/-- The first kernel's part of what the regions leave. -/
def outsA : Gen.Outs (F := F) := fun _ r c => W2 m c r

/-- What the second kernel finds: the contents after the host stretches between the two kernels. -/
abbrev Vin1 (c : Dev nD) (b : Ref sig .tc) : Buf (Elt F) ((c : Thread nD τ).loc b) := Gen.V6 m (outsA m) c b

/-- After the second kernel: its arrays at what its write-backs leave, every other buffer as entered. -/
def W7 (c : Dev nD) : Valuation τ sig (Elt F) :=
  Pipeline.withArrays spec1 c (Gen.V6 m (outsA m) c) fun w => (dat1 (Vin1 m) c).arrAt w cfg1.N

/-- What the two kernels leave in the buffers they may change. -/
def outsK : Gen.Outs (F := F) := fun J r c => if J = 2 then W2 m c r else W7 m c r

theorem outsK_two (r : Ref sig .tc) (c : Dev nD) : outsK m 2 r c = W2 m c r := by
  unfold outsK; rw [if_pos rfl]

theorem outsK_seven (r : Ref sig .tc) (c : Dev nD) : outsK m 7 r c = W7 m c r := by
  unfold outsK; rw [if_neg (by decide)]

/-- The first kernel's output array after it. -/
theorem W2_out (c : Dev nD) : W2 m c main_v1 = (dat0 (Vin0 m) c).arrAt 2 cfg0.N := by
  unfold W2; exact Pipeline.withArrays_arr spec0 launch0.win.arr_inj c _ _ 2

/-- The second kernel's two output arrays after it. -/
theorem W7_loss (c : Dev nD) : W7 m c main_v9_0 = (dat1 (Vin1 m) c).arrAt 3 cfg1.N := by
  unfold W7; exact Pipeline.withArrays_arr spec1 launch1.win.arr_inj c _ _ 3
theorem W7_newc (c : Dev nD) : W7 m c main_v9_1 = (dat1 (Vin1 m) c).arrAt 4 cfg1.N := by
  unfold W7; exact Pipeline.withArrays_arr spec1 launch1.win.arr_inj c _ _ 4

/-- The contents between the kernels depend on what the first one left only. -/
theorem V6_outsK (c : Dev nD) : Gen.V6 m (outsK m) c = Gen.V6 m (outsA m) c := by
  show StableHlo.after hostOps1_3 (StableHlo.after hostOps1_2 (StableHlo.after hostOps1_1 (StableHlo.after hostOps1
      (Function.update (Gen.V1 m c) main_v1 (outsK m 2 main_v1 c))))) = _
  rw [outsK_two]
  rfl

end Cert.KernelIdeal.Hand

end
-- ==== Proof.KIBody0.lean ====
/-
  The first kernel's body obligation: at every grid point the body, run on the point's staging buffers, leaves
  the two input blocks as it found them and the output block at the running sum of the one-hot products.
-/
import proofs.«421983_j29111288332477_3_alg».proof.Proof.KIDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first kernel's body -/

/-- The body's one branch: the step coordinate is zero. -/
abbrev cond0 (i : grid0.Coords) : Prop :=
  (Scalar.cmpi .ne (Scalar.extui (Scalar.cmpi .eq (BitVec.ofNat 32 (i 1).val) 0#32)) 0#32) = 1#1

/-- It holds at the first point of each half. -/
theorem hcond0 : ∀ t : Fin cfg0.N, cond0 (grid0.coords t) ↔ t.val % 8 = 0 :=
  (by decide +kernel : ∀ t : Fin grid0.N, cond0 (grid0.coords t) ↔ t.val % 8 = 0)

set_option maxHeartbeats 1000000 in
/-- The body at a half's first point, on whole staging memrefs: the inputs keep their contents, the output's buffer,
    whatever it held, ends with the pieces the two stores wrote. -/
noncomputable def kernelRun0_A (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : cond0 i) (x0 : Vec F S2048x512 .f32) (x1 : Vec F S1x2048 .i32) :
    { L : List (View.Piece (Elt F) S1x1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__segment_reduce_kernel i arg2 harg2 arg3 harg3 arg4 harg4) K } := by
  refine ⟨?_, fun E K => ?run⟩
  case run =>
    simp only [cc0__segment_reduce_kernel_eq_skeleton]; unfold cc0__segment_reduce_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body at any other point: the output's buffer is read before it is overwritten. -/
noncomputable def kernelRun0_B (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : ¬cond0 i) (x0 : Vec F S2048x512 .f32) (x1 : Vec F S1x2048 .i32) (xo : Vec F S1x1024x512 .f32) :
    { L : List (View.Piece (Elt F) S1x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__segment_reduce_kernel i arg2 harg2 arg3 harg3 arg4 harg4) K } := by
  refine ⟨?_, fun E K => ?run⟩
  case run =>
    simp only [cc0__segment_reduce_kernel_eq_skeleton]; unfold cc0__segment_reduce_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

variable (V : (c : Dev nD) → (b : Ref sig .tc) → Buf (Elt F) ((c : Thread nD τ).loc b))

theorem hz3 : (![0, 0, 0] : Fin 3 → ℕ) = fun _ => 0 := by
  funext a; fin_cases a <;> rfl
theorem hz2 : (![0, 0] : Fin 2 → ℕ) = fun _ => 0 := by
  funext a; fin_cases a <;> rfl

/-- The stores of a half's first point cover the output block. -/
theorem cover0_A (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : cond0 i) (x0 : Vec F S2048x512 .f32) (x1 : Vec F S1x2048 .i32) (y : S1x1024x512.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x1024x512.size (by sl_kernel_rfl) y

theorem cover0_B (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : ¬cond0 i) (x0 : Vec F S2048x512 .f32) (x1 : Vec F S1x2048 .i32) (xo : Vec F S1x1024x512 .f32) (y : S1x1024x512.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x1024x512.size (by sl_kernel_rfl) y

/-- At a half's first point the output's buffer ends at the point's product added to zero. -/
theorem left0_A (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : cond0 i) (x0 : Vec F S2048x512 .f32) (x1 : Vec F S1x2048 .i32) (f : arg4.view.ty.Contents (Elt F)) :
    arg4.view.read (Elt F) (arg4.view.writes (Elt F) f (kernelRun0_A c i arg2 harg2 arg3 harg3 arg4 harg4 hc0 x0 x1).1)
      = k0_pay2 x1 x0 k0_pay1 := by
  rw [View.read_writes_eq_canon _ _ _ (cover0_A c i arg2 harg2 arg3 harg3 arg4 harg4 hc0 x0 x1)]
  unfold kernelRun0_A; dsimp only
  sl_unfold_words
  rw [View.canon_cons_unit_zero (S := S1x1024x512) hz3]
  simp only [View.readAt_eq_ld, harg2.read_unread, harg3.read_unread, View.ld_unit_zero (S := S2048x512) hz2,
    View.ld_unit_zero (S := S1x2048) hz2, View.readCov_unit_zero (S := S1x1024x512) _ hz3]

/-- At any other point it ends at the point's product added to what it held. -/
theorem left0_B (c : Dev nD) (i : grid0.Coords) (arg2 : Memref sig .tc .vmem S2048x512 .f32) (harg2 : arg2.IsWhole)
    (arg3 : Memref sig .tc .vmem S1x2048 .i32) (harg3 : arg3.IsWhole) (arg4 : Memref sig .tc .vmem S1x1024x512 .f32) (harg4 : arg4.IsWhole)
    (hc0 : ¬cond0 i) (x0 : Vec F S2048x512 .f32) (x1 : Vec F S1x2048 .i32) (xo : Vec F S1x1024x512 .f32) (f : arg4.view.ty.Contents (Elt F)) :
    arg4.view.read (Elt F) (arg4.view.writes (Elt F) f (kernelRun0_B c i arg2 harg2 arg3 harg3 arg4 harg4 hc0 x0 x1 xo).1)
      = k0_pay2 x1 x0 xo := by
  rw [View.read_writes_eq_canon _ _ _ (cover0_B c i arg2 harg2 arg3 harg3 arg4 harg4 hc0 x0 x1 xo)]
  unfold kernelRun0_B; dsimp only
  sl_unfold_words
  rw [View.canon_unit_zero (S := S1x1024x512) hz3]
  simp only [View.readAt_eq_ld, harg2.read_unread, harg3.read_unread, harg4.read_unread, View.ld_unit_zero (S := S2048x512) hz2,
    View.ld_unit_zero (S := S1x2048) hz2, View.ld_unit_zero (S := S1x1024x512) hz3]

/-! ## What each window's buffer holds when the body runs -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a half's first point the output's buffer is fresh: the run's first point, or the point after a write-back. -/
theorem before0_2_A (c : Dev nD) (t : Fin cfg0.N) (h0 : t.val % 8 = 0) (d) : (dat0 V c).before 2 t d = d :=
  Dat.before_out_reset _ 2 rfl t (by
    by_cases hz : t.val = 0
    · exact .inl hz
    · exact .inr ⟨hz, (flush0_2 _).mpr (by dsimp only; omega)⟩) d

/-- At any other point it holds what the point before left. -/
theorem before0_2_B (c : Dev nD) (t : Fin cfg0.N) (h0 : ¬t.val % 8 = 0) (d) :
    (dat0 V c).before 2 t d = acc0 V c (t.val - 1) (Nat.lt_of_le_of_lt (Nat.sub_le _ _) t.isLt) := by
  rw [Dat.before_out_kept _ 2 rfl t (by omega) (Bool.eq_false_iff.mpr fun h => by have := (flush0_2 _).mp h; dsimp only at this; omega)
    (fun _ => rfl) (fun _ _ => rfl)]
  dsimp only [dat0]

theorem acc0_A (c : Dev nD) (t : Fin cfg0.N) (h0 : t.val % 8 = 0) :
    acc0 V c t.val t.isLt = k0_pay2 (iblk0 V c 1 t) (iblk0 V c 0 t) k0_pay1 := by
  obtain ⟨n, hn⟩ := t
  cases n with
  | zero => rfl
  | succ n => rw [acc0_succ, if_pos h0]

theorem acc0_B (c : Dev nD) (t : Fin cfg0.N) (h0 : ¬t.val % 8 = 0) :
    acc0 V c t.val t.isLt = k0_pay2 (iblk0 V c 1 t) (iblk0 V c 0 t) (acc0 V c (t.val - 1) (Nat.lt_of_le_of_lt (Nat.sub_le _ _) t.isLt)) := by
  obtain ⟨n, hn⟩ := t
  cases n with
  | zero => exact absurd (Nat.zero_mod _) h0
  | succ n => rw [acc0_succ, if_neg h0]; rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks; the point's position in its half says which case
    runs and what the output's buffer held; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · simp only [before0_2_A V c t h0]
    rw [acc0_A V c t h0]
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%f2, H2⟩⟩
    isplitl [HΦ]; · iexact HΦ
    isplitl [Ho]; · iexact Ho
    isplitl [H0]; · iexact H0
    isplitl [H1]; · iexact H1
    unfold owns; iexists _; isplitr
    swap; · iexact H2
    ipureintro
    first
      | exact (left0_A c (grid0.coords t) _ _ _ _ _ _ ((hcond0 t).mpr h0) (iblk0 V c 0 t) (iblk0 V c 1 t) _).symm
      | exact (left0_A c (grid0.coords t) _ _ _ _ _ _ ((hcond0 t).mpr h0) (iblk0 V c 0 t) (iblk0 V c 1 t) _)
  · simp only [before0_2_B V c t h0]
    rw [acc0_B V c t h0]
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t)
      (acc0 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%f2, H2⟩⟩
    isplitl [HΦ]; · iexact HΦ
    isplitl [Ho]; · iexact Ho
    isplitl [H0]; · iexact H0
    isplitl [H1]; · iexact H1
    unfold owns; iexists _; isplitr
    swap; · iexact H2
    ipureintro
    first
      | exact (left0_B c (grid0.coords t) _ _ _ _ _ _ (fun h => h0 ((hcond0 t).mp h)) (iblk0 V c 0 t) (iblk0 V c 1 t) _ _).symm
      | exact (left0_B c (grid0.coords t) _ _ _ _ _ _ (fun h => h0 ((hcond0 t).mp h)) (iblk0 V c 0 t) (iblk0 V c 1 t) _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  The second kernel's body obligation: the first point forms the new centres in the scratch buffer, copies them to
  the second output and starts the loss at the point's share; every later point reads the scratch and adds its share.
-/
import proofs.«421983_j29111288332477_3_alg».proof.Proof.KIDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The second kernel's body -/

/-- The body's one branch: the grid coordinate is zero. -/
abbrev cond1 (i : grid1.Coords) : Prop := k1_cond1 i = 1#1

/-- It holds at the first point only. -/
theorem hcond1 : ∀ t : Fin cfg1.N, cond1 (grid1.coords t) ↔ t.val % 4 = 0 :=
  (by decide +kernel : ∀ t : Fin grid1.N, cond1 (grid1.coords t) ↔ t.val % 4 = 0)

set_option maxHeartbeats 2000000 in
/-- The body at the first point, on whole staging memrefs and the whole scratch: the three inputs keep their contents;
    the loss buffer, the centres' buffer and the scratch, whatever they held, end with the pieces the stores wrote. -/
noncomputable def kernelRun1_A (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) :
    Σ' (L4 : List (View.Piece (Elt F) S1x1 .f32)) (L5 : List (View.Piece (Elt F) S1024x512 .f32)), { L6 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc1__postprocess_cdist_kernel i arg1 harg1 arg2 harg2 arg3 harg3 arg4 harg4 arg5 harg5 arg6 harg6) K } := by
  refine ⟨?_, ?_, ?_, fun E K => ?run⟩
  case run =>
    simp only [cc1__postprocess_cdist_kernel_eq_skeleton]; unfold cc1__postprocess_cdist_kernel_skel
    simp only [k1_part1_eq_skeleton]
    unfold owns
    iintro ⟨⟨%f0, %hf0, H0⟩, ⟨%f1, %hf1, H1⟩, ⟨%f2, %hf2, H2⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H4]; · iexists _; iexact H4
    isplitl [H5]; · iexists _; iexact H5
    iexists _; iexact H6

set_option maxHeartbeats 2000000 in
/-- The body at a later point: it reads the scratch and the loss buffer, and overwrites the loss buffer. -/
noncomputable def kernelRun1_B (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1 i) (xo : Vec F S1x1 .f32) (xs : Vec F S1024x512 .f32) :
    { L4 : List (View.Piece (Elt F) S1x1 .f32) //
      ∀ (E : Set ℕ) (K : PUnit → sProp 𝕄),
        iprop(owns (c : Thread nD τ) arg4 fullShare xo ∗ owns (c : Thread nD τ) arg6 fullShare xs
            ∗ (iprop((∃ f, arg4.view.loc (c : Thread nD τ) ↦[arg4.view.set]{fullShare} arg4.view.writes (Elt F) f L4)
                ∗ owns (c : Thread nD τ) arg6 fullShare xs) -∗ K ⟨⟩))
          ⊢ wp frame (wpE (defs₀ (F := F)) Variants.none c none) E (cc1__postprocess_cdist_kernel i arg1 harg1 arg2 harg2 arg3 harg3 arg4 harg4 arg5 harg5 arg6 harg6) K } := by
  refine ⟨?_, fun E K => ?run⟩
  case run =>
    simp only [cc1__postprocess_cdist_kernel_eq_skeleton]; unfold cc1__postprocess_cdist_kernel_skel
    simp only [k1_part1_eq_skeleton]
    unfold owns
    iintro ⟨⟨%f4, %hf4, H4⟩, ⟨%f6, %hf6, H6⟩, Hk⟩
    obtain rfl := harg4.eq_unread hf4; obtain rfl := harg6.eq_unread hf6
    sl_exec (disch := first | exact hc0)
    sl_step
    iapply Hk
    isplitl [H4]; · iexists _; iexact H4
    iexists _; isplitr; · ipureintro; exact harg6.read_unread _
    iexact H6

/-- The new centres from the three input blocks. -/
theorem hz2' : (![0, 0] : Fin 2 → ℕ) = fun _ => 0 := by
  funext a; fin_cases a <;> rfl

/-- Reading an array through the rectangle that is all of it gives the array back. -/
theorem whole_a (X : Vec F S1024x512 .f32) :
    (fun j => X ((Rect.unit (s := S1024x512) ![0, 0] S1024x512.size inb_S1024x512_S1024x512_0_0).idx j)) = X :=
  View.ld_unit_zero (S := S1024x512) hz2' _ X
theorem whole_b (X : Vec F S1x1 .f32) :
    (fun j => X ((Rect.unit (s := S1x1) ![0, 0] S1x1.size inb_S1x1_S1x1_0_0).idx j)) = X :=
  View.ld_unit_zero (S := S1x1) hz2' _ X

abbrev ncOf (x0 : Vec F S2x1024x512 .f32) (x1 : Vec F S1x1024 .f32) (x2 : Vec F S1024x512 .f32) : Vec F S1024x512 .f32 :=
  k1_pay2 (View.ld x0 slabA) (View.ld x0 slabB) x1 x2

/-- A point's share added to what the loss buffer held, from the centres in the scratch. -/
abbrev lossOf (i : grid1.Coords) (xs : Vec F S1024x512 .f32) (xo : Vec F S1x1 .f32) : Vec F S1x1 .f32 :=
  k1_pay1 colIota (k1_pay5 i xs (View.ld xs (rowsRect i))) (k1_pay6 i) k1_pay7 xo

theorem cover1_A_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (y : S1x1.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S1x1.size (by sl_kernel_rfl) y

theorem cover1_A_5 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (y : S1024x512.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1024x512.size (by sl_kernel_rfl) y

theorem cover1_A_6 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (y : S1024x512.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1024x512.size (by sl_kernel_rfl) y

theorem cover1_B_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1 i) (xo : Vec F S1x1 .f32) (xs : Vec F S1024x512 .f32) (y : S1x1.Idx) :
    ∃ pc ∈ (kernelRun1_B c i arg1 harg1 arg2 harg2 arg3 harg3 arg4 harg4 arg5 harg5 arg6 harg6 hc0 xo xs).1, y ∈ pc.1.set :=
  View.cover_of_tiledL (kernelRun1_B c i arg1 harg1 arg2 harg2 arg3 harg3 arg4 harg4 arg5 harg5 arg6 harg6 hc0 xo xs).1 S1x1.size (by sl_kernel_rfl) y

/-- At the first point the scratch ends at the new centres, -/
theorem left1_A_6 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (f : arg6.view.ty.Contents (Elt F)) :
    arg6.view.read (Elt F) (arg6.view.writes (Elt F) f (kernelRun1_A c i arg1 harg1 arg2 harg2 arg3 harg3 arg4 harg4 arg5 harg5 arg6 harg6 hc0 x0 x1 x2).2.2.1) = ncOf x0 x1 x2 := by
  rw [View.read_writes_eq_canon _ _ _ (cover1_A_6 c i arg1 harg1 arg2 harg2 arg3 harg3 arg4 harg4 arg5 harg5 arg6 harg6 hc0 x0 x1 x2)]
  unfold kernelRun1_A; dsimp only
  sl_unfold_run_names
  simp only [View.canon_unit_zero (S := S1024x512) hz2', View.readAt_eq_ld, harg1.read_unread, harg2.read_unread, harg3.read_unread,
    View.ld_unit_zero (S := S1x1024) hz2', View.ld_unit_zero (S := S1024x512) hz2']

/-- the centres' output buffer too, -/
theorem left1_A_5 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (f : arg5.view.ty.Contents (Elt F)) :
    arg5.view.read (Elt F) (arg5.view.writes (Elt F) f (kernelRun1_A c i arg1 harg1 arg2 harg2 arg3 harg3 arg4 harg4 arg5 harg5 arg6 harg6 hc0 x0 x1 x2).2.1) = ncOf x0 x1 x2 := by
  rw [View.read_writes_eq_canon _ _ _ (cover1_A_5 c i arg1 harg1 arg2 harg2 arg3 harg3 arg4 harg4 arg5 harg5 arg6 harg6 hc0 x0 x1 x2)]
  unfold kernelRun1_A; dsimp only
  sl_unfold_run_names
  simp only [View.canon_unit_zero (S := S1024x512) hz2', View.readCov_eq_canon', View.readAt_eq_ld, harg1.read_unread, harg2.read_unread, harg3.read_unread,
    View.ld_unit_zero (S := S1x1024) hz2', View.ld_unit_zero (S := S1024x512) hz2', whole_a, whole_b, View.read_writes_junk_eq_canon]

/-- and the loss buffer at the first point's share added to zero. -/
theorem left1_A_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : cond1 i) (x0 : Vec F S2x1024x512 .f32) (x1 : Vec F S1x1024 .f32) (x2 : Vec F S1024x512 .f32) (f : arg4.view.ty.Contents (Elt F)) :
    arg4.view.read (Elt F) (arg4.view.writes (Elt F) f (kernelRun1_A c i arg1 harg1 arg2 harg2 arg3 harg3 arg4 harg4 arg5 harg5 arg6 harg6 hc0 x0 x1 x2).1) = lossOf i (ncOf x0 x1 x2) k1_pay3 := by
  rw [View.read_writes_eq_canon _ _ _ (cover1_A_4 c i arg1 harg1 arg2 harg2 arg3 harg3 arg4 harg4 arg5 harg5 arg6 harg6 hc0 x0 x1 x2)]
  unfold kernelRun1_A; dsimp only
  sl_unfold_run_names
  simp only [View.canon_cons_unit_zero (S := S1x1) hz2', View.canon_unit_zero (S := S1024x512) hz2', View.readCov_eq_canon', View.readAt_eq_ld, harg1.read_unread, harg2.read_unread, harg3.read_unread,
    View.ld_unit_zero (S := S1x1024) hz2', View.ld_unit_zero (S := S1024x512) hz2', View.ld_unit_zero (S := S1x1) hz2', View.canon_unit_zero (S := S1x1) hz2', whole_a, whole_b, View.read_writes_junk_eq_canon]

/-- At a later point the loss buffer ends at the point's share added to what it held. -/
theorem left1_B_4 (c : Dev nD) (i : grid1.Coords) (arg1 : Memref sig .tc .vmem S2x1024x512 .f32) (harg1 : arg1.IsWhole)
    (arg2 : Memref sig .tc .vmem S1x1024 .f32) (harg2 : arg2.IsWhole) (arg3 : Memref sig .tc .vmem S1024x512 .f32) (harg3 : arg3.IsWhole)
    (arg4 : Memref sig .tc .vmem S1x1 .f32) (harg4 : arg4.IsWhole) (arg5 : Memref sig .tc .vmem S1024x512 .f32) (harg5 : arg5.IsWhole)
    (arg6 : Memref sig .tc .vmem S1024x512 .f32) (harg6 : arg6.IsWhole)
    (hc0 : ¬cond1 i) (xo : Vec F S1x1 .f32) (xs : Vec F S1024x512 .f32) (f : arg4.view.ty.Contents (Elt F)) :
    arg4.view.read (Elt F) (arg4.view.writes (Elt F) f (kernelRun1_B c i arg1 harg1 arg2 harg2 arg3 harg3 arg4 harg4 arg5 harg5 arg6 harg6 hc0 xo xs).1) = lossOf i xs xo := by
  rw [View.read_writes_eq_canon _ _ _ (cover1_B_4 c i arg1 harg1 arg2 harg2 arg3 harg3 arg4 harg4 arg5 harg5 arg6 harg6 hc0 xo xs)]
  unfold kernelRun1_B; dsimp only
  sl_unfold_run_names
  simp only [View.canon_unit_zero (S := S1x1) hz2', View.readAt_eq_ld, harg4.read_unread, harg6.read_unread,
    View.ld_unit_zero (S := S1024x512) hz2', View.ld_unit_zero (S := S1x1) hz2']

variable (V : (c : Dev nD) → (b : Ref sig .tc) → Buf (Elt F) ((c : Thread nD τ).loc b))

/-! ## What each window's buffer holds when the body runs -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The centres' output window is idle exactly at the points after the first. -/
theorem idle1_4 : ∀ t : Fin cfg1.N, cfg1.idle 4 (grid1.coords t) = !decide (t.val % 4 = 0) :=
  (by decide +kernel : ∀ t : Fin grid1.N, idle1 4 (grid1.coords t) = !decide (t.val % 4 = 0))

theorem val_lt4 (t : Fin cfg1.N) : t.val < 4 := lt_of_lt_of_eq t.isLt (show cfg1.N = 4 from N_1)

/-- At the first point the two outputs' buffers are fresh. -/
theorem before1_3_A (c : Dev nD) (t : Fin cfg1.N) (h0 : t.val % 4 = 0) (d) : (dat1 V c).before 3 t d = d :=
  Dat.before_out_reset _ 3 rfl t (.inl (by have := val_lt4 t; omega)) d

theorem before1_4_A (c : Dev nD) (t : Fin cfg1.N) (h0 : t.val % 4 = 0) (d) : (dat1 V c).before 4 t d = d :=
  Dat.before_out_reset _ 4 rfl t (.inl (by have := val_lt4 t; omega)) d

/-- At a later point the loss buffer holds what the point before left. -/
theorem before1_3_B (c : Dev nD) (t : Fin cfg1.N) (h0 : ¬t.val % 4 = 0) (d) :
    (dat1 V c).before 3 t d = loss1 V c (t.val - 1) (Nat.lt_of_le_of_lt (Nat.sub_le _ _) t.isLt) := by
  have := val_lt4 t
  rw [Dat.before_out_kept _ 3 rfl t (by omega) (Bool.eq_false_iff.mpr fun h => by have := (flush1_3 _).mp h; dsimp only at this; omega)
    (fun _ => rfl) (fun _ _ => rfl)]
  dsimp only [dat1]

/-- At a later point the centres' buffer still holds the new centres: it was filled at the first point, has not been
    written back, and the points between left it alone. -/
theorem before1_4_B (c : Dev nD) : ∀ (n : ℕ) (hn : n + 1 < cfg1.N) (d), (dat1 V c).before 4 ⟨n + 1, hn⟩ d = nc1 V c := by
  intro n
  induction n with
  | zero =>
    intro hn d
    rw [Dat.before_of_pos _ 4 ⟨0 + 1, hn⟩ (Nat.succ_ne_zero 0) ((cfg1.win 4).fetch_out rfl _) d]
    rw [if_neg (fun h => by have h' := (flush1_4 _).mp h; dsimp only at h'; omega)]
    unfold Dat.left
    have hi : cfg1.idle 4 (cfg1.grid.coords ⟨0 + 1 - 1, Nat.lt_of_le_of_lt (Nat.sub_le _ _) hn⟩) = false := by
      rw [show cfg1.grid.coords = grid1.coords from rfl, idle1_4]; rfl
    rw [hi]
    dsimp only
    unfold Dat.kept
    rw [Pipeline.fill_of_clip_none 4 _ (fun _ => rfl) d ((dat1 V c).after 4 _), Window.fill_cut, after1_4]
  | succ n ih =>
    intro hn d
    rw [Dat.before_of_pos _ 4 ⟨n + 1 + 1, hn⟩ (Nat.succ_ne_zero _) ((cfg1.win 4).fetch_out rfl _) d]
    rw [if_neg (fun h => by have h' := (flush1_4 _).mp h; have hN := lt_of_lt_of_eq hn (show cfg1.N = 4 from N_1); dsimp only at h'; omega)]
    unfold Dat.left
    have hi : cfg1.idle 4 (cfg1.grid.coords ⟨n + 1 + 1 - 1, Nat.lt_of_le_of_lt (Nat.sub_le _ _) hn⟩) = true := by
      rw [show cfg1.grid.coords = grid1.coords from rfl, idle1_4]
      have := lt_of_lt_of_eq hn (show cfg1.N = 4 from N_1)
      show (!decide ((n + 1 + 1 - 1) % 4 = 0)) = true
      rw [Bool.not_eq_true', decide_eq_false_iff_not]; omega
    rw [hi]
    dsimp only
    exact ih (Nat.lt_of_succ_lt hn) d

theorem before1_4_pos (c : Dev nD) (t : Fin cfg1.N) (ht : t.val ≠ 0) (d) : (dat1 V c).before 4 t d = nc1 V c := by
  obtain ⟨n, hn⟩ := t
  cases n with
  | zero => exact absurd rfl ht
  | succ n => exact before1_4_B V c n hn d

/-! ## The invariant's two faces -/

/-- Before the first point: the scratch among the scoped buffers at some contents. -/
theorem PhiA1_split (c : Dev nD) :
    (Pipeline.ΦA spec1 c : sProp 𝕄) ⊢ iprop(otherScoped (F := F) c ∗ (∃ d, owns (c : Thread nD τ) scr fullShare d) ∗ ∃ r, prngReg c r) := by
  unfold Pipeline.ΦA otherScoped; rw [scopedRest1_eq]
  iintro ⟨⟨Ha, Hb, Hc, Hd, He, Hg, ⟨%f, HS⟩⟩, Hr⟩
  isplitl [Ha Hb Hc Hd He Hg]
  · isplitl [Ha]; · iexact Ha
    isplitl [Hb]; · iexact Hb
    isplitl [Hc]; · iexact Hc
    isplitl [Hd]; · iexact Hd
    isplitl [He]; · iexact He
    iexact Hg
  isplitl [HS]
  · iexists f; rw [owns_whole]; iexact HS
  iexact Hr

/-- After any point the scratch's contents may be forgotten again. -/
theorem PhiA1_join (c : Dev nD) (x : Vec F S1024x512 .f32) :
    iprop(otherScoped (F := F) c ∗ owns (c : Thread nD τ) scr fullShare x ∗ ∃ r, prngReg c r) ⊢ (Pipeline.ΦA spec1 c : sProp 𝕄) := by
  unfold Pipeline.ΦA otherScoped; rw [scopedRest1_eq]
  iintro ⟨⟨Ha, Hb, Hc, Hd, He, Hg⟩, HS, Hr⟩
  isplitr [Hr]
  · isplitl [Ha]; · iexact Ha
    isplitl [Hb]; · iexact Hb
    isplitl [Hc]; · iexact Hc
    isplitl [Hd]; · iexact Hd
    isplitl [He]; · iexact He
    isplitl [Hg]; · iexact Hg
    iexists x; rw [← owns_whole]; iexact HS
  iexact Hr

theorem Phi1_zero (c : Dev nD) (t : Fin cfg1.N) (hz : t.val = 0) : (dat1 V c).Φ t.castSucc = Pipeline.ΦA spec1 c := by
  dsimp only [dat1]; simp only [Fin.coe_castSucc, hz]; rfl

theorem Phi1_pos (c : Dev nD) (t : Fin (cfg1.N + 1)) (hz : t.val ≠ 0) :
    (dat1 V c).Φ t = iprop(otherScoped (F := F) c ∗ owns (c : Thread nD τ) scr fullShare (nc1 V c) ∗ ∃ r, prngReg c r) := by
  dsimp only [dat1]
  obtain ⟨n, hn⟩ := t
  cases n with
  | zero => exact absurd rfl hz
  | succ n => rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem live1_0 (c : Dev nD) (t : Fin cfg1.N) : (dat1 V c).leavesExact 0 t = owns (c : Thread nD τ) (st1_0 t) fullShare ((dat1 V c).after 0 t) := rfl
theorem live1_1 (c : Dev nD) (t : Fin cfg1.N) : (dat1 V c).leavesExact 1 t = owns (c : Thread nD τ) (st1_1 t) fullShare ((dat1 V c).after 1 t) := rfl
theorem live1_2 (c : Dev nD) (t : Fin cfg1.N) : (dat1 V c).leavesExact 2 t = owns (c : Thread nD τ) (st1_2 t) fullShare ((dat1 V c).after 2 t) := rfl
theorem live1_3 (c : Dev nD) (t : Fin cfg1.N) : (dat1 V c).leavesExact 3 t = owns (c : Thread nD τ) (st1_3 t) fullShare ((dat1 V c).after 3 t) := rfl

/-- Where the centres' window is live or written back it must hold the new centres; -/
theorem leaves1_4_live (c : Dev nD) (t : Fin cfg1.N) (h : t.val % 4 = 0 ∨ t.val % 4 = 3) :
    (dat1 V c).leavesExact 4 t = owns (c : Thread nD τ) (st1_4 t) fullShare (nc1 V c) := by
  unfold Dat.leavesExact
  rw [show cfg1.grid.coords = grid1.coords from rfl, idle1_4]
  rcases h with h | h
  · rw [show (!decide (t.val % 4 = 0)) = false from by rw [Bool.not_eq_false', decide_eq_true_eq]; exact h]
    dsimp only; rw [after1_4]
  · have hf : (cfg1.win 4).flush t = true := (flush1_4 t).mpr h
    cases hb : (!decide (t.val % 4 = 0))
    · dsimp only; rw [after1_4]
    · dsimp only; rw [hf]; dsimp only; rw [after1_4]

/-- elsewhere it is handed back as found. -/
theorem leaves1_4_idle (c : Dev nD) (t : Fin cfg1.N) (h0 : ¬t.val % 4 = 0) (h3 : ¬t.val % 4 = 3) :
    (dat1 V c).leavesExact 4 t = iprop(∃ d, owns (c : Thread nD τ) (st1_4 t) fullShare ((dat1 V c).before 4 t d)) :=
  Dat.leavesExact_idle _ 4 t (by rw [show cfg1.grid.coords = grid1.coords from rfl, idle1_4, Bool.not_eq_true', decide_eq_false_iff_not]; exact h0)
    (Bool.eq_false_iff.mpr fun h => h3 ((flush1_4 t).mp h))

theorem loss1_A (c : Dev nD) (t : Fin cfg1.N) (hz : t.val = 0) :
    loss1 V c t.val t.isLt = lossOf (grid1.coords t) (nc1 V c) k1_pay3 := by
  obtain ⟨n, hn⟩ := t
  cases n with
  | zero => rfl
  | succ n => exact absurd hz (by simp)

theorem loss1_B (c : Dev nD) (t : Fin cfg1.N) (hz : t.val ≠ 0) :
    loss1 V c t.val t.isLt = lossOf (grid1.coords t) (nc1 V c) (loss1 V c (t.val - 1) (Nat.lt_of_le_of_lt (Nat.sub_le _ _) t.isLt)) := by
  obtain ⟨n, hn⟩ := t
  cases n with
  | zero => exact absurd rfl hz
  | succ n => rfl

theorem nc1_eq (c : Dev nD) (t : Fin cfg1.N) (hz : t.val = 0) :
    nc1 V c = ncOf (iblk1 V c 0 t) (iblk1 V c 1 t) (iblk1 V c 2 t) := by
  obtain rfl : t = t1_0 := Fin.ext hz
  rfl

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    live1_0, live1_1, live1_2, live1_3, after1_0, after1_1, after1_2, after1_3]
  rw [Phi1_pos V c t.succ (by simp)]
  by_cases h0 : t.val % 4 = 0
  · have hz : t.val = 0 := by have := val_lt4 t; omega
    simp only [before1_3_A V c t h0, before1_4_A V c t h0]
    rw [leaves1_4_live V c t (.inl h0), Phi1_zero V c t hz, loss1_A V c t hz, nc1_eq V c t hz]
    iintro ⟨HΦ, Ho, ⟨%d0, H0⟩, ⟨%d1, H1⟩, ⟨%d2, H2⟩, ⟨%d3, H3⟩, ⟨%d4, H4⟩⟩
    ihave HΦ' := (PhiA1_split (F := F) c) $$ HΦ
    icases HΦ' with ⟨Hoth, ⟨%ds, HS⟩, Hr⟩
    iapply ((kernelRun1_A c (grid1.coords t) _ _ _ _ _ _ _ _ _ _ scr (Memref.isWhole_whole _) ((hcond1 t).mpr h0)
      (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS]; · iexists _; iexact HS
    iintro ⟨H0, H1, H2, ⟨%f4, H4⟩, ⟨%f5, H5⟩, ⟨%f6, H6⟩⟩
    isplitl [Hoth H6 Hr]
    · isplitl [Hoth]; · iexact Hoth
      isplitl [H6]
      · unfold owns; iexists _; isplitr
        swap; · iexact H6
        ipureintro
        exact left1_A_6 c (grid1.coords t) _ _ _ _ _ _ _ _ _ _ scr (Memref.isWhole_whole _) ((hcond1 t).mpr h0) _ _ _ _
      iexact Hr
    isplitl [Ho]; · iexact Ho
    isplitl [H0]; · iexact H0
    isplitl [H1]; · iexact H1
    isplitl [H2]; · iexact H2
    isplitl [H4]
    · unfold owns; iexists _; isplitr
      swap; · iexact H4
      ipureintro
      exact left1_A_4 c (grid1.coords t) _ _ _ _ _ _ _ _ _ _ scr (Memref.isWhole_whole _) ((hcond1 t).mpr h0) _ _ _ _
    unfold owns; iexists _; isplitr
    swap; · iexact H5
    ipureintro
    exact left1_A_5 c (grid1.coords t) _ _ _ _ _ _ _ _ _ _ scr (Memref.isWhole_whole _) ((hcond1 t).mpr h0) _ _ _ _
  · have hz : t.val ≠ 0 := fun h => h0 (by rw [h])
    simp only [before1_3_B V c t h0, before1_4_pos V c t hz]
    rw [Phi1_pos V c t.castSucc (by simpa using hz), loss1_B V c t hz]
    iintro ⟨⟨Hoth, HS, Hr⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ scr (Memref.isWhole_whole _) (fun h => h0 ((hcond1 t).mp h))
      (loss1 V c (t.val - 1) (Nat.lt_of_le_of_lt (Nat.sub_le _ _) t.isLt)) (nc1 V c)).2 Set.univ _)
    isplitl [H3]; · iexact H3
    isplitl [HS]; · iexact HS
    iintro ⟨⟨%f4, H4'⟩, HS⟩
    isplitl [Hoth HS Hr]
    · isplitl [Hoth]; · iexact Hoth
      isplitl [HS]; · iexact HS
      iexact Hr
    isplitl [Ho]; · iexact Ho
    isplitl [H0]; · iexact H0
    isplitl [H1]; · iexact H1
    isplitl [H2]; · iexact H2
    isplitl [H4']
    · unfold owns; iexists _; isplitr
      swap; · iexact H4'
      ipureintro
      exact left1_B_4 c (grid1.coords t) _ _ _ _ _ _ _ _ _ _ scr (Memref.isWhole_whole _) (fun h => h0 ((hcond1 t).mp h)) _ _ _
    by_cases h3 : t.val % 4 = 3
    · rw [leaves1_4_live V c t (.inr h3)]; iexact H4
    · rw [leaves1_4_idle V c t h0 h3]
      simp only [before1_4_pos V c t hz]
      iexists d4; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The program's run: the two kernels' records around the buffer contents they are entered from and leave, and the
  launch over them. Every weakly fair execution terminates, and the final memory holds every unscoped buffer at the
  contents the host operations and the kernels' write-backs give it in turn; in particular the arguments are unchanged.
-/
import proofs.«421983_j29111288332477_3_alg».proof.Proof.KIRunDefs
import proofs.«421983_j29111288332477_3_alg».proof.Proof.KIRunCond
import proofs.«421983_j29111288332477_3_alg».proof.Proof.KIBody0
import proofs.«421983_j29111288332477_3_alg».proof.Proof.KIBody1
import Idealize.ShloMosaic.Lib.Pipeline.RegionsLoop
import Idealize.ShloMosaic.Lib.Pipeline.FrameSuffix
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides along -/

/-- Both kernels' proof data, each at the contents its kernel is entered from. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The contents at the kernels' exits -/

theorem V2_arr (c : Dev nD) (w : Fin cfg0.W) :
    (dat0 (Vin0 m) c).arrAt w cfg0.N = Gen.V2 m (outsK m) c (Pipeline.arrRef spec0 w) := by
  match w with
  | ⟨0, _⟩ =>
    rw [Gen.V2_of m (outsK m) c (Pipeline.arrRef spec0 0) (by decide)]
    exact ((dat0 (Vin0 m) c).arrAt_in 0 rfl _).trans (A_eq0 (Vin0 m) c 0)
  | ⟨1, _⟩ =>
    rw [Gen.V2_of m (outsK m) c (Pipeline.arrRef spec0 1) (by decide)]
    exact ((dat0 (Vin0 m) c).arrAt_in 1 rfl _).trans (A_eq0 (Vin0 m) c 1)
  | ⟨2, _⟩ =>
    show _ = Function.update (Gen.V1 m c) main_v1 (outsK m 2 main_v1 c) main_v1
    rw [Function.update_self, outsK_two]
    exact (W2_out m c).symm

theorem V2_rest (c : Dev nD) : ∀ b, b ∉ Finset.univ.image (Pipeline.arrRef spec0) → Gen.V2 m (outsK m) c b = Gen.V1 m c b :=
  fun b hb => Gen.V2_of m (outsK m) c b (by
    intro hmem
    rw [List.mem_singleton] at hmem
    exact hb (Finset.mem_image.mpr ⟨2, Finset.mem_univ _, hmem.symm⟩))

theorem V7_arr (c : Dev nD) (w : Fin cfg1.W) :
    (dat1 (Vin1 m) c).arrAt w cfg1.N = Gen.V7 m (outsK m) c (Pipeline.arrRef spec1 w) := by
  match w with
  | ⟨0, _⟩ =>
    rw [Gen.V7_of m (outsK m) c (Pipeline.arrRef spec1 0) (by decide), V6_outsK]
    exact ((dat1 (Vin1 m) c).arrAt_in 0 rfl _).trans (A_eq1 (Vin1 m) c 0)
  | ⟨1, _⟩ =>
    rw [Gen.V7_of m (outsK m) c (Pipeline.arrRef spec1 1) (by decide), V6_outsK]
    exact ((dat1 (Vin1 m) c).arrAt_in 1 rfl _).trans (A_eq1 (Vin1 m) c 1)
  | ⟨2, _⟩ =>
    rw [Gen.V7_of m (outsK m) c (Pipeline.arrRef spec1 2) (by decide), V6_outsK]
    exact ((dat1 (Vin1 m) c).arrAt_in 2 rfl _).trans (A_eq1 (Vin1 m) c 2)
  | ⟨3, _⟩ =>
    show _ = Function.update (Function.update (Gen.V6 m (outsK m) c) main_v9_0 (outsK m 7 main_v9_0 c)) main_v9_1 (outsK m 7 main_v9_1 c) main_v9_0
    rw [Function.update_of_ne (StableHlo.devRef_ne_of_ne (by decide) : (Proc.devRef .tc main_v9_0 : DevRef τ sig) ≠ Proc.devRef .tc main_v9_1),
      Function.update_self, outsK_seven]
    exact (W7_loss m c).symm
  | ⟨4, _⟩ =>
    show _ = Function.update (Function.update (Gen.V6 m (outsK m) c) main_v9_0 (outsK m 7 main_v9_0 c)) main_v9_1 (outsK m 7 main_v9_1 c) main_v9_1
    rw [Function.update_self, outsK_seven]
    exact (W7_newc m c).symm

theorem V7_rest (c : Dev nD) : ∀ b, b ∉ Finset.univ.image (Pipeline.arrRef spec1) → Gen.V7 m (outsK m) c b = Gen.V6 m (outsK m) c b :=
  fun b hb => Gen.V7_of m (outsK m) c b (by
    intro hmem
    rcases List.mem_cons.mp hmem with h | h
    · exact hb (Finset.mem_image.mpr ⟨3, Finset.mem_univ _, h.symm⟩)
    · rw [List.mem_singleton] at h
      exact hb (Finset.mem_image.mpr ⟨4, Finset.mem_univ _, h.symm⟩))

theorem A1_outsK (c : Dev nD) (w : Fin cfg1.W) : (dat1 (Vin1 m) c).A w = Gen.V6 m (outsK m) c (Pipeline.arrRef spec1 w) := by
  rw [V6_outsK]; exact A_eq1 (Vin1 m) c w

/-! ## The kernels as segments -/

set_option backward.isDefEq.respectTransparency.types false in
/-- The first kernel: entered from every unscoped buffer at `V1`, left at `V2`. Its arrays are split out of the
    unscoped buffers and put back at the exit contents; the generator register goes into the invariant and comes out;
    nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => Gen.V2 m (outsK m) c b) ((pdats m 0 c).arrAt · cfg0.N) (V2_arr m c) (V2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from every unscoped buffer at `V6`, left at `V7`. Before its first point its scratch
    buffer is one of the scoped buffers at some contents; after its last the scratch's contents are forgotten again. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V6 m (outsK m) c) ∗ R c)
  post c := iprop(StableHlo.held (c : Thread nD τ) (Pipeline.ucRefs τ sig) (Gen.V7 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V6 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Gen.V6 m (outsK m) c b) (A1_outsK m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (Vin1 m) c).Φ (Fin.last cfg1.N) from rfl,
      Phi1_pos (Vin1 m) c (Fin.last cfg1.N) (by rw [Fin.val_last]; have : cfg1.N = 4 := N_1; omega)]
    refine (PhiA1_join (F := F) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V6 m (outsK m) c b) (fun b => Gen.V7 m (outsK m) c b) ((pdats m 1 c).arrAt · cfg1.N) (V7_arr m c) (V7_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates, and the final memory holds every unscoped
    buffer at the last contents. -/
theorem run_main : θ_run defs (onTc (τ := τ) (main (F := F))) ⟨m, fun _ => 0, ρ⟩
    (fun r => ∀ c : Dev nD, ∀ b ∈ Pipeline.ucRefs τ sig, r.2.mem ((c : Thread nD τ).1, b) = Gen.V8 m (outsK m) c b) :=
  run_cond m emb₁ () 𝒱₀ L lv (fun _ _ => rfl) ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- An unscoped reference of the TensorCore is among those the last contents are read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs to the end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (Gen.V8_main_arg0 m (outsK m) c),
     (h c _ (mem_uc main_arg1 (by decide))).trans (Gen.V8_main_arg1 m (outsK m) c),
     (h c _ (mem_uc main_arg2 (by decide))).trans (Gen.V8_main_arg2 m (outsK m) c)⟩) (run_main m ρ)

end Cert.KernelIdeal.Hand

end
-- ==== Proof.ValArr.lean ====
import proofs.«421983_j29111288332477_3_alg».proof.Proof.KIDefs
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem lt_N0 (h : Fin 2) : 8 * h.val + 7 < cfg0.N := by
  have : cfg0.N = 16 := N_0
  omega

theorem lt3_N1 : 3 < cfg1.N := by
  have : cfg1.N = 4 := N_1
  omega

/-! ## The first kernel's output array -/

/-- The block index of the first kernel's output window at point `t` is `(t / 8, 0, 0)`. -/
theorem idx0_2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- The window's contents after a point depend on the point's number only. -/
theorem acc0_congr (c : Dev nD) {n n' : ℕ} (e : n = n') (hn : n < cfg0.N) (hn' : n' < cfg0.N) :
    acc0 V c n hn = acc0 V c n' hn' := by
  subst e; rfl

/-- One element of the first kernel's output: row `k`, column `d` of slab `h` is what the last point of
    half `h` left in the window there. -/
def slab0 (c : Dev nD) (h : Fin 2) (k : Fin 1024) (d : Fin 512) : Elt F .f32 :=
  acc0 V c (8 * h.val + 7) (lt_N0 h) (ix3 0 k d)

/-- The whole output array of the first kernel, slab by slab. -/
def out0 (c : Dev nD) : Vec F S2x1024x512 .f32 := fun i => slab0 V c (i 0) (i 1) (i 2)

/-- What a point that writes back writes is its slab of `out0`. -/
theorem flushed0_2_eq (c : Dev nD) (t : Fin cfg0.N) (hf : (cfg0.win 2).flush t = true) :
    (dat0 V c).flushed 2 t = ((cfg0.win 2).blk t).view.read (Elt F) (out0 V c) := by
  have hN : cfg0.N = 16 := N_0
  have ht : t.val % 8 = 7 := (flush0_2 t).mp hf
  have htl : t.val < 16 := hN ▸ t.isLt
  obtain ⟨e0, e1, e2⟩ := idx0_2 t
  show (cfg0.win 2).cut (grid0.coords t) ((dat0 V c).after 2 t) = _
  rw [after0_2]
  funext j
  have hj0 : (j 0).val < 1 := (j 0).isLt
  have hemb : ((cfg0.win 2).blk t).view.emb j
      = ix3 (⟨t.val / 8, by omega⟩ : Fin 2) (⟨(j 1).val, (j 1).isLt⟩ : Fin 1024) (⟨(j 2).val, (j 2).isLt⟩ : Fin 512) := by
    funext a; apply Fin.ext
    match a with
    | ⟨0, _⟩ => show win0_2.index t (0 : Fin 3) * 1 + 1 * (j 0).val = t.val / 8; omega
    | ⟨1, _⟩ => show win0_2.index t (1 : Fin 3) * 1024 + 1 * (j 1).val = (j 1).val; omega
    | ⟨2, _⟩ => show win0_2.index t (2 : Fin 3) * 512 + 1 * (j 2).val = (j 2).val; omega
  show acc0 V c t.val t.isLt _ = out0 V c (((cfg0.win 2).blk t).view.emb j)
  rw [hemb]
  show _ = acc0 V c (8 * (t.val / 8) + 7) _ (ix3 0 (⟨(j 1).val, (j 1).isLt⟩ : Fin 1024) (⟨(j 2).val, (j 2).isLt⟩ : Fin 512))
  refine (congrFun (acc0_congr V c (show t.val = 8 * (t.val / 8) + 7 by omega) _ _) _).trans (congrArg _ ?_)
  funext a; apply Fin.ext
  match a with
  | ⟨0, _⟩ => show (j 0).val = 0; omega
  | ⟨1, _⟩ => rfl
  | ⟨2, _⟩ => rfl

/-- After the first kernel, slab `h` of its output array is what the last point of half `h` left in the window. -/
theorem arr0_out (c : Dev nD) (h : Fin 2) (k : Fin 1024) (d : Fin 512) :
    ((dat0 V c).arrAt 2 cfg0.N : Vec F S2x1024x512 .f32) (ix3 h k d)
      = acc0 V c (8 * h.val + 7) (lt_N0 h) (ix3 0 k d) := by
  have hN : cfg0.N = 16 := N_0
  obtain ⟨e0, e1, e2⟩ := idx0_2 ⟨8 * h.val + 7, lt_N0 h⟩
  refine (dat0 V c).arrAt_apply_of_mem 2 (out0 V c) (flushed0_2_eq V c) cfg0.N ⟨8 * h.val + 7, lt_N0 h⟩ (ix3 h k d)
    (lt_N0 h) ((flush0_2 _).mpr (by show (8 * h.val + 7) % 8 = 7; omega)) ?_
  show ix3 h k d ∈ ((View.whole main_v1).slice (win0_2.rect ⟨8 * h.val + 7, lt_N0 h⟩)).set
  rw [View.set_slice_whole, Rect.mem_set_unit]
  intro a
  have hh : h.val < 2 := h.isLt
  have hk : k.val < 1024 := k.isLt
  have hd : d.val < 512 := d.isLt
  match a with
  | ⟨0, _⟩ => show win0_2.index ⟨8 * h.val + 7, lt_N0 h⟩ (0 : Fin 3) * 1 ≤ h.val ∧ h.val < win0_2.index ⟨8 * h.val + 7, lt_N0 h⟩ (0 : Fin 3) * 1 + 1
              rw [e0]; show (8 * h.val + 7) / 8 * 1 ≤ h.val ∧ h.val < (8 * h.val + 7) / 8 * 1 + 1; omega
  | ⟨1, _⟩ => show win0_2.index ⟨8 * h.val + 7, lt_N0 h⟩ (1 : Fin 3) * 1024 ≤ k.val ∧ k.val < win0_2.index ⟨8 * h.val + 7, lt_N0 h⟩ (1 : Fin 3) * 1024 + 1024
              rw [e1]; omega
  | ⟨2, _⟩ => show win0_2.index ⟨8 * h.val + 7, lt_N0 h⟩ (2 : Fin 3) * 512 ≤ d.val ∧ d.val < win0_2.index ⟨8 * h.val + 7, lt_N0 h⟩ (2 : Fin 3) * 512 + 512
              rw [e2]; omega

/-! ## The second kernel's output arrays -/

/-- The only point that writes the second kernel's output windows back is the last one. -/
theorem eq_t1_3_of_mod (t : Fin cfg1.N) (h : t.val % 4 = 3) : t = t1_3 := by
  have hN : cfg1.N = 4 := N_1
  apply Fin.ext
  show t.val = 3
  have := t.isLt
  omega

/-- The last point writes back the loss: block (0, 0) of the [1, 1] array is the array. -/
theorem flushed1_3_eq (c : Dev nD) (t : Fin cfg1.N) (hf : (cfg1.win 3).flush t = true) :
    (dat1 V c).flushed 3 t = ((cfg1.win 3).blk t).view.read (Elt F) (loss1 V c 3 lt3_N1) := by
  obtain rfl : t = t1_3 := eq_t1_3_of_mod t ((flush1_3 t).mp hf)
  show (cfg1.win 3).cut (grid1.coords t1_3) ((dat1 V c).after 3 t1_3) = _
  rw [after1_3]
  have hz' : (fun a => win1_3.index t1_3 a * main_v9_0.ty.shape.size a) = fun _ => 0 := funext fun a => by fin_cases a <;> decide
  exact (Memref.read_access_unit_zero (Elt F) main_v9_0 hz' (fun a => by rw [congrFun hz' a]; simp) (loss1 V c 3 lt3_N1)).symm

/-- After the second kernel its first output array is what the last point left in the loss window. -/
theorem arr1_loss (c : Dev nD) :
    ((dat1 V c).arrAt 3 cfg1.N : Vec F S1x1 .f32) = loss1 V c 3 lt3_N1 :=
  (dat1 V c).arrAt_eq_of_cover 3 (loss1 V c 3 lt3_N1) (flushed1_3_eq V c) fun i =>
    ⟨t1_3, (flush1_3 t1_3).mpr rfl, by
      show i ∈ ((View.whole main_v9_0).slice (win1_3.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_3 0 * win1_3.size 0 ≤ (i 0 : Nat) ∧ (i 0 : Nat) < win1_3.index t1_3 0 * win1_3.size 0 + win1_3.xsize (grid1.coords t1_3) 0
                  rw [show win1_3.index t1_3 0 * win1_3.size 0 = 0 from by decide +kernel, show win1_3.xsize (grid1.coords t1_3) 0 = 1 from by decide +kernel]; omega
      | ⟨1, _⟩ => show win1_3.index t1_3 1 * win1_3.size 1 ≤ (i 1 : Nat) ∧ (i 1 : Nat) < win1_3.index t1_3 1 * win1_3.size 1 + win1_3.xsize (grid1.coords t1_3) 1
                  rw [show win1_3.index t1_3 1 * win1_3.size 1 = 0 from by decide +kernel, show win1_3.xsize (grid1.coords t1_3) 1 = 1 from by decide +kernel]; omega⟩

/-- The last point writes back the new centres: block (0, 0) of the [1024, 512] array is the array. -/
theorem flushed1_4_eq (c : Dev nD) (t : Fin cfg1.N) (hf : (cfg1.win 4).flush t = true) :
    (dat1 V c).flushed 4 t = ((cfg1.win 4).blk t).view.read (Elt F) (nc1 V c) := by
  obtain rfl : t = t1_3 := eq_t1_3_of_mod t ((flush1_4 t).mp hf)
  show (cfg1.win 4).cut (grid1.coords t1_3) ((dat1 V c).after 4 t1_3) = _
  rw [after1_4]
  have hz' : (fun a => win1_4.index t1_3 a * main_v9_1.ty.shape.size a) = fun _ => 0 := funext fun a => by fin_cases a <;> decide
  exact (Memref.read_access_unit_zero (Elt F) main_v9_1 hz' (fun a => by rw [congrFun hz' a]; simp) (nc1 V c)).symm

/-- After the second kernel its second output array holds the new centres. -/
theorem arr1_newc (c : Dev nD) :
    ((dat1 V c).arrAt 4 cfg1.N : Vec F S1024x512 .f32) = nc1 V c :=
  (dat1 V c).arrAt_eq_of_cover 4 (nc1 V c) (flushed1_4_eq V c) fun i =>
    ⟨t1_3, (flush1_4 t1_3).mpr rfl, by
      show i ∈ ((View.whole main_v9_1).slice (win1_4.rect t1_3)).set
      rw [View.set_slice_whole, Rect.mem_set_unit]
      intro a
      have h0 : (i 0 : Nat) < 1024 := (i 0).isLt
      have h1 : (i 1 : Nat) < 512 := (i 1).isLt
      match a with
      | ⟨0, _⟩ => show win1_4.index t1_3 0 * win1_4.size 0 ≤ (i 0 : Nat) ∧ (i 0 : Nat) < win1_4.index t1_3 0 * win1_4.size 0 + win1_4.xsize (grid1.coords t1_3) 0
                  rw [show win1_4.index t1_3 0 * win1_4.size 0 = 0 from by decide +kernel, show win1_4.xsize (grid1.coords t1_3) 0 = 1024 from by decide +kernel]; omega
      | ⟨1, _⟩ => show win1_4.index t1_3 1 * win1_4.size 1 ≤ (i 1 : Nat) ∧ (i 1 : Nat) < win1_4.index t1_3 1 * win1_4.size 1 + win1_4.xsize (grid1.coords t1_3) 1
                  rw [show win1_4.index t1_3 1 * win1_4.size 1 = 0 from by decide +kernel, show win1_4.xsize (grid1.coords t1_3) 1 = 512 from by decide +kernel]; omega⟩

end Cert.KernelIdeal.Hand

end
-- ==== Proof.Spec.lean ====
/-
  The common value of the two programs, over the extended reals, as functions of the three argument arrays
  (features [32768, 512], labels [32768] as 32-bit words, centres [1000, 512]).

  A sample n belongs to class k when its label word, read signed, is k. Per class: the count of its samples and,
  per column, the sum of its samples' features. The new centre is the old one plus the class mean (the sum over
  the count, the count replaced by 1 where no sample belongs). The loss is the mean, over all ordered pairs of
  the 1000 classes, of the hinge max(5 - dist, 0) taken where dist < 5, of the Euclidean distance between the new
  centres, the squared distance computed as |a|² + |b|² - 2 a·b and clamped at 0 before the root.
-/
import Idealize.ShloMosaic.PureOps.Ideal
import Idealize.ShloMosaic.Lib.ValueIdx

noncomputable section

open scoped BigOperators

namespace Cert.Spec

open Idealize.ShloMosaic Idealize.ShloMosaic.ValueIdx

abbrev SFeat : Shape := ⟨2, ![32768, 512]⟩
abbrev SLab : Shape := ⟨1, ![32768]⟩
abbrev SCen : Shape := ⟨2, ![1000, 512]⟩

variable (feat : SFeat.Idx → EReal) (lab : IVec SLab 32) (cen : SCen.Idx → EReal)

/-- The samples of class `k`: those whose label word, read signed, is `k`. -/
def members (k : ℕ) : Finset (Fin 32768) := Finset.univ.filter fun n => (lab (ix1 n)).toInt = (k : Int)

/-- How many samples class `k` has. -/
def count (k : ℕ) : EReal := ∑ _n ∈ members lab k, (1 : EReal)

/-- Column `d` of the sum of class `k`'s feature rows. -/
def segSum (k : ℕ) (d : Fin 512) : EReal := ∑ n ∈ members lab k, feat (ix2 n d)

/-- The divisor of the class mean: the count, or 1 for an empty class. -/
def denom (k : ℕ) : EReal := max (count lab k) 1

/-- The new centre of class `k`, column `d`. -/
def newCenter (k : Fin 1000) (d : Fin 512) : EReal :=
  cen (ix2 k d) + Ideal.div (segSum feat lab k d) (denom lab k)

/-- The squared norm of a new centre. -/
def sqNorm (k : Fin 1000) : EReal := ∑ d : Fin 512, newCenter feat lab cen k d * newCenter feat lab cen k d

/-- The inner product of two new centres. -/
def gram (i j : Fin 1000) : EReal := ∑ d : Fin 512, newCenter feat lab cen i d * newCenter feat lab cen j d

/-- The distance between two new centres, from the clamped squared distance. -/
def dist (i j : Fin 1000) : EReal :=
  Ideal.sqrt (max (sqNorm feat lab cen i + sqNorm feat lab cen j - 2 * gram feat lab cen i j) 0)

/-- The hinge on a distance: 5 - d below the threshold 5, else 0. -/
def hingeOf (x : EReal) : EReal := if x < 5 then 5 - x else 0

def hinge (i j : Fin 1000) : EReal := hingeOf (dist feat lab cen i j)

/-- The loss: the mean of the hinge over all ordered pairs of classes. -/
def loss : EReal := Ideal.div (∑ i : Fin 1000, ∑ j : Fin 1000, hinge feat lab cen i j) 1000000

end Cert.Spec

end
-- ==== Proof.KSpec.lean ====
/-
  The second kernel's loss as a function of the padded new centres NC [1024, 512] alone, in the order the kernel
  adds it up: four points, each the sum over its 256 rows and all 1024 columns of the masked hinge term (zero outside
  the first 1000 rows and columns; the distance forced to zero on the diagonal), divided by 10^6 and added to the
  running total, which starts at zero.
-/
import proofs.«421983_j29111288332477_3_alg».proof.Proof.Spec

noncomputable section

open scoped BigOperators

namespace Cert.KSpec

open Idealize.ShloMosaic Idealize.ShloMosaic.ValueIdx

abbrev SPad : Shape := ⟨2, ![1024, 512]⟩

variable (NC : SPad.Idx → EReal)

def sqNorm (i : Fin 1024) : EReal := ∑ d : Fin 512, NC (ix2 i d) * NC (ix2 i d)

def gram (i j : Fin 1024) : EReal := ∑ d : Fin 512, NC (ix2 i d) * NC (ix2 j d)

/-- The distance as the kernel takes it: zero on the diagonal by decree. -/
def dist (i j : Fin 1024) : EReal :=
  if i = j then 0 else Ideal.sqrt (max (sqNorm NC i + sqNorm NC j - 2 * gram NC i j) 0)

/-- One pair's term: the hinge inside the first 1000 rows and columns, zero outside. -/
def term (i j : Fin 1024) : EReal :=
  if i.val < 1000 ∧ j.val < 1000 then Cert.Spec.hingeOf (dist NC i j) else 0

/-- Row `r` of point `t` is row `256 t + r` of the matrix. -/
def rowOf (t : Fin 4) (r : Fin 256) : Fin 1024 := ⟨256 * t.val + r.val, by omega⟩

/-- Point `t`'s sum over its rows and all columns. -/
def part (t : Fin 4) : EReal := ∑ r : Fin 256, ∑ j : Fin 1024, term NC (rowOf t r) j

/-- The running total after the four points. -/
def loss : EReal :=
  (((0 + Ideal.div (part NC 0) 1000000) + Ideal.div (part NC 1) 1000000) + Ideal.div (part NC 2) 1000000)
    + Ideal.div (part NC 3) 1000000

/-! ## The first kernel's partial sums -/

abbrev SFeat : Shape := ⟨2, ![32768, 512]⟩
abbrev SLabRow : Shape := ⟨2, ![1, 32768]⟩

/-- Sample number of row `r` of block `j` of half `h`. -/
def sampleOf (h : Fin 2) (j : Fin 8) (r : Fin 2048) : Fin 32768 := ⟨16384 * h.val + 2048 * j.val + r.val, by omega⟩

/-- What the first kernel leaves for half `h`, class row `k`, column `d`: over the half's eight blocks and each
    block's 2048 samples, the feature where the sample's label word, read signed, is `k`. -/
def partialSum (feat : SFeat.Idx → EReal) (labRow : IVec SLabRow 32) (h : Fin 2) (k : ℕ) (d : Fin 512) : EReal :=
  ∑ j : Fin 8, ∑ r : Fin 2048,
    (if (labRow (ix2 0 (sampleOf h j r))).toInt = (k : Int) then (1 : EReal) else 0) * feat (ix2 (sampleOf h j r) d)

end Cert.KSpec

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.ValAcc.lean ====
/-
  The two kernels' accumulated values read at an index.

  First kernel: at grid point n the label window holds labels 2048 n … 2048 n + 2047 and the feature window the same rows
  of the features; the point adds, at class row k and column d, the sum over its 2048 rows r of onehot(k, r) · feat(r, d),
  where onehot(k, r) is 1 when the label word of row r, read signed, is k and 0 otherwise (the kernel builds it by
  comparing the row-number iota with the broadcast labels, widening the bit and converting it). The accumulator is reset
  at the first point of a half, so after the half's last point it holds the sum of the half's eight block sums.

  Second kernel: its three input windows are whole arrays; the new centres at (k, d) are the padded centre plus the
  two partial sums' total divided by the count, the count raised to at least 1.
-/
import proofs.«421983_j29111288332477_3_alg».proof.Proof.KIDefs
import proofs.«421983_j29111288332477_3_alg».proof.Proof.KSpec
import proofs.«421983_j29111288332477_3_alg».proof.Proof.LibPlainDot
import proofs.«421983_j29111288332477_3_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## Words -/

/-- A word below 2^31 read signed is the number itself, so "the word of k equals x" is "x read signed is k". -/
theorem ofNat_eq_iff_toInt (k : ℕ) (hk : k < 1024) (x : BitVec 32) : BitVec.ofNat 32 k = x ↔ x.toInt = (k : Int) := by
  have hx := x.isLt
  rw [BitVec.toInt_eq_toNat_cond]
  constructor
  · rintro rfl
    simp only [BitVec.toNat_ofNat]
    split <;> omega
  · intro h
    apply BitVec.eq_of_toNat_eq
    simp only [BitVec.toNat_ofNat]
    split at h <;> omega

/-- The one-hot entry: the comparison's bit, widened and converted, is 1 where the label read signed is k and 0 elsewhere. -/
theorem onehot_word (k : ℕ) (hk : k < 1024) (x : BitVec 32) :
    (FloatOps.sitofp (F := Ideal) .f32 ((IntOp.cmpi .eq (BitVec.ofNat 32 k) x).setWidth 32) : EReal)
      = if x.toInt = (k : Int) then 1 else 0 := by
  by_cases h : BitVec.ofNat 32 k = x
  · have e : IntOp.cmpi .eq (BitVec.ofNat 32 k) x = 1#1 := by simp [IntOp.cmpi, h]
    rw [e, if_pos ((ofNat_eq_iff_toInt k hk x).mp h)]
    show (((((1#1 : BitVec 1).setWidth 32).toInt : ℤ) : ℝ) : EReal) = 1
    rw [show ((1#1 : BitVec 1).setWidth 32).toInt = 1 from by decide]
    norm_num
  · have e : IntOp.cmpi .eq (BitVec.ofNat 32 k) x = 0#1 := by
      show BitVec.ofBool (BitVec.ofNat 32 k == x) = 0#1
      rw [beq_eq_false_iff_ne.mpr h]; rfl
    rw [e, if_neg (fun h' => h ((ofNat_eq_iff_toInt k hk x).mpr h'))]
    show (((((0#1 : BitVec 1).setWidth 32).toInt : ℤ) : ℝ) : EReal) = 0
    rw [show ((0#1 : BitVec 1).setWidth 32).toInt = 0 from by decide]
    norm_num

/-! ## The first kernel's payloads at an index -/

/-- The printed dimension numbers are the plain matrix product's. -/
theorem dot_eq : dot_S1024x2048_S2048x512_S1024x512_1_0_0_1_n_n = DotDims.plain 1024 2048 512 := rfl

/-- The reset value is zero everywhere. -/
theorem pay1_zero (k : Fin 1024) (d : Fin 512) : (k0_pay1 (F := Ideal)) (ix3 (0 : Fin 1) k d) = 0 := by
  unfold k0_pay1
  rw [shapeCast_ab_1ab_apply, broadcast_apply]
  exact Ideal.ofBits_zero_f32

/-- One point's update at class row k, column d: what was there plus the features of the block's samples labelled k. -/
theorem pay0_apply (lab : Vec Ideal S1x2048 .i32) (feat : Vec Ideal S2048x512 .f32) (prev : Vec Ideal S1x1024x512 .f32)
    (k : Fin 1024) (d : Fin 512) :
    k0_pay2 (F := Ideal) lab feat prev (ix3 (0 : Fin 1) k d)
      = prev (ix3 (0 : Fin 1) k d)
        + ∑ r : Fin 2048, (if (lab (ix2 (0 : Fin 1) r)).toInt = (k.val : Int) then (1 : EReal) else 0) * feat (ix2 r d) := by
  unfold k0_pay2
  simp only [shapeCast_self]
  rw [shapeCast_ab_1ab_apply, addf_apply, shapeCast_1ab_ab_apply, dot_eq, PlainDot.matmul_zero_apply]
  congr 1
  refine Finset.sum_congr rfl fun r _ => ?_
  rw [truncf_apply, truncf_apply, sitofp_apply, extui_apply]
  show FloatOps.sitofp (F := Ideal) .f32 ((IntOp.cmpi .eq (iota .tc S1024x2048 32 [0] iota_S1024x2048_d0_w32 (ix2 k r))
      (broadcastTo S1024x2048 lab broadcasts_S1x2048_S1024x2048 (ix2 k r))).setWidth 32) * _ = _
  rw [iota_single_apply, broadcastTo_1b_ab_apply, onehot_word k.val k.isLt]

/-! ## The first kernel's blocks, read off the arrays -/

variable (V : (c : Dev nD) → (b : Ref sig .tc) → Buf (Elt Ideal) ((c : Thread nD τ).loc b))

/-- Row r of block n is sample 2048 n + r. -/
def samp (n : ℕ) (r : Fin 2048) : Fin 32768 := ⟨(2048 * n + r.val) % 32768, Nat.mod_lt _ (by norm_num)⟩

/-- The printed index maps over the grid: point t takes block t of the features' rows and of the labels' columns. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

theorem lab_blk (c : Dev nD) (t : Fin cfg0.N) (r : Fin 2048) :
    iblk0 V c 1 t (ix2 (0 : Fin 1) r) = (V c main_v0 : IVec S1x32768 32) (ix2 (0 : Fin 1) (samp t.val r)) := by
  obtain ⟨e0, e1, e2, e3⟩ := idx_facts0 t
  have ht : t.val < 16 := by have h1 := t.isLt; have h2 : cfg0.N = 16 := N_0; omega
  show (V c main_v0 : IVec S1x32768 32) (((cfg0.win 1).blk t).view.emb (ix2 (0 : Fin 1) r)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * r.val = (2048 * t.val + r.val) % 32768; omega

theorem feat_blk (c : Dev nD) (t : Fin cfg0.N) (r : Fin 2048) (d : Fin 512) :
    iblk0 V c 0 t (ix2 r d) = (V c main_arg0 : Vec Ideal S32768x512 .f32) (ix2 (samp t.val r) d) := by
  obtain ⟨e0, e1, e2, e3⟩ := idx_facts0 t
  have ht : t.val < 16 := by have h1 := t.isLt; have h2 : cfg0.N = 16 := N_0; omega
  show (V c main_arg0 : Vec Ideal S32768x512 .f32) (((cfg0.win 0).blk t).view.emb (ix2 r d)) = _
  refine congrArg _ (funext fun a => Fin.ext ?_)
  match a with
  | ⟨0, _⟩ => show win0_0.index t (0 : Fin 2) * 2048 + 1 * r.val = (2048 * t.val + r.val) % 32768; omega
  | ⟨1, _⟩ => show win0_0.index t (1 : Fin 2) * 512 + 1 * d.val = d.val; omega

/-- Block n's contribution to class row k, column d: its samples labelled k, column d of their features. -/
def blockSum (c : Dev nD) (k : ℕ) (d : Fin 512) (n : ℕ) : EReal :=
  ∑ r : Fin 2048, (if ((V c main_v0 : IVec S1x32768 32) (ix2 (0 : Fin 1) (samp n r))).toInt = (k : Int) then (1 : EReal) else 0)
    * (V c main_arg0 : Vec Ideal S32768x512 .f32) (ix2 (samp n r) d)

/-- One point's update on the region's arrays: what was there plus the point's block sum. -/
theorem point_apply (c : Dev nD) (t : Fin cfg0.N) (prev : Vec Ideal S1x1024x512 .f32) (k : Fin 1024) (d : Fin 512) :
    k0_pay2 (F := Ideal) (iblk0 V c 1 t) (iblk0 V c 0 t) prev (ix3 (0 : Fin 1) k d)
      = prev (ix3 (0 : Fin 1) k d) + blockSum V c k.val d t.val := by
  have e := pay0_apply (iblk0 V c 1 t) (iblk0 V c 0 t) prev k d
  rw [e]
  unfold blockSum
  refine congrArg (fun z => prev (ix3 (0 : Fin 1) k d) + z) (Finset.sum_congr rfl fun r _ => ?_)
  rw [lab_blk, feat_blk]

/-- After point n the accumulator holds the block sums of n's half up to n: by induction on the point, the reset at a
    half's first point starting the sum afresh. -/
theorem acc0_run (c : Dev nD) (k : Fin 1024) (d : Fin 512) : ∀ (n : ℕ) (hn : n < cfg0.N),
    acc0 (F := Ideal) V c n hn (ix3 (0 : Fin 1) k d)
      = ∑ i ∈ Finset.range (n % 8 + 1), blockSum V c k.val d (8 * (n / 8) + i) := by
  intro n
  induction n with
  | zero =>
    intro hn
    rw [acc0_zero, point_apply, pay1_zero, zero_add]
    show _ = ∑ i ∈ Finset.range 1, blockSum V c k.val d (8 * (0 / 8) + i)
    rw [Finset.sum_range_one]
  | succ n ih =>
    intro hn
    rw [acc0_succ, point_apply]
    by_cases h8 : (n + 1) % 8 = 0
    · rw [if_pos h8, pay1_zero, zero_add, h8]
      show _ = ∑ i ∈ Finset.range 1, blockSum V c k.val d (8 * ((n + 1) / 8) + i)
      rw [Finset.sum_range_one, show 8 * ((n + 1) / 8) + 0 = n + 1 from by omega]
    · rw [if_neg h8, ih (Nat.lt_of_succ_lt hn)]
      have e1 : (n + 1) % 8 = n % 8 + 1 := by omega
      have e2 : (n + 1) / 8 = n / 8 := by omega
      rw [e1, e2, Finset.sum_range_succ _ (n % 8 + 1), show 8 * (n / 8) + (n % 8 + 1) = n + 1 from by omega]

/-- The first kernel's accumulator after the last point of half `h`, read at class row `k` and column `d`: the
    half's partial sum of the features over the samples whose label is `k`. -/
theorem acc0_last (c : Dev nD) (h : Fin 2) (hn : 8 * h.val + 7 < cfg0.N) (k : Fin 1024) (d : Fin 512) :
    acc0 (F := Ideal) V c (8 * h.val + 7) hn (ix3 0 k d)
      = Cert.KSpec.partialSum (V c main_arg0 : Vec Ideal S32768x512 .f32) (V c main_v0 : IVec S1x32768 32) h k.val d := by
  rw [acc0_run V c k d (8 * h.val + 7) hn]
  have e1 : (8 * h.val + 7) % 8 + 1 = 8 := by omega
  have e2 : (8 * h.val + 7) / 8 = h.val := by omega
  rw [e1, e2, Finset.sum_range]
  unfold Cert.KSpec.partialSum
  refine Finset.sum_congr rfl fun j _ => ?_
  unfold blockSum
  refine Finset.sum_congr rfl fun r _ => ?_
  have es : samp (8 * h.val + j.val) r = Cert.KSpec.sampleOf h j r := Fin.ext (by
    show (2048 * (8 * h.val + j.val) + r.val) % 32768 = 16384 * h.val + 2048 * j.val + r.val
    have := h.isLt; have := j.isLt; have := r.isLt; omega)
  rw [es]

/-! ## The second kernel's new centres -/

/-- The word of 1.0 denotes 1. -/
theorem one_word : Ideal.ofBits .f32 0x3F800000#32 = 1 := by
  simp [Ideal.ofBits, Ideal.ieee, -EReal.coe_mul]; norm_num

/-- A [1, 1024] row re-laid as a [1024, 1] column reads, at (k, u), the row at (0, k). -/
theorem colCast_apply {α : Type} (x : S1x1024.Idx → α) (h : S1x1024.ShapeCasts S1024x1) (k : Fin 1024) (u : Fin 1) :
    shapeCast S1024x1 x h (ix2 k u) = x (ix2 (0 : Fin 1) k) :=
  shapeCast_apply x h _ _ (by
    have hu : u.val = 0 := by omega
    rw [Shape.rowMajor_val_two, Shape.rowMajor_val_two]
    show 0 * 1024 + k.val = k.val * 1 + u.val
    omega)

theorem pay2_apply (A B : Vec Ideal S1x1024x512 .f32) (cn : Vec Ideal S1x1024 .f32) (ce : Vec Ideal S1024x512 .f32)
    (k : Fin 1024) (d : Fin 512) :
    k1_pay2 (F := Ideal) A B cn ce (ix2 k d)
      = ce (ix2 k d) + Ideal.div (A (ix3 0 k d) + B (ix3 0 k d)) (max (cn (ix2 0 k)) 1) := by
  unfold k1_pay2
  simp only [shapeCast_self]
  rw [addf_apply, divf_apply, addf_apply, shapeCast_1ab_ab_apply, shapeCast_1ab_ab_apply,
    KeepdimsColumn.broadcastTo_a1_ab_apply, maximumf_apply, colCast_apply, broadcast_apply]
  show _ + Ideal.div _ (max _ (Ideal.ofBits .f32 0x3F800000#32)) = _
  rw [one_word]

/-- The first slab of the partial sums is half 0. -/
theorem slabA_apply (X : Vec Ideal S2x1024x512 .f32) (k : Fin 1024) (d : Fin 512) :
    View.ld X slabA (ix3 (0 : Fin 1) k d) = X (ix3 (0 : Fin 2) k d) := by
  refine congrArg X (funext fun a => Fin.ext ?_)
  match a with
  | ⟨0, _⟩ => rfl
  | ⟨1, _⟩ => show 0 + 1 * k.val = k.val; omega
  | ⟨2, _⟩ => show 0 + 1 * d.val = d.val; omega

/-- The second slab is half 1. -/
theorem slabB_apply (X : Vec Ideal S2x1024x512 .f32) (k : Fin 1024) (d : Fin 512) :
    View.ld X slabB (ix3 (0 : Fin 1) k d) = X (ix3 (1 : Fin 2) k d) := by
  refine congrArg X (funext fun a => Fin.ext ?_)
  match a with
  | ⟨0, _⟩ => rfl
  | ⟨1, _⟩ => show 0 + 1 * k.val = k.val; omega
  | ⟨2, _⟩ => show 0 + 1 * d.val = d.val; omega

/-- The second kernel's input index maps are constant zero: each block is its whole array. -/
theorem idx_facts1 : ∀ t : Fin cfg1.N, win1_0.index t (0 : Fin 3) = 0 ∧ win1_0.index t (1 : Fin 3) = 0
    ∧ win1_0.index t (2 : Fin 3) = 0 ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem sums_blk (c : Dev nD) (t : Fin cfg1.N) (s : Fin 2) (k : Fin 1024) (d : Fin 512) :
    iblk1 V c 0 t (ix3 s k d) = (V c main_v1 : Vec Ideal S2x1024x512 .f32) (ix3 s k d) := by
  obtain ⟨e0, e1, e2, e3, e4, e5, e6⟩ := idx_facts1 t
  show (V c main_v1 : Vec Ideal S2x1024x512 .f32) (((cfg1.win 0).blk t).view.emb (ix3 s k d)) = _
  refine congrArg _ (funext fun a => Fin.ext ?_)
  match a with
  | ⟨0, _⟩ => show win1_0.index t (0 : Fin 3) * 2 + 1 * s.val = s.val; omega
  | ⟨1, _⟩ => show win1_0.index t (1 : Fin 3) * 1024 + 1 * k.val = k.val; omega
  | ⟨2, _⟩ => show win1_0.index t (2 : Fin 3) * 512 + 1 * d.val = d.val; omega

theorem cnt_blk (c : Dev nD) (t : Fin cfg1.N) (k : Fin 1024) :
    iblk1 V c 1 t (ix2 (0 : Fin 1) k) = (V c main_v7 : Vec Ideal S1x1024 .f32) (ix2 (0 : Fin 1) k) := by
  obtain ⟨e0, e1, e2, e3, e4, e5, e6⟩ := idx_facts1 t
  show (V c main_v7 : Vec Ideal S1x1024 .f32) (((cfg1.win 1).blk t).view.emb (ix2 (0 : Fin 1) k)) = _
  refine congrArg _ (funext fun a => Fin.ext ?_)
  match a with
  | ⟨0, _⟩ => show win1_1.index t (0 : Fin 2) * 1 + 1 * 0 = 0; omega
  | ⟨1, _⟩ => show win1_1.index t (1 : Fin 2) * 1024 + 1 * k.val = k.val; omega

theorem cen_blk (c : Dev nD) (t : Fin cfg1.N) (k : Fin 1024) (d : Fin 512) :
    iblk1 V c 2 t (ix2 k d) = (V c main_v8 : Vec Ideal S1024x512 .f32) (ix2 k d) := by
  obtain ⟨e0, e1, e2, e3, e4, e5, e6⟩ := idx_facts1 t
  show (V c main_v8 : Vec Ideal S1024x512 .f32) (((cfg1.win 2).blk t).view.emb (ix2 k d)) = _
  refine congrArg _ (funext fun a => Fin.ext ?_)
  match a with
  | ⟨0, _⟩ => show win1_2.index t (0 : Fin 2) * 1024 + 1 * k.val = k.val; omega
  | ⟨1, _⟩ => show win1_2.index t (1 : Fin 2) * 512 + 1 * d.val = d.val; omega

/-- The new centres the second kernel forms, read at row `k` and column `d`: the padded centre plus the two partial
    sums over the count (at least 1). -/
theorem nc1_apply (c : Dev nD) (S : Vec Ideal S2x1024x512 .f32) (Cn : Vec Ideal S1x1024 .f32) (Ce : Vec Ideal S1024x512 .f32)
    (hS : V c main_v1 = S) (hCn : V c main_v7 = Cn) (hCe : V c main_v8 = Ce) (k : Fin 1024) (d : Fin 512) :
    nc1 (F := Ideal) V c (ix2 k d)
      = Ce (ix2 k d) + Ideal.div (S (ix3 0 k d) + S (ix3 1 k d)) (max (Cn (ix2 0 k)) 1) := by
  unfold nc1
  have e := pay2_apply (View.ld (iblk1 V c 0 t1_0) slabA) (View.ld (iblk1 V c 0 t1_0) slabB) (iblk1 V c 1 t1_0)
    (iblk1 V c 2 t1_0) k d
  rw [e, slabA_apply, slabB_apply, sums_blk, sums_blk, cnt_blk, cen_blk, hS, hCn, hCe]

end Cert.KernelIdeal.Hand

end
-- ==== Proof.LibTransposedRhsDot.lean ====
/-
  A MATRIX PRODUCT WHOSE RIGHT OPERAND IS STORED TRANSPOSED, read at an index over the extended reals.

  The einsum "de,ne->dn" — `L : [M, K]` times `R : [N, K]`, both contracted on their LAST axis, the result `[M, N]` —
  is what a kernel writes when it multiplies by a matrix it holds row-by-row (a one-hot match matrix built node by
  node, a weight kept `[out, in]`). Its dimension numbers are the library's `DotDims.transposedRhs M K N`
  (`<[1], [1], [0], [0], …>`). At the ideal instance a `tpu.matmul` at these dimension numbers into a zero accumulator,
  read at `(r, c)`, is the plain sum over `k` of `L[r, k] · R[c, k]` (`matmul_zero_apply`): the contraction index is one
  coordinate (`ValueIdx.contrEquiv1`), the left operand's index at it is `(r, k)` and the right operand's `(c, k)`
  (`lhsIdx_eq`, `rhsIdx_eq`). A program's own generated record with these six lists is this record (`rfl`: the
  well-formedness field is a proposition).
-/
import Idealize.ShloMosaic.PureOps.Ideal.Laws
import Idealize.ShloMosaic.Lib.ValueIdx

noncomputable section

open scoped BigOperators

namespace Idealize.ShloMosaic.TransposedRhsDot

open Idealize.ShloMosaic Idealize.ShloMosaic.ValueIdx

variable {M K N : Nat}

/-- On the left operand's row axis the index is the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- On the right operand's row axis the index is the result's COLUMN. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- On the left operand's last axis the index is the contraction position. -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single (cl := 1) rfl j k

/-- On the right operand's last axis too. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single (cr := 1) rfl j k

/-- The contraction positions are the numbers below `K`. -/
abbrev contrEquiv : (DotDims.transposedRhs M K N).contr.Idx ≃ Fin K :=
  contrEquiv1 (DotDims.transposedRhs M K N) K rfl rfl

/-- The left operand's index at result `(r, c)` and contraction position `k` is `(r, k)`. -/
theorem lhsIdx_eq (r : Fin M) (c : Fin N) (k : Fin K) :
    (DotDims.transposedRhs M K N).lhsIdx (ix2 r c) ((contrEquiv (M := M) (N := N)).symm k) = ix2 r k := by
  funext a
  refine Fin.ext ?_
  match a with
  | ⟨0, _⟩ => exact lhs_row _ _
  | ⟨1, _⟩ => exact (lhs_col _ _).trans (contrEquiv1_symm_val _ K rfl rfl k)

/-- The right operand's is `(c, k)`. -/
theorem rhsIdx_eq (r : Fin M) (c : Fin N) (k : Fin K) :
    (DotDims.transposedRhs M K N).rhsIdx (ix2 r c) ((contrEquiv (M := M) (N := N)).symm k) = ix2 c k := by
  funext a
  refine Fin.ext ?_
  match a with
  | ⟨0, _⟩ => exact rhs_row _ _
  | ⟨1, _⟩ => exact (rhs_col _ _).trans (contrEquiv1_symm_val _ K rfl rfl k)

/-- THE PRODUCT READ AT `(r, c)`: into a zero accumulator, the sum over `k` of `L[r, k] · R[c, k]`. -/
theorem matmul_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv (M := M) (K := K) (N := N)).symm]
  refine Finset.sum_congr rfl fun k _ => ?_
  rw [lhsIdx_eq, rhsIdx_eq]

end Idealize.ShloMosaic.TransposedRhsDot

end
-- ==== Proof.ValLoss.lean ====
/-
  The loss window after the second kernel's last point, as a function of the padded new centres alone.

  Each of the four points forms the 256 × 1024 block of hinge terms of its rows against all rows: the squared norms of the
  rows and of the block's rows are plain sums over the 512 columns, the product contracts both operands along the columns,
  the distance is the square root of the clamped squared distance and is forced to zero where the row number equals the
  column number, and the hinge is five minus the distance below five, zero elsewhere. The point then masks the block to the
  first 1000 rows and columns, sums it over columns and rows, divides by 10^6 and adds the quotient to the running total,
  which the first point starts at zero.
-/
import proofs.«421983_j29111288332477_3_alg».proof.Proof.KIDefs
import proofs.«421983_j29111288332477_3_alg».proof.Proof.KSpec
import proofs.«421983_j29111288332477_3_alg».proof.Proof.LibKeepdimsColumn
import proofs.«421983_j29111288332477_3_alg».proof.Proof.LibTransposedRhsDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Loss

/-! ## The float literals the kernel spells -/

theorem word_two : Ideal.ofBits .f32 0x40000000#32 = 2 := by
  simp [Ideal.ofBits, Ideal.ieee, -EReal.coe_mul]; norm_num
  norm_cast

theorem word_five : Ideal.ofBits .f32 0x40A00000#32 = 5 := by
  simp [Ideal.ofBits, Ideal.ieee, -EReal.coe_mul]; norm_num
  norm_cast

theorem word_million : Ideal.ofBits .f32 0x49742400#32 = 1000000 := by
  simp [Ideal.ofBits, Ideal.ieee, -EReal.coe_mul]; norm_num
  norm_cast

/-! ## Small numbers as 32-bit words -/

/-- The word of `256 n + r` from the words of `n` and `r`. -/
theorem rowWord (n r : ℕ) (hn : n < 4) (hr : r < 256) :
    IntOp.addi (Scalar.muli (BitVec.ofNat 32 n) 256#32) (BitVec.ofNat 32 r) = BitVec.ofNat 32 (256 * n + r) := by
  apply BitVec.eq_of_toNat_eq
  simp only [IntOp.addi, Scalar.muli, IntOp.muli, BitVec.toNat_add, BitVec.toNat_mul, BitVec.toNat_ofNat]
  omega

/-- Two small numbers' words are equal exactly when the numbers are. -/
theorem cmpi_eq_small (a b : ℕ) (ha : a < 1024) (hb : b < 1024) :
    IntOp.cmpi .eq (BitVec.ofNat 32 a) (BitVec.ofNat 32 b) = if a = b then 1#1 else 0#1 := by
  have h : (BitVec.ofNat 32 a == BitVec.ofNat 32 b) = decide (a = b) := by
    by_cases hab : a = b
    · subst hab; simp
    · have : BitVec.ofNat 32 a ≠ BitVec.ofNat 32 b := fun e => hab (by
        have := congrArg BitVec.toNat e
        simp only [BitVec.toNat_ofNat] at this
        omega)
      simp [hab, this]
  show BitVec.ofBool (BitVec.ofNat 32 a == BitVec.ofNat 32 b) = _
  rw [h]
  by_cases hab : a = b <;> simp [hab]

/-- A small number's word is below the word of 1000, read signed, exactly when the number is below 1000. -/
theorem cmpi_slt_small (a : ℕ) (ha : a < 1024) :
    IntOp.cmpi .slt (BitVec.ofNat 32 a) 1000#32 = if a < 1000 then 1#1 else 0#1 := by
  have h : (BitVec.ofNat 32 a).slt 1000#32 = decide (a < 1000) := by
    rw [BitVec.slt_eq_decide, BitVec.toInt_eq_toNat_cond, BitVec.toInt_eq_toNat_cond]
    simp only [BitVec.toNat_ofNat]
    have e : a % 2 ^ 32 = a := Nat.mod_eq_of_lt (by omega)
    rw [e]
    by_cases h : a < 1000
    · simp [h]; omega
    · simp [h]; omega
  show BitVec.ofBool ((BitVec.ofNat 32 a).slt 1000#32) = _
  rw [h]
  by_cases hab : a < 1000 <;> simp [hab]

open Idealize.ShloMosaic.KeepdimsColumn

/-! ## The rows rectangle -/

/-- Row `r` of point `n`'s rows rectangle is row `256 n + r` of the array. -/
theorem rows_apply (NC : Vec Ideal S1024x512 .f32) (i : grid1.Coords) (n : Fin 4) (hn : (i 0).val = n.val)
    (r : Fin 256) (d : Fin 512) :
    View.ld NC (rowsRect i) (ix2 r d) = NC (ix2 (Cert.KSpec.rowOf n r) d) := by
  show NC ((rowsRect i).idx (ix2 r d)) = _
  refine congrArg NC (funext fun a => Fin.ext ?_)
  match a with
  | ⟨0, _⟩ =>
    show k1_off1 i 0 + 1 * r.val = 256 * n.val + r.val
    rw [k1_off1_eq i]
    show 256 * (i 0).val + 1 * r.val = _
    omega
  | ⟨1, _⟩ =>
    show k1_off1 i 1 + 1 * d.val = d.val
    rw [k1_off1_eq i]
    show 0 + 1 * d.val = _
    omega

/-! ## The three sums of the squared distance -/

/-- The squared norms of all rows, laid along the columns of the block: column `j` reads row `j`'s. -/
theorem colSq_apply (NC : FVec Ideal S1024x512 .f32) (r : Fin 256) (j : Fin 1024) :
    broadcastTo S256x1024 (shapeCast S1x1024 (shapeCast S1024x1
      (multiReduction (F := Ideal) .add [1] S1024 (mulf NC NC) 0x00000000#32 reduces_S1024x512_S1024 (.inl rfl) rfl)
      shapeCasts_S1024_S1024x1) shapeCasts_S1024x1_S1x1024) broadcasts_S1x1024_S256x1024 (ix2 r j)
      = ∑ d : Fin 512, NC (ix2 j d) * NC (ix2 j d) := by
  refine (broadcastTo_1b_ab_apply _ _ r j).trans ?_
  refine (shapeCast_apply _ _ _ (ix2 j (0 : Fin 1)) ?_).trans ?_
  · rw [Shape.rowMajor_val_two, Shape.rowMajor_val_two]
    show j.val * 1 + 0 = 0 * 1024 + j.val
    omega
  refine (shapeCast_a_a1_apply _ _ j 0).trans ?_
  exact laneSum_ab_apply (mulf NC NC) _ _ _ _ j

/-- The squared norms of the block's rows, laid along its rows. -/
theorem rowSq_apply (R : FVec Ideal S256x512 .f32) (r : Fin 256) (j : Fin 1024) :
    broadcastTo S256x1024 (shapeCast S256x1
      (multiReduction (F := Ideal) .add [1] S256 (mulf R R) 0x00000000#32 reduces_S256x512_S256 (.inl rfl) rfl)
      shapeCasts_S256_S256x1) broadcasts_S256x1_S256x1024 (ix2 r j)
      = ∑ d : Fin 512, R (ix2 r d) * R (ix2 r d) := by
  refine (broadcastTo_a1_ab_apply _ _ r j).trans ?_
  refine (shapeCast_a_a1_apply _ _ r 0).trans ?_
  exact laneSum_ab_apply (mulf R R) _ _ _ _ r

/-- The product of the block's rows with all rows, both contracted along the columns. -/
theorem gram_apply (R : FVec Ideal S256x512 .f32) (NC : FVec Ideal S1024x512 .f32) (r : Fin 256) (j : Fin 1024) :
    matmul dot_S256x512_S1024x512_S256x1024_1_1_0_0_n_n none R NC (constant (F := Ideal) S256x1024 .f32 0x00000000#32) (ix2 r j)
      = ∑ d : Fin 512, R (ix2 r d) * NC (ix2 j d) :=
  TransposedRhsDot.matmul_zero_apply (M := 256) (K := 512) (N := 1024) none R NC r j

/-! ## Pointwise operations the library does not name -/

theorem sqrt_apply' {s : Shape} {φ : FTy} (x : FVec Ideal s φ) (i : s.Idx) : Idealize.ShloMosaic.sqrt x i = Ideal.sqrt (x i) := rfl
theorem cmpi_apply' {s : Shape} {w : ℕ} (p : CmpIPredicate) (x y : IVec s w) (i : s.Idx) : cmpi p x y i = IntOp.cmpi p (x i) (y i) := rfl
theorem andi_apply' {s : Shape} {w : ℕ} (x y : IVec s w) (i : s.Idx) : andi x y i = IntOp.andi (x i) (y i) := rfl

/-! ## Row and column numbers -/

/-- The row number of row `r` of point `n`'s block, as a word. -/
theorem rowNum_apply (i : grid1.Coords) (n : Fin 4) (hn : (i 0).val = n.val) (r : Fin 256) (j : Fin 1024) :
    k1_pay4 i (ix2 r j) = BitVec.ofNat 32 (256 * n.val + r.val) := by
  unfold k1_pay4
  show IntOp.addi (Scalar.muli (BitVec.ofNat 32 (i 0).val) 256#32)
    (iota .tc S256x1024 32 [0] iota_S256x1024_d0_w32 (ix2 r j)) = _
  rw [iota_single_apply, hn]
  exact rowWord n.val r.val n.isLt r.isLt

/-- The column number, as a word. -/
theorem colNum_apply (r : Fin 256) (j : Fin 1024) : colIota (ix2 r j) = BitVec.ofNat 32 j.val :=
  iota_single_apply _ _ _ _ _ _

/-! ## The hinge block -/

/-- The kernel's select on "below five" is the hinge. -/
theorem hinge_scalar (x : EReal) : Scalar.select (Ideal.cmp .olt x 5) (5 - x) 0 = Cert.Spec.hingeOf x := by
  unfold Cert.Spec.hingeOf Scalar.select Ideal.cmp
  by_cases h : x < 5 <;> simp [h]

theorem hinge_apply (NC : Vec Ideal S1024x512 .f32) (R : Vec Ideal S256x512 .f32) (i : grid1.Coords) (n : Fin 4)
    (hn : (i 0).val = n.val)
    (hR : ∀ (r : Fin 256) (d : Fin 512), R (ix2 r d) = NC (ix2 (Cert.KSpec.rowOf n r) d)) (r : Fin 256) (j : Fin 1024) :
    k1_pay5 i NC R (ix2 r j) = Cert.Spec.hingeOf (Cert.KSpec.dist NC (Cert.KSpec.rowOf n r) j) := by
  unfold k1_pay5
  simp only [select_apply, cmpf_apply, subf_apply, broadcast_apply, maximumf_apply, addf_apply, mulf_apply, sqrt_apply', cmpi_apply']
  rw [rowSq_apply R r j, colSq_apply NC r j, gram_apply R NC r j, rowNum_apply i n hn r j,
    show iota Kind.tc S256x1024 32 [1] iota_S256x1024_d1_w32 (ix2 r j) = BitVec.ofNat 32 j.val from colNum_apply r j,
    cmpi_eq_small _ _ (by have := n.isLt; have := r.isLt; omega) j.isLt]
  simp only [Ideal.ofBits_def, Ideal.ofBits_zero_f32, word_two, word_five, Ideal.cmpf_def, hR]
  refine (hinge_scalar _).trans (congrArg Cert.Spec.hingeOf ?_)
  unfold Cert.KSpec.dist Cert.KSpec.sqNorm Cert.KSpec.gram
  by_cases h : 256 * n.val + r.val = j.val
  · have h' : Cert.KSpec.rowOf n r = j := Fin.ext h
    rw [if_pos h, if_pos h', select_one]
  · have h' : ¬ Cert.KSpec.rowOf n r = j := fun e => h (congrArg Fin.val e)
    rw [if_neg h, if_neg h', select_zero]

/-! ## The mask and the two sums -/

/-- On the extended reals a sum of an `[a, b]` array along its first axis, from the neutral accumulator, reads at
    column `q` as the sum over `k` of the array at `(k, q)`. -/
theorem axis0Sum_ab_apply {a b : ℕ} {φ : FTy} (v : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) := by
  rw [Ideal.multiReduction_add_single]
  refine Finset.sum_congr rfl fun d _ => congrArg v (funext fun c => Fin.ext ?_)
  match c with
  | ⟨0, _⟩ => rfl
  | ⟨1, _⟩ => rfl

/-- One pair's masked term: the block's element inside the first 1000 rows and columns, zero outside. -/
theorem masked_apply (H : FVec Ideal S256x1024 .f32) (i : grid1.Coords) (n : Fin 4) (hn : (i 0).val = n.val)
    (r : Fin 256) (j : Fin 1024) :
    select (andi (k1_pay6 i) (cmpi .slt colIota k1_pay7)) H
        (broadcast S256x1024 (Scalar.ofBits (F := Ideal) .f32 0x00000000#32)) (ix2 r j)
      = if 256 * n.val + r.val < 1000 ∧ j.val < 1000 then H (ix2 r j) else 0 := by
  show Scalar.select (IntOp.andi (IntOp.cmpi .slt (k1_pay4 i (ix2 r j)) 1000#32)
      (IntOp.cmpi .slt (colIota (ix2 r j)) 1000#32)) (H (ix2 r j)) (Ideal.ofBits .f32 0x00000000#32) = _
  rw [rowNum_apply i n hn r j, colNum_apply r j,
    cmpi_slt_small _ (by have := n.isLt; have := r.isLt; omega), cmpi_slt_small _ j.isLt, Ideal.ofBits_zero_f32]
  by_cases h1 : 256 * n.val + r.val < 1000 <;> by_cases h2 : j.val < 1000 <;>
    simp [h1, h2, IntOp.andi, Scalar.select]

/-- One point's share: the masked block summed over its columns, then its rows, divided by 10^6 and added to what the
    point before left. -/
theorem share_apply (H : FVec Ideal S256x1024 .f32) (i : grid1.Coords) (n : Fin 4) (hn : (i 0).val = n.val)
    (prev : Vec Ideal S1x1 .f32) :
    k1_pay1 colIota H (k1_pay6 i) k1_pay7 prev (ix2 0 0)
      = prev (ix2 0 0) + Ideal.div (∑ r : Fin 256, ∑ j : Fin 1024,
          if 256 * n.val + r.val < 1000 ∧ j.val < 1000 then H (ix2 r j) else 0) 1000000 := by
  unfold k1_pay1
  simp only [addf_apply, divf_apply, broadcast_apply]
  rw [shapeCast_self]
  refine congrArg₂ (· + ·) rfl (congrArg₂ Ideal.div ?_ word_million)
  refine (shapeCast_a_a1_apply _ _ (0 : Fin 1) (0 : Fin 1)).trans ?_
  refine (axis0Sum_ab_apply _ _ _ _ _ (0 : Fin 1)).trans ?_
  refine Finset.sum_congr rfl fun r _ => ?_
  refine (shapeCast_a_a1_apply _ _ r (0 : Fin 1)).trans ?_
  refine (laneSum_ab_apply _ _ _ _ _ r).trans ?_
  exact Finset.sum_congr rfl fun j _ => masked_apply H i n hn r j

/-! ## The four points -/

/-- On the one-axis grid a point's coordinate is its number. -/
theorem coord_val : ∀ t : Fin cfg1.N, ((grid1.coords t) 0).val = t.val :=
  (by decide +kernel : ∀ t : Fin grid1.N, ((grid1.coords t) 0).val = t.val)

/-- One point: what it adds to the running total is its part of the loss over `10^6`. -/
theorem point_apply (NC : Vec Ideal S1024x512 .f32) (m : ℕ) (hm : m < cfg1.N) (h4 : m < 4) (prev : Vec Ideal S1x1 .f32) :
    k1_pay1 colIota (k1_pay5 (grid1.coords ⟨m, hm⟩) NC (View.ld NC (rowsRect (grid1.coords ⟨m, hm⟩))))
        (k1_pay6 (grid1.coords ⟨m, hm⟩)) k1_pay7 prev (ix2 0 0)
      = prev (ix2 0 0) + Ideal.div (Cert.KSpec.part NC ⟨m, h4⟩) 1000000 := by
  have hc : ((grid1.coords ⟨m, hm⟩) 0).val = (⟨m, h4⟩ : Fin 4).val := coord_val ⟨m, hm⟩
  refine (share_apply _ _ ⟨m, h4⟩ hc prev).trans ?_
  refine congrArg₂ (· + ·) rfl (congrArg₂ Ideal.div ?_ rfl)
  unfold Cert.KSpec.part Cert.KSpec.term
  refine Finset.sum_congr rfl fun r _ => Finset.sum_congr rfl fun j _ => ?_
  rw [hinge_apply NC _ _ ⟨m, h4⟩ hc (fun r d => rows_apply NC _ ⟨m, h4⟩ hc r d) r j]
  rfl

end Loss

open Loss

/-! ## The running total -/

variable (V : (c : Dev nD) → (b : Ref sig .tc) → Buf (Elt Ideal) ((c : Thread nD τ).loc b))

/-- A later point adds its part over `10^6` to what the point before left. -/
theorem loss1_step (c : Dev nD) (m : ℕ) (hm : m + 1 < cfg1.N) (h4 : m + 1 < 4) :
    loss1 (F := Ideal) V c (m + 1) hm (ix2 0 0)
      = loss1 (F := Ideal) V c m (Nat.lt_of_succ_lt hm) (ix2 0 0)
        + Ideal.div (Cert.KSpec.part (nc1 (F := Ideal) V c) ⟨m + 1, h4⟩) 1000000 := by
  rw [loss1_succ]
  exact point_apply (nc1 (F := Ideal) V c) (m + 1) hm h4 _

/-- The first point adds its part over `10^6` to zero. -/
theorem loss1_first (c : Dev nD) (h0 : 0 < cfg1.N) :
    loss1 (F := Ideal) V c 0 h0 (ix2 0 0) = 0 + Ideal.div (Cert.KSpec.part (nc1 (F := Ideal) V c) 0) 1000000 := by
  rw [loss1_zero]
  refine (point_apply (nc1 (F := Ideal) V c) 0 h0 (by omega) _).trans ?_
  exact congrArg₂ (· + ·) Ideal.ofBits_zero_f32 rfl

/-- What the loss window holds after the last point: the loss of the padded new centres, added up point by point. -/
theorem loss1_last (c : Dev nD) (hn : 3 < cfg1.N) :
    loss1 (F := Ideal) V c 3 hn (ix2 0 0) = Cert.KSpec.loss (nc1 (F := Ideal) V c) := by
  have h2 : 2 < cfg1.N := Nat.lt_of_succ_lt hn
  have h1 : 1 < cfg1.N := Nat.lt_of_succ_lt h2
  have h0 : 0 < cfg1.N := Nat.lt_of_succ_lt h1
  have e3 : loss1 (F := Ideal) V c 3 hn (ix2 0 0) = loss1 (F := Ideal) V c 2 h2 (ix2 0 0)
      + Ideal.div (Cert.KSpec.part (nc1 (F := Ideal) V c) 3) 1000000 := loss1_step V c 2 hn (by omega)
  have e2 : loss1 (F := Ideal) V c 2 h2 (ix2 0 0) = loss1 (F := Ideal) V c 1 h1 (ix2 0 0)
      + Ideal.div (Cert.KSpec.part (nc1 (F := Ideal) V c) 2) 1000000 := loss1_step V c 1 h2 (by omega)
  have e1 : loss1 (F := Ideal) V c 1 h1 (ix2 0 0) = loss1 (F := Ideal) V c 0 h0 (ix2 0 0)
      + Ideal.div (Cert.KSpec.part (nc1 (F := Ideal) V c) 1) 1000000 := loss1_step V c 0 h1 (by omega)
  rw [e3, e2, e1, loss1_first V c h0]
  rfl

end Cert.KernelIdeal.Hand

end
-- ==== Proof.SpecArr.lean ====
/-
  The two results as arrays: the loss as the one element of a rank-0 array, the new centres as a [1000, 512] array.
-/
import proofs.«421983_j29111288332477_3_alg».proof.Proof.Spec

noncomputable section

namespace Cert.Spec

open Idealize.ShloMosaic Idealize.ShloMosaic.ValueIdx

abbrev SScalar : Shape := ⟨0, ![]⟩

variable (feat : SFeat.Idx → EReal) (lab : IVec SLab 32) (cen : SCen.Idx → EReal)

/-- The new centres as an array over the index of a [1000, 512] array. -/
def newCenterArr : SCen.Idx → EReal := fun i => newCenter feat lab cen ⟨(i 0).val, (i 0).isLt⟩ ⟨(i 1).val, (i 1).isLt⟩

/-- The loss as a rank-0 array. -/
def lossArr : SScalar.Idx → EReal := fun _ => loss feat lab cen

end Cert.Spec

end
-- ==== Proof.Algebra.lean ====
/-
  The algebra between the specification and the sums the two kernels form.

  The first kernel leaves, per half of the samples, the per-class feature sums of that half: the class sum is the sum
  of the two halves (a re-indexing of the samples by half, block and row). The second kernel adds up the hinge over a
  padded [1024, 1024] grid of pairs, point by point, each point's sum divided by 10^6 before it is added: the padding is
  masked to zero, on the diagonal the clamped squared distance |a|² + |a|² - 2 a·a of a real vector is exactly zero, and
  multiplication by the real 10^-6 distributes over the sum of the four points.
-/
import proofs.«421983_j29111288332477_3_alg».proof.Proof.Spec
import proofs.«421983_j29111288332477_3_alg».proof.Proof.SpecArr
import proofs.«421983_j29111288332477_3_alg».proof.Proof.KSpec
import Mathlib.Algebra.BigOperators.Fin
import Mathlib.Data.Fintype.BigOperators
import Mathlib.Data.EReal.Operations

noncomputable section

open scoped BigOperators

namespace Cert.Algebra

open Idealize.ShloMosaic Idealize.ShloMosaic.ValueIdx

variable (feat : Cert.Spec.SFeat.Idx → EReal) (lab : IVec Cert.Spec.SLab 32) (cen : Cert.Spec.SCen.Idx → EReal)

/-- An array of extended reals all of whose entries are real numbers. -/
def Finite {S : Shape} (x : S.Idx → EReal) : Prop := ∀ i, ∃ r : ℝ, x i = (r : EReal)

/-! ## Re-indexing the samples and the rows -/

/-- A sample number is a half, a block of the half and a row of the block. -/
def sampleEquiv : Fin 2 × Fin 8 × Fin 2048 ≃ Fin 32768 where
  toFun p := Cert.KSpec.sampleOf p.1 p.2.1 p.2.2
  invFun n := (⟨n.val / 16384, by omega⟩, ⟨n.val % 16384 / 2048, by omega⟩, ⟨n.val % 2048, by omega⟩)
  left_inv p := by
    obtain ⟨h, j, r⟩ := p
    refine Prod.ext (Fin.ext ?_) (Prod.ext (Fin.ext ?_) (Fin.ext ?_)) <;> simp only [Cert.KSpec.sampleOf] <;> omega
  right_inv n := Fin.ext (by simp only [Cert.KSpec.sampleOf]; omega)

/-- A sum over the samples is the sum over the halves, the blocks and the rows. -/
theorem sum_samples {M : Type*} [AddCommMonoid M] (g : Fin 32768 → M) :
    ∑ n, g n = ∑ h : Fin 2, ∑ j : Fin 8, ∑ r : Fin 2048, g (Cert.KSpec.sampleOf h j r) := by
  rw [← Equiv.sum_comp sampleEquiv g, Fintype.sum_prod_type]
  refine Finset.sum_congr rfl fun h _ => ?_
  rw [Fintype.sum_prod_type]
  rfl

/-- A row of the padded matrix is a point and a row of the point. -/
def rowEquiv : Fin 4 × Fin 256 ≃ Fin 1024 where
  toFun p := Cert.KSpec.rowOf p.1 p.2
  invFun i := (⟨i.val / 256, by omega⟩, ⟨i.val % 256, by omega⟩)
  left_inv p := by
    obtain ⟨t, r⟩ := p
    refine Prod.ext (Fin.ext ?_) (Fin.ext ?_) <;> simp only [Cert.KSpec.rowOf] <;> omega
  right_inv i := Fin.ext (by simp only [Cert.KSpec.rowOf]; omega)

/-- The sum over the points and their rows is the sum over the rows of the padded matrix. -/
theorem sum_rows {M : Type*} [AddCommMonoid M] (f : Fin 1024 → M) :
    ∑ t : Fin 4, ∑ r : Fin 256, f (Cert.KSpec.rowOf t r) = ∑ i, f i := by
  rw [← Equiv.sum_comp rowEquiv f, Fintype.sum_prod_type]
  rfl

/-- A class as a row of the padded matrix. -/
abbrev up (k : Fin 1000) : Fin 1024 := ⟨k.val, by omega⟩

/-- A sum over the padded range of a function that vanishes on the padding is the sum over the classes. -/
theorem sum_pad {M : Type*} [AddCommMonoid M] (f : Fin 1024 → M) (h0 : ∀ i : Fin 1024, 1000 ≤ i.val → f i = 0) :
    ∑ i, f i = ∑ k : Fin 1000, f (up k) := by
  have h := Fin.sum_univ_add (M := M) (a := 1000) (b := 24) f
  have hz : ∑ i : Fin 24, f (Fin.natAdd 1000 i) = 0 :=
    Finset.sum_eq_zero fun i _ => h0 (Fin.natAdd 1000 i) (Nat.le_add_right 1000 i.val)
  rw [show (∑ i : Fin 1024, f i) = _ from h, hz, add_zero]
  rfl

/-! ## Finite sums of real numbers -/

/-- The coercion of a finite sum of reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- The coercion of a maximum of reals is the maximum of the coercions. -/
theorem coe_max' (a b : ℝ) : ((max a b : ℝ) : EReal) = max (a : EReal) (b : EReal) :=
  EReal.coe_strictMono.monotone.map_max

/-! ## The class sums by halves -/

/-- The class sum is the sum of the two halves' partial sums. -/
theorem segSum_halves (k : ℕ) (d : Fin 512) :
    Cert.Spec.segSum feat lab k d
      = Cert.KSpec.partialSum feat (fun i => lab (ix1 (i 1))) 0 k d + Cert.KSpec.partialSum feat (fun i => lab (ix1 (i 1))) 1 k d := by
  unfold Cert.Spec.segSum Cert.Spec.members Cert.KSpec.partialSum
  rw [Finset.sum_filter, sum_samples, Fin.sum_univ_two]
  refine congrArg₂ (· + ·) ?_ ?_ <;>
  · refine Finset.sum_congr rfl fun j _ => Finset.sum_congr rfl fun r _ => ?_
    simp only [ite_mul, one_mul, zero_mul]

/-! ## The new centres are real numbers -/

/-- The count of a class is a real number. -/
theorem count_finite (k : ℕ) : ∃ r : ℝ, Cert.Spec.count lab k = (r : EReal) := by
  unfold Cert.Spec.count
  exact sum_real _ _ fun _ => ⟨1, rfl⟩

/-- With finite features and centres every new centre is a real number. -/
theorem newCenter_finite (hf : Finite feat) (hc : Finite cen) (k : Fin 1000) (d : Fin 512) :
    ∃ r : ℝ, Cert.Spec.newCenter feat lab cen k d = (r : EReal) := by
  obtain ⟨c0, hc0⟩ := hc (ix2 k d)
  obtain ⟨s, hs⟩ : ∃ s : ℝ, Cert.Spec.segSum feat lab k d = (s : EReal) := by
    unfold Cert.Spec.segSum
    exact sum_real _ _ fun n => hf _
  obtain ⟨c, hcnt⟩ := count_finite lab k
  have hy : max c 1 ≠ 0 := (lt_of_lt_of_le one_pos (le_max_right c 1)).ne'
  refine ⟨c0 + s * (1 / max c 1), ?_⟩
  unfold Cert.Spec.newCenter Cert.Spec.denom
  rw [hc0, hs, hcnt, show (1 : EReal) = ((1 : ℝ) : EReal) from rfl, ← coe_max', Ideal.div_coe hy, ← EReal.coe_mul,
    ← EReal.coe_add]

/-! ## The loss -/

/-- The distance of a real new centre to itself, computed as |a|² + |a|² - 2 a·a, clamped and rooted, is zero. -/
theorem dist_diag (hfin : ∀ (k : Fin 1000) (d : Fin 512), ∃ r : ℝ, Cert.Spec.newCenter feat lab cen k d = (r : EReal))
    (i : Fin 1000) : Cert.Spec.dist feat lab cen i i = 0 := by
  obtain ⟨σ, hσ⟩ : ∃ σ : ℝ, Cert.Spec.sqNorm feat lab cen i = (σ : EReal) := by
    unfold Cert.Spec.sqNorm
    refine sum_real _ _ fun d => ?_
    obtain ⟨r, hr⟩ := hfin i d
    exact ⟨r * r, by rw [hr, EReal.coe_mul]⟩
  have hg : Cert.Spec.gram feat lab cen i i = Cert.Spec.sqNorm feat lab cen i := rfl
  have h2 : (2 : EReal) = ((2 : ℝ) : EReal) := by norm_cast
  have h0 : (σ : EReal) + σ - 2 * σ = 0 := by
    rw [h2, ← EReal.coe_mul, ← EReal.coe_add, ← EReal.coe_sub, show σ + σ - 2 * σ = 0 by ring, EReal.coe_zero]
  unfold Cert.Spec.dist
  rw [hg, hσ, h0, max_self]
  show Ideal.sqrt ((0 : ℝ) : EReal) = 0
  rw [Ideal.sqrt_coe, if_neg (lt_irrefl (0 : ℝ)), Real.sqrt_zero, EReal.coe_zero]

/-- The loss the second kernel adds up from padded centres that agree with the new centres on the first 1000 rows is
    the loss of the specification, when the new centres are real numbers: on the diagonal the clamped squared distance
    is exactly zero, the padding's terms are masked to zero, and dividing each point's sum by 10^6 before adding is
    dividing their total. -/
theorem loss_eq (NC : Cert.KSpec.SPad.Idx → EReal)
    (hNC : ∀ (k : Fin 1000) (d : Fin 512), NC (ix2 ⟨k.val, by omega⟩ d) = Cert.Spec.newCenter feat lab cen k d)
    (hfin : ∀ (k : Fin 1000) (d : Fin 512), ∃ r : ℝ, Cert.Spec.newCenter feat lab cen k d = (r : EReal)) :
    Cert.KSpec.loss NC = Cert.Spec.loss feat lab cen := by
  have hN : ∀ (k : Fin 1000) (d : Fin 512), NC (ix2 (up k) d) = Cert.Spec.newCenter feat lab cen k d := hNC
  have hS : ∀ i : Fin 1000, Cert.KSpec.sqNorm NC (up i) = Cert.Spec.sqNorm feat lab cen i := fun i => by
    unfold Cert.KSpec.sqNorm Cert.Spec.sqNorm
    exact Finset.sum_congr rfl fun d _ => by rw [hN]
  have hG : ∀ i j : Fin 1000, Cert.KSpec.gram NC (up i) (up j) = Cert.Spec.gram feat lab cen i j := fun i j => by
    unfold Cert.KSpec.gram Cert.Spec.gram
    exact Finset.sum_congr rfl fun d _ => by rw [hN, hN]
  have hD : ∀ i j : Fin 1000, Cert.KSpec.dist NC (up i) (up j) = Cert.Spec.dist feat lab cen i j := fun i j => by
    unfold Cert.KSpec.dist
    by_cases hij : i = j
    · subst hij
      rw [if_pos rfl, dist_diag feat lab cen hfin i]
    · rw [if_neg (fun h : up i = up j => hij (Fin.ext (Fin.mk.inj h))), hS, hS, hG]
      rfl
  have hT : ∀ i j : Fin 1000, Cert.KSpec.term NC (up i) (up j) = Cert.Spec.hinge feat lab cen i j := fun i j => by
    unfold Cert.KSpec.term Cert.Spec.hinge
    rw [if_pos ⟨i.isLt, j.isLt⟩, hD]
  have hTr : ∀ i j : Fin 1024, 1000 ≤ i.val → Cert.KSpec.term NC i j = 0 := fun i j h => by
    unfold Cert.KSpec.term
    rw [if_neg (fun h' => absurd h'.1 (by omega))]
  have hTc : ∀ i j : Fin 1024, 1000 ≤ j.val → Cert.KSpec.term NC i j = 0 := fun i j h => by
    unfold Cert.KSpec.term
    rw [if_neg (fun h' => absurd h'.2 (by omega))]
  have hsum : ∑ t : Fin 4, Cert.KSpec.part NC t
      = ∑ i : Fin 1000, ∑ j : Fin 1000, Cert.Spec.hinge feat lab cen i j := by
    unfold Cert.KSpec.part
    rw [sum_rows (fun i => ∑ j : Fin 1024, Cert.KSpec.term NC i j),
      sum_pad _ (fun i h => Finset.sum_eq_zero fun j _ => hTr i j h)]
    refine Finset.sum_congr rfl fun i _ => ?_
    rw [sum_pad _ (fun j h => hTc _ j h)]
    exact Finset.sum_congr rfl fun j _ => hT i j
  have hc : (1000000 : EReal) = ((1000000 : ℝ) : EReal) := by norm_cast
  have hk : (1000000 : ℝ) ≠ 0 := by norm_num
  have hκ : (0 : EReal) ≤ ((1 / 1000000 : ℝ) : EReal) := EReal.coe_nonneg.mpr (by norm_num)
  unfold Cert.KSpec.loss Cert.Spec.loss
  rw [← hsum, Fin.sum_univ_four, hc]
  simp only [Ideal.div_coe hk, zero_add]
  rw [EReal.right_distrib_of_nonneg_of_ne_top hκ (EReal.coe_ne_top _),
    EReal.right_distrib_of_nonneg_of_ne_top hκ (EReal.coe_ne_top _),
    EReal.right_distrib_of_nonneg_of_ne_top hκ (EReal.coe_ne_top _)]

end Cert.Algebra

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.KIBridge.lean ====
/-
  The kernel program's two results are the specification's arrays.

  The host operations around the two kernels are read buffer by buffer: the labels as a row, the per-class counts (ones
  accumulated at the labels) padded to 1024 classes and laid out as a row, the centres padded to 1024 rows; after the
  second kernel the loss reshaped to a scalar and the first 1000 rows of the new centres. The first kernel leaves the two
  halves' partial class sums, which add up to the class sums; so on the first 1000 rows the second kernel's new centres
  are the specification's, and its loss, added up over the padded grid, is the specification's loss. The precondition makes
  every feature and every centre a real number, which the law for the loss needs on the diagonal.
-/
import proofs.«421983_j29111288332477_3_alg».proof.Proof.KIRunDefs
import proofs.«421983_j29111288332477_3_alg».proof.Proof.ValArr
import proofs.«421983_j29111288332477_3_alg».proof.Proof.ValAcc
import proofs.«421983_j29111288332477_3_alg».proof.Proof.ValLoss
import proofs.«421983_j29111288332477_3_alg».proof.Proof.Algebra
import proofs.«421983_j29111288332477_3_alg».proof.Proof.SpecArr
import proofs.«421983_j29111288332477_3_alg».proof.Proof.LibGatherScatter
import proofs.«421983_j29111288332477_3_alg».proof.Defs
import proofs.«421983_j29111288332477_3_alg».proof.Proof.Gen.Pre_finite_inputs
import Idealize.ShloMosaic.Lib.StableHlo.Run
import Idealize.ShloMosaic.Lib.ReduceAll
import Idealize.ShloMosaic.Lib.KernelVsHost
import Idealize.ShloMosaic.Lib.ValueLayout

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-! ## What the host operations leave, buffer by buffer -/

/-- The first kernel finds the features as launched. -/
theorem vin0_arg0 : Vin0 m c main_arg0 = m ((c.tc : Thread nD τ).loc main_arg0) :=
  (Gen.V1_of m c main_arg0 (by decide)).trans rfl

/-- The first kernel finds the labels as a row. -/
theorem vin0_v0 : (Vin0 m c main_v0 : IVec S1x32768 32)
    = shapeCast S1x32768 (m ((c.tc : Thread nD τ).loc main_arg1) : IVec S32768 32) Gen.shapeCasts_S32768_S1x32768 := by
  show StableHlo.after hostOps0 (Gen.V0 m c) (Proc.devRef .tc main_v0) = _
  after_results
  rfl

/-- Between the kernels the first kernel's output array is what it left. -/
theorem vin1_v1 : Vin1 m c main_v1 = W2 m c main_v1 :=
  (Gen.V6_of m (outsA m) c main_v1 (by decide)).trans <| (Gen.V5_of m (outsA m) c main_v1 (by decide)).trans <|
    (Gen.V4_of m (outsA m) c main_v1 (by decide)).trans <| (Gen.V3_of m (outsA m) c main_v1 (by decide)).trans <|
      (Function.update_self _ _ _).trans rfl

variable (outs : Gen.Outs (F := Ideal))

/-- No item before the second kernel writes the labels. -/
theorem v2_arg1 : Gen.V2 m outs c main_arg1 = m ((c.tc : Thread nD τ).loc main_arg1) :=
  (Gen.V2_of m outs c main_arg1 (by decide)).trans <| (Gen.V1_of m c main_arg1 (by decide)).trans rfl

/-- The counts: ones accumulated at the labels. -/
theorem v3_v5 : (Gen.V3 m outs c main_v5 : Vec Ideal S1000 .f32)
    = Host.scatterAdd scatter_S1000_S32768x1_S32768_n_0_0_1
        (broadcastInDim S1000 ![] Gen.bcast_S_S1000 (constant (F := Ideal) S_ .f32 0x00000000#32))
        (broadcastInDim S32768x1 ![0] Gen.bcast_S32768_S32768x1_0 (m ((c.tc : Thread nD τ).loc main_arg1) : IVec S32768 32))
        (broadcastInDim S32768 ![] Gen.bcast_S_S32768 (constant (F := Ideal) S_ .f32 0x3F800000#32)) := by
  show StableHlo.after hostOps1 (Gen.V2 m outs c) (Proc.devRef .tc main_v5) = _
  after_results
  rw [v2_arg1]

/-- The counts padded to 1024 classes. -/
theorem v4_v6 : (Gen.V4 m outs c main_v6 : Vec Ideal S1024 .f32)
    = pad S1024 ![0] ![24] ![0] (Gen.V3 m outs c main_v5 : Vec Ideal S1000 .f32)
        (sitofp (F := Ideal) .f32 (Gen.V3 m outs c main_c : IVec S_ 32)) Gen.pads_S1000_S1024_0240 Gen.h_S_ := by
  show StableHlo.after hostOps1_1 (Gen.V3 m outs c) (Proc.devRef .tc main_v6) = _
  after_results
  rfl

/-- The padded counts as a row. -/
theorem v5_v7 : (Gen.V5 m outs c main_v7 : Vec Ideal S1x1024 .f32)
    = shapeCast S1x1024 (Gen.V4 m outs c main_v6 : Vec Ideal S1024 .f32) Gen.shapeCasts_S1024_S1x1024 := by
  show StableHlo.after hostOps1_2 (Gen.V4 m outs c) (Proc.devRef .tc main_v7) = _
  after_results
  rfl

/-- The centres padded to 1024 rows. -/
theorem v6_v8 : (Gen.V6 m outs c main_v8 : Vec Ideal S1024x512 .f32)
    = pad S1024x512 ![0, 0] ![24, 0] ![0, 0] (m ((c.tc : Thread nD τ).loc main_arg2) : Vec Ideal S1000x512 .f32)
        (sitofp (F := Ideal) .f32 (Gen.V5 m outs c main_c_1 : IVec S_ 32))
        Gen.pads_S1000x512_S1024x512_0240_000 Gen.h_S_ := by
  show StableHlo.after hostOps1_3 (Gen.V5 m outs c) (Proc.devRef .tc main_v8) = _
  after_results
  have e : Gen.V2 m outs c main_arg2 = m ((c.tc : Thread nD τ).loc main_arg2) :=
    (Gen.V2_of m outs c main_arg2 (by decide)).trans <| (Gen.V1_of m c main_arg2 (by decide)).trans rfl
  exact congrArg (fun x : Vec Ideal S1000x512 .f32 => pad S1024x512 ![0, 0] ![24, 0] ![0, 0] x
    (sitofp (F := Ideal) .f32 (constantI S_ 32 0#32)) Gen.pads_S1000x512_S1024x512_0240_000 Gen.h_S_) e

/-- The loss as the program returns it: the second kernel's [1, 1] output reshaped to a scalar. -/
theorem v8_v10 : (Gen.V8 m outs c main_v10 : Vec Ideal S_ .f32)
    = shapeCast S_ (outs 7 main_v9_0 c : Vec Ideal S1x1 .f32) Gen.shapeCasts_S1x1_S_ := by
  show StableHlo.after hostOps2 (Gen.V7 m outs c) (Proc.devRef .tc main_v10) = _
  after_results
  have e : Gen.V7 m outs c main_v9_0 = outs 7 main_v9_0 c :=
    (Function.update_of_ne (StableHlo.devRef_ne_of_ne (by decide) : (Proc.devRef .tc main_v9_0 : DevRef τ sig) ≠ Proc.devRef .tc main_v9_1) _ _).trans
      (Function.update_self _ _ _)
  rw [e]
  rfl

/-- The new centres as the program returns them: the first 1000 rows of the second kernel's second output. -/
theorem v8_v11 : (Gen.V8 m outs c main_v11 : Vec Ideal S1000x512 .f32)
    = extractStridedSlice S1000x512 ![0, 0] (outs 7 main_v9_1 c : Vec Ideal S1024x512 .f32) Gen.slices_S1024x512_S1000x512_0_0 := by
  show StableHlo.after hostOps2 (Gen.V7 m outs c) (Proc.devRef .tc main_v11) = _
  after_results
  have e : Gen.V7 m outs c main_v9_1 = outs 7 main_v9_1 c := Function.update_self _ _ _
  rw [e]

/-! ## The buffers read at an index -/

/-- The word of `1.0` denotes `1`. -/
theorem word_one : Ideal.ofBits .f32 0x3F800000#32 = 1 := by
  simp [Ideal.ofBits, Ideal.ieee, -EReal.coe_mul]; norm_num

/-- Ones accumulated into zeros at the labels, read at class `k`: how many samples carry the label `k`. -/
theorem counts_apply (x1 : IVec S32768 32) (k : Fin 1000) :
    Host.scatterAdd (F := Ideal) scatter_S1000_S32768x1_S32768_n_0_0_1
        (broadcastInDim S1000 ![] Gen.bcast_S_S1000 (constant (F := Ideal) S_ .f32 0x00000000#32))
        (broadcastInDim S32768x1 ![0] Gen.bcast_S32768_S32768x1_0 x1)
        (broadcastInDim S32768 ![] Gen.bcast_S_S32768 (constant (F := Ideal) S_ .f32 0x3F800000#32)) (ix1 k)
      = Cert.Spec.count x1 k.val := by
  have hd : scatter_S1000_S32768x1_S32768_n_0_0_1
      = GatherScatter.vecScatterDims 1000 32768 Gen.scatter_S1000_S32768x1_S32768_n_0_0_1_wf := rfl
  have e0 : broadcastInDim S1000 ![] Gen.bcast_S_S1000 (constant (F := Ideal) S_ .f32 0x00000000#32) (ix1 k) = 0 := by
    rw [broadcastInDim_apply _ Gen.bcast_S_S1000 _ (ix1 k) ix0 (fun a => a.elim0), constant_apply, Ideal.ofBits_zero_f32]
  have e1 : ∀ j : Fin 32768,
      broadcastInDim S32768 ![] Gen.bcast_S_S32768 (constant (F := Ideal) S_ .f32 0x3F800000#32) (ix1 j) = 1 := fun j => by
    rw [broadcastInDim_apply _ Gen.bcast_S_S32768 _ (ix1 j) ix0 (fun a => a.elim0), constant_apply, word_one]
  have ei : ∀ j : Fin 32768, broadcastInDim S32768x1 ![0] Gen.bcast_S32768_S32768x1_0 x1 (ix2 j 0) = x1 (ix1 j) := fun j =>
    broadcastInDim_apply _ Gen.bcast_S32768_S32768x1_0 x1 (ix2 j 0) (ix1 j) (fun a => match a with
      | ⟨0, _⟩ => by show j.val = if (32768 : Nat) = 1 then 0 else j.val; rw [if_neg (by decide)])
  rw [hd, GatherScatter.vecScatterAdd_apply, e0, zero_add]
  simp only [e1, ei]
  rfl

/-- The padded counts at a class below 1000 are the counts. -/
theorem pad1_apply (x : Vec Ideal S1000 .f32) (v : Vec Ideal S_ .f32) (k : Fin 1000) :
    pad S1024 ![0] ![24] ![0] x v Gen.pads_S1000_S1024_0240 Gen.h_S_ (ix1 (Cert.Algebra.up k)) = x (ix1 k) :=
  pad_apply_of_inside ![0] ![24] ![0] x v Gen.pads_S1000_S1024_0240 Gen.h_S_ (ix1 (Cert.Algebra.up k)) (ix1 k)
    (fun a => match a with
      | ⟨0, _⟩ => by show k.val = 0 + k.val * (0 + 1); omega)

/-- The padded centres at a row below 1000 are the centres. -/
theorem pad2_apply (x : Vec Ideal S1000x512 .f32) (v : Vec Ideal S_ .f32) (k : Fin 1000) (d : Fin 512) :
    pad S1024x512 ![0, 0] ![24, 0] ![0, 0] x v Gen.pads_S1000x512_S1024x512_0240_000 Gen.h_S_ (ix2 (Cert.Algebra.up k) d)
      = x (ix2 k d) :=
  pad_apply_of_inside ![0, 0] ![24, 0] ![0, 0] x v Gen.pads_S1000x512_S1024x512_0240_000 Gen.h_S_
    (ix2 (Cert.Algebra.up k) d) (ix2 k d)
    (fun a => match a with
      | ⟨0, _⟩ => by show k.val = 0 + k.val * (0 + 1); omega
      | ⟨1, _⟩ => by show d.val = 0 + d.val * (0 + 1); omega)

/-- The labels as a row: entry `(0, n)` is label `n`. -/
theorem labrow_eq (x1 : IVec S32768 32) :
    shapeCast S1x32768 x1 Gen.shapeCasts_S32768_S1x32768 = fun i => x1 (ix1 (i 1)) := by
  funext i
  obtain ⟨u, n, rfl⟩ : ∃ (u : Fin 1) (n : Fin 32768), i = ix2 u n := ⟨i 0, i 1, eq_ix2 i⟩
  exact shapeCast_a_1a_apply x1 _ u n

/-- The count row the second kernel finds, at a class. -/
theorem vin1_v7_apply (k : Fin 1000) :
    (Vin1 m c main_v7 : Vec Ideal S1x1024 .f32) (ix2 0 (Cert.Algebra.up k))
      = Cert.Spec.count (m ((c.tc : Thread nD τ).loc main_arg1)) k.val := by
  have e : (Vin1 m c main_v7 : Vec Ideal S1x1024 .f32) = Gen.V5 m (outsA m) c main_v7 :=
    Gen.V6_of m (outsA m) c main_v7 (by decide)
  rw [e, v5_v7, shapeCast_a_1a_apply, v4_v6, pad1_apply, v3_v5, counts_apply]

/-- The padded centres the second kernel finds, at a class row. -/
theorem vin1_v8_apply (k : Fin 1000) (d : Fin 512) :
    (Vin1 m c main_v8 : Vec Ideal S1024x512 .f32) (ix2 (Cert.Algebra.up k) d)
      = m ((c.tc : Thread nD τ).loc main_arg2) (ix2 k d) := by
  show (Gen.V6 m (outsA m) c main_v8 : Vec Ideal S1024x512 .f32) (ix2 (Cert.Algebra.up k) d) = _
  rw [v6_v8, pad2_apply]

/-- The two partial sums the second kernel finds add up to the class sum. -/
theorem vin1_v1_apply (S : Vec Ideal S2x1024x512 .f32) (hS : Vin1 m c main_v1 = S) (k : Fin 1024) (d : Fin 512) :
    S (ix3 0 k d) + S (ix3 1 k d)
      = Cert.Spec.segSum (m ((c.tc : Thread nD τ).loc main_arg0)) (m ((c.tc : Thread nD τ).loc main_arg1)) k.val d := by
  subst hS
  rw [vin1_v1, W2_out, arr0_out, arr0_out, acc0_last, acc0_last, vin0_arg0, vin0_v0, labrow_eq]
  exact (Cert.Algebra.segSum_halves _ _ k.val d).symm

/-- The new centres the second kernel forms, on the first 1000 rows, are the specification's. -/
theorem nc1_rows (k : Fin 1000) (d : Fin 512) :
    nc1 (F := Ideal) (Vin1 m) c (ix2 (Cert.Algebra.up k) d)
      = Cert.Spec.newCenter (m ((c.tc : Thread nD τ).loc main_arg0)) (m ((c.tc : Thread nD τ).loc main_arg1))
          (m ((c.tc : Thread nD τ).loc main_arg2)) k d := by
  rw [nc1_apply (Vin1 m) c _ _ _ rfl rfl rfl, vin1_v8_apply, vin1_v1_apply m c _ rfl, vin1_v7_apply]
  rfl

/-! ## The precondition: every feature and every centre is a real number -/

/-- A rank-0 array has one index. -/
instance : Subsingleton (⟨0, ![]⟩ : Shape).Idx := ⟨fun a b => funext fun d => d.elim0⟩

/-- A value whose absolute value compares below the word of `+∞` is a real number. -/
theorem real_of_abs_lt_inf (a : Ideal .f32)
    (h : FloatOps.cmpf .olt (FloatOps.hostAbsf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction a using EReal.rec with
  | bot => simp [Ideal.cmp] at h
  | coe r => exact ⟨r, rfl⟩
  | top => simp [Ideal.cmp] at h

/-- Under the precondition the features and the centres are arrays of real numbers. -/
theorem finite_of_pre (hpre : Cert.Pre_KernelIdeal (hPre_finite_inputs := Cert.Pre_finite_inputs.Gen.facts) m) :
    Cert.Algebra.Finite (S := Cert.Spec.SFeat) (m ((c.tc : Thread nD τ).loc main_arg0))
      ∧ Cert.Algebra.Finite (S := Cert.Spec.SCen) (m ((c.tc : Thread nD τ).loc main_arg2)) := by
  have h := congrFun (hpre c) ix0
  dsimp only [Cert.Pre_finite_inputs.fn] at h
  obtain ⟨h1, h2⟩ := IntOp.andi_eq_one.mp h
  exact ⟨fun i => real_of_abs_lt_inf _ (Host.reduce_andi_all _ _ _ _ ix0 h1 i),
    fun i => real_of_abs_lt_inf _ (Host.reduce_andi_all _ _ _ _ ix0 h2 i)⟩

/-! ## The two results -/

/-- Under the precondition (every feature and every centre a finite number) the two results the program ends with,
    read off the last buffer contents, are the specification's loss and new centres of the argument arrays. -/
theorem results_eq (m : (ℓ : Loc nD τ sig) → Buf (Elt Ideal) ℓ)
    (hpre : Cert.Pre_KernelIdeal (hPre_finite_inputs := Cert.Pre_finite_inputs.Gen.facts) m) (c : Dev nD) :
    Gen.V8 m (outsK m) c main_v10
        = Cert.Spec.lossArr (m ((c.tc : Thread nD τ).loc main_arg0)) (m ((c.tc : Thread nD τ).loc main_arg1)) (m ((c.tc : Thread nD τ).loc main_arg2))
    ∧ Gen.V8 m (outsK m) c main_v11
        = Cert.Spec.newCenterArr (m ((c.tc : Thread nD τ).loc main_arg0)) (m ((c.tc : Thread nD τ).loc main_arg1)) (m ((c.tc : Thread nD τ).loc main_arg2)) := by
  obtain ⟨hf, hc⟩ := finite_of_pre m c hpre
  have hreal := fun (k : Fin 1000) (d : Fin 512) =>
    Cert.Algebra.newCenter_finite (m ((c.tc : Thread nD τ).loc main_arg0)) (m ((c.tc : Thread nD τ).loc main_arg1))
      (m ((c.tc : Thread nD τ).loc main_arg2)) hf hc k d
  constructor
  · funext i
    have hi : (S1x1.rowMajor (ix2 (0 : Fin 1) (0 : Fin 1))).val = (S_.rowMajor i).val := by
      have h1 := (S1x1.rowMajor (ix2 (0 : Fin 1) (0 : Fin 1))).isLt
      have h2 := (S_.rowMajor i).isLt
      have e1 : S1x1.numel = 1 := by decide
      have e2 : S_.numel = 1 := by decide
      omega
    rw [v8_v10, outsK_seven, W7_loss, arr1_loss, shapeCast_apply (s := S1x1) (t := S_) (loss1 (Vin1 m) c 3 lt3_N1) Gen.shapeCasts_S1x1_S_ i (ix2 0 0) hi, loss1_last,
      Cert.Algebra.loss_eq _ _ _ _ (nc1_rows m c) hreal]
    rfl
  · funext i
    obtain ⟨k, d, rfl⟩ : ∃ (k : Fin 1000) (d : Fin 512), i = ix2 k d := ⟨i 0, i 1, eq_ix2 i⟩
    rw [v8_v11, outsK_seven, W7_newc, arr1_newc,
      extractStridedSlice_apply ![0, 0] _ _ (ix2 k d) (ix2 (Cert.Algebra.up k) d) (fun a => match a with
        | ⟨0, _⟩ => by show k.val = 0 + k.val; omega
        | ⟨1, _⟩ => by show d.val = 0 + d.val; omega),
      nc1_rows]
    rfl

end Cert.KernelIdeal.Hand

end
-- ==== Proof.RefValue.lean ====
/-
  The reference program's two results are the specification's arrays.

  Each operation of the reference is read at an index from its operands at an index; the two accumulating scatters are
  read as "the operand's element plus the sum of the updates whose index is that element's". Stage by stage: the
  per-class counts, the per-class feature sums, the new centres, their squared norms and inner products, the clamped
  distance, the hinge, and the mean over all ordered pairs.
-/
import proofs.«421983_j29111288332477_3_alg».proof.Proof.Gen.ReferenceIdeal.Run
import proofs.«421983_j29111288332477_3_alg».proof.Proof.Gen.ReferenceIdeal.Read
import proofs.«421983_j29111288332477_3_alg».proof.Proof.Spec
import proofs.«421983_j29111288332477_3_alg».proof.Proof.SpecArr
import proofs.«421983_j29111288332477_3_alg».proof.Proof.LibGatherScatter

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.GatherScatter

/-! ## The float literals the reference spells -/

/-- The word of `1.0` denotes `1`. -/
theorem word_one : Ideal.ofBits .f32 0x3F800000#32 = 1 := by
  simp [Ideal.ofBits, Ideal.ieee, -EReal.coe_mul]; norm_num

/-- The word of `2.0` denotes `2`. -/
theorem word_two : Ideal.ofBits .f32 0x40000000#32 = 2 := by
  simp [Ideal.ofBits, Ideal.ieee, -EReal.coe_mul]; norm_num
  norm_cast

/-- The word of `5.0` denotes `5`. -/
theorem word_five : Ideal.ofBits .f32 0x40A00000#32 = 5 := by
  simp [Ideal.ofBits, Ideal.ieee, -EReal.coe_mul]; norm_num
  norm_cast

/-- The word of `1e6` denotes `1000000`. -/
theorem word_million : Ideal.ofBits .f32 0x49742400#32 = 1000000 := by
  simp [Ideal.ofBits, Ideal.ieee, -EReal.coe_mul]; norm_num
  norm_cast

/-! ## The two scatters' dimension numbers -/

theorem vecDims_eq : scatter_S1000_S32768x1_S32768_n_0_0_1
    = vecScatterDims 1000 32768 Gen.scatter_S1000_S32768x1_S32768_n_0_0_1_wf := rfl

theorem rowDims_eq : scatter_S1000x512_S32768x1_S32768x512_1_0_0_1
    = rowScatterDims 1000 512 32768 Gen.scatter_S1000x512_S32768x1_S32768x512_1_0_0_1_wf := rfl

/-! ## The per-class counts and feature sums -/

variable (x0 : (⟨S32768x512, .f32⟩ : BufTy).Contents (Elt Ideal)) (x1 : (⟨S32768, .i32⟩ : BufTy).Contents (Elt Ideal))
  (x2 : (⟨S1000x512, .f32⟩ : BufTy).Contents (Elt Ideal))

/-- The first scatter's index column, read at row `j`, is the label of sample `j`. -/
theorem idxcol_v2 (j : Fin 32768) : val_main_v2 (F := Ideal) x1 (ix2 j 0) = x1 (ix1 j) := by
  rw [val_main_v2_apply]
  exact congrArg x1 (funext fun a => Fin.ext (by match a with | ⟨0, _⟩ => rfl))

/-- The second scatter's index column, read at row `j`, is the label of sample `j`. -/
theorem idxcol_v5 (j : Fin 32768) : val_main_v5 (F := Ideal) x1 (ix2 j 0) = x1 (ix1 j) := by
  rw [val_main_v5_apply]
  exact congrArg x1 (funext fun a => Fin.ext (by match a with | ⟨0, _⟩ => rfl))

/-- The first scatter at class `k`: how many samples carry the label `k`. -/
theorem counts_apply (k : Fin 1000) : val_main_v3 (F := Ideal) x1 (ix1 k) = Cert.Spec.count x1 k.val := by
  unfold val_main_v3
  rw [vecDims_eq, vecScatterAdd_apply, val_main_v1_apply, val_main_cst_0_apply]
  simp only [idxcol_v2, val_main_v0_apply, val_main_cst_apply, Ideal.ofBits_def, Ideal.ofBits_zero_f32, word_one, zero_add]
  rfl

/-- The second scatter at class `k`, column `d`: the sum of that column over the samples labelled `k`. -/
theorem sums_apply (k : Fin 1000) (d : Fin 512) :
    val_main_v6 (F := Ideal) x0 x1 (ix2 k d) = Cert.Spec.segSum x0 x1 k.val d := by
  unfold val_main_v6
  rw [rowDims_eq, rowScatterAdd_apply, val_main_v4_apply, val_main_cst_1_apply]
  simp only [idxcol_v5, Ideal.ofBits_def, Ideal.ofBits_zero_f32, zero_add]
  rfl

/-! ## The new centres -/

/-- The new centre of class `k`, column `d`: the old centre plus the class mean. -/
theorem newCenter_apply (k : Fin 1000) (d : Fin 512) :
    val_main_v12 (F := Ideal) x0 x1 x2 (ix2 k d) = Cert.Spec.newCenter x0 x1 x2 k d := by
  have e : idx_main_v9 (idx_main_v10 (ix2 k d)) = ix1 k :=
    funext fun a => Fin.ext (by match a with | ⟨0, _⟩ => rfl)
  rw [val_main_v12_apply, val_main_v11_apply, val_main_v10_apply, val_main_v9_apply, e, val_main_v8_apply,
    val_main_v7_apply, val_main_cst_2_apply, sums_apply, counts_apply]
  simp only [Ideal.addf_def, Ideal.hostDivf_def, Ideal.maximumf_def, Ideal.ofBits_def, word_one]
  rfl

/-- The new centres as an array. -/
theorem newCenterArr_eq : val_main_v12 (F := Ideal) x0 x1 x2 = Cert.Spec.newCenterArr x0 x1 x2 := by
  funext i
  obtain ⟨k, d, rfl⟩ : ∃ (k : Fin 1000) (d : Fin 512), i = ix2 k d := ⟨i 0, i 1, eq_ix2 i⟩
  rw [newCenter_apply]
  rfl

/-! ## Squared norms, inner products and distances of the new centres -/

/-- The row sums of the squared new centres. -/
theorem sqNorm_apply (k : Fin 1000) :
    val_main_v14 (F := Ideal) x0 x1 x2 (ix1 k) = Cert.Spec.sqNorm x0 x1 x2 k := by
  rw [val_main_v14_apply, val_main_cst_3_apply]
  simp only [Ideal.ofBits_def, Ideal.ofBits_zero_f32, zero_add]
  unfold Cert.Spec.sqNorm
  refine Finset.sum_congr rfl fun d _ => ?_
  have e : idx_main_v14 (ix1 k) d = ix2 k d :=
    funext fun a => Fin.ext (by match a with | ⟨0, _⟩ => rfl | ⟨1, _⟩ => rfl)
  rw [e, val_main_v13_apply, newCenter_apply]
  rfl

/-- The product of the new centres with their transpose. -/
theorem gram_apply (i j : Fin 1000) :
    val_main_v21 (F := Ideal) x0 x1 x2 (ix2 i j) = Cert.Spec.gram x0 x1 x2 i j := by
  rw [val_main_v21_apply]
  unfold Cert.Spec.gram
  refine Finset.sum_congr rfl fun d _ => ?_
  have el : lidx_main_v21 (ix2 i j) d = ix2 i d :=
    funext fun a => Fin.ext (by match a with | ⟨0, _⟩ => rfl | ⟨1, _⟩ => rfl)
  have er : idx_main_v20 (ridx_main_v21 (ix2 i j) d) = ix2 j d :=
    funext fun a => Fin.ext (by match a with | ⟨0, _⟩ => rfl | ⟨1, _⟩ => rfl)
  rw [val_main_v20_apply, el, er, newCenter_apply, newCenter_apply]

/-- The distance between two new centres. -/
theorem dist_apply (i j : Fin 1000) :
    val_main_v27 (F := Ideal) x0 x1 x2 (ix2 i j) = Cert.Spec.dist x0 x1 x2 i j := by
  have ei : idx_main_v15 (idx_main_v17 (ix2 i j)) = ix1 i :=
    funext fun a => Fin.ext (by match a with | ⟨0, _⟩ => rfl)
  have ej : idx_main_v16 (idx_main_v18 (ix2 i j)) = ix1 j :=
    funext fun a => Fin.ext (by match a with | ⟨0, _⟩ => rfl)
  rw [val_main_v27_apply, val_main_v26_apply, val_main_v24_apply, val_main_v19_apply, val_main_v17_apply,
    val_main_v15_apply, ei, val_main_v18_apply, val_main_v16_apply, ej, val_main_v23_apply, val_main_v22_apply,
    val_main_cst_4_apply, val_main_v25_apply, val_main_cst_5_apply, sqNorm_apply, sqNorm_apply, gram_apply]
  simp only [Ideal.hostUnary_sqrt_def, Ideal.maximumf_def, Ideal.subf_def, Ideal.addf_def, Ideal.mulf_def,
    Ideal.ofBits_def, Ideal.ofBits_zero_f32, word_two]
  rfl

/-! ## The hinge and the loss -/

/-- The compare-and-select is the hinge on the distance. -/
theorem hinge_apply (i j : Fin 1000) :
    val_main_v32 (F := Ideal) x0 x1 x2 (ix2 i j) = Cert.Spec.hinge x0 x1 x2 i j := by
  rw [val_main_v32_apply, val_main_v29_apply, val_main_v31_apply, val_main_v28_apply, val_main_cst_6_apply,
    val_main_v30_apply, val_main_cst_7_apply, val_main_call0_v1_apply, val_main_call0_v0_apply, val_main_cst_8_apply,
    dist_apply]
  simp only [Ideal.cmpf_def, Ideal.subf_def, Ideal.ofBits_def, Ideal.ofBits_zero_f32, word_five]
  unfold Cert.Spec.hinge Cert.Spec.hingeOf Scalar.select Ideal.cmp
  by_cases h : Cert.Spec.dist x0 x1 x2 i j < 5
  · simp [h]
  · simp [h]

/-- The mean of the hinge over all ordered pairs of classes. -/
theorem loss_apply (i : S_.Idx) : val_main_v34 (F := Ideal) x0 x1 x2 i = Cert.Spec.loss x0 x1 x2 := by
  rw [val_main_v34_apply, val_main_v33_apply, val_main_cst_9_apply, val_main_cst_10_apply, sum_idx2]
  simp only [Ideal.hostDivf_def, Ideal.ofBits_def, Ideal.ofBits_zero_f32, word_million, zero_add, hinge_apply]
  rfl

/-- The loss as a rank-0 array. -/
theorem lossArr_eq : val_main_v34 (F := Ideal) x0 x1 x2 = Cert.Spec.lossArr x0 x1 x2 :=
  funext fun i => loss_apply x0 x1 x2 i

/-! ## The reference's run ends at the specification's arrays -/

/-- Every weakly fair execution of the reference ends with the loss buffer at the specification's loss, the
    new-centre buffer at the specification's new centres, and the three arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v34)
          = Cert.Spec.lossArr (m ((c.tc : Thread nD τ).loc main_arg0)) (m ((c.tc : Thread nD τ).loc main_arg1))
              (m ((c.tc : Thread nD τ).loc main_arg2))
      ∧ r.2.mem ((c.tc : Thread nD τ).loc main_v12)
          = Cert.Spec.newCenterArr (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c =>
      ⟨(h c).1.trans ((val_main_v34_eq m c).trans (lossArr_eq _ _ _)),
        (h c).2.1.trans ((val_main_v12_eq _ _ _).trans (newCenterArr_eq _ _ _)),
        (h c).2.2⟩)
    (Cert.ReferenceIdeal.Value.run (F := Ideal) m ρ)

end Cert.ReferenceIdeal.RefValue

end
-- ==== Proof.lean ====
/-
  A class-centre loss: per-class sums of the features (a scatter-add in the reference; in the kernel program a one-hot
  matrix product accumulated over the batch in two halves), the new centres (old centre plus class mean), and the
  mean over all pairs of classes of a hinge on the distance between new centres.

  The kernel program is two kernels among host operations. Its run is read off the kernels' own proof data: the first
  kernel's output slab of half h holds, at class row k, the half's sum of the features of the samples labelled k; the
  second kernel forms the new centres from the two slabs, the padded counts and the padded centres, keeps them in its
  scratch buffer, and adds up the loss over four blocks of 256 rows of the distance matrix, forcing the diagonal to
  zero, masking the padding and dividing each block's sum by 10^6.  Over the extended reals, with finite features and
  centres, this is the reference's value: the two halves' sums add up to the class sum; on the diagonal the
  reference's clamped squared distance is exactly zero; the masked padding contributes nothing; and dividing each
  block's sum by 10^6 before adding is dividing the total.

  The three frames: both kernel programs run to the end with the arguments unchanged (the same run, read at the
  arguments); the reference's frame is its run with the results dropped. The idealization rewrote nothing.
-/
import proofs.«421983_j29111288332477_3_alg».proof.Defs
import proofs.«421983_j29111288332477_3_alg».proof.Proof.Gen.Kernel
import proofs.«421983_j29111288332477_3_alg».proof.Proof.Gen.KernelIdeal
import proofs.«421983_j29111288332477_3_alg».proof.Proof.Gen.ReferenceIdeal
import proofs.«421983_j29111288332477_3_alg».proof.Proof.Gen.Pre_finite_inputs
import proofs.«421983_j29111288332477_3_alg».proof.Proof.KRun
import proofs.«421983_j29111288332477_3_alg».proof.Proof.KIRun
import proofs.«421983_j29111288332477_3_alg».proof.Proof.KIBridge
import proofs.«421983_j29111288332477_3_alg».proof.Proof.RefValue

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.RefValue.run_spec m ρ)

/-- Both programs end with the specification's loss and new centres of the (agreeing) argument arrays. -/
theorem algebraic : Cert.algebraic_KernelIdeal_ReferenceIdeal := by
  intro m ρ m' ρ' hpre hagree
  refine ⟨fun c => Cert.Spec.lossArr (m ((c.tc : Thread _ _).loc Cert.KernelIdeal.main_arg0)) (m ((c.tc : Thread _ _).loc Cert.KernelIdeal.main_arg1)) (m ((c.tc : Thread _ _).loc Cert.KernelIdeal.main_arg2)),
    fun c => Cert.Spec.newCenterArr (m ((c.tc : Thread _ _).loc Cert.KernelIdeal.main_arg0)) (m ((c.tc : Thread _ _).loc Cert.KernelIdeal.main_arg1)) (m ((c.tc : Thread _ _).loc Cert.KernelIdeal.main_arg2)),
    ?_, ?_⟩
  · refine (θ_run Cert.KernelIdeal.defs _ _).mono (fun _ h c => ?_) (Cert.KernelIdeal.Hand.run_main m ρ)
    have hr := Cert.KernelIdeal.Hand.results_eq m hpre c
    exact ⟨(h c _ (Cert.KernelIdeal.Hand.mem_uc Cert.KernelIdeal.main_v10 (by decide))).trans hr.1,
      (h c _ (Cert.KernelIdeal.Hand.mem_uc Cert.KernelIdeal.main_v11 (by decide))).trans hr.2,
      (h c _ (Cert.KernelIdeal.Hand.mem_uc Cert.KernelIdeal.main_arg0 (by decide))).trans (Cert.KernelIdeal.Gen.V8_main_arg0 m _ c),
      (h c _ (Cert.KernelIdeal.Hand.mem_uc Cert.KernelIdeal.main_arg1 (by decide))).trans (Cert.KernelIdeal.Gen.V8_main_arg1 m _ c),
      (h c _ (Cert.KernelIdeal.Hand.mem_uc Cert.KernelIdeal.main_arg2 (by decide))).trans (Cert.KernelIdeal.Gen.V8_main_arg2 m _ c)⟩
  · refine (θ_run Cert.ReferenceIdeal.defs _ _).mono (fun _ h c => ?_) (Cert.ReferenceIdeal.RefValue.run_spec m' ρ')
    refine ⟨(h c).1.trans ?_, (h c).2.1.trans ?_, (h c).2.2⟩
    · rw [(hagree c).1, (hagree c).2.1, (hagree c).2.2]
    · rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
